-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6x100x128x128 : Shape := ⟨5, ![2, 6, 100, 128, 128]⟩
abbrev S2x6x100x256 : Shape := ⟨4, ![2, 6, 100, 256]⟩
abbrev S2x6x20x128x128 : Shape := ⟨5, ![2, 6, 20, 128, 128]⟩
abbrev S6x2x20 : Shape := ⟨3, ![6, 2, 20]⟩
abbrev S_ : Shape := ⟨0, ![]⟩

class Facts : Prop where
  bcast_S_S2x6x100x128x128 : S_.BroadcastsInDim S2x6x100x128x128 (![] : Fin 0 → Fin S2x6x100x128x128.rank)
  reducesTo_S2x6x100x128x128_S_d0_1_2_3_4 : S2x6x100x128x128.ReducesTo [0, 1, 2, 3, 4] S_
  h_S_ : 0 < S_.numel
  bcast_S_S2x6x100x256 : S_.BroadcastsInDim S2x6x100x256 (![] : Fin 0 → Fin S2x6x100x256.rank)
  reducesTo_S2x6x100x256_S_d0_1_2_3 : S2x6x100x256.ReducesTo [0, 1, 2, 3] S_
  bcast_S_S2x6x20x128x128 : S_.BroadcastsInDim S2x6x20x128x128 (![] : Fin 0 → Fin S2x6x20x128x128.rank)
  reducesTo_S2x6x20x128x128_S_d0_1_2_3_4 : S2x6x20x128x128.ReducesTo [0, 1, 2, 3, 4] S_
  bcast_S_S6x2x20 : S_.BroadcastsInDim S6x2x20 (![] : Fin 0 → Fin S6x2x20.rank)
  reducesTo_S6x2x20_S_d0_1_2 : S6x2x20.ReducesTo [0, 1, 2] S_

variable [Facts]

def fn_part1 {F : FTy → Type} [FloatOps F] (main_arg3 : IVec S6x2x20 32) (main_v13 : IVec S_ 1) (main_v15 : IVec S6x2x20 1) (main_c_5 : IVec S_ 32) : IVec S_ 1 :=
  let main_v16 : IVec S6x2x20 32 := broadcastInDim S6x2x20 ![] bcast_S_S6x2x20 main_c_5
  let main_v17 : IVec S6x2x20 1 := cmpi .slt main_arg3 main_v16
  let main_v18 : IVec S6x2x20 1 := andi main_v15 main_v17
  let main_c_6 : IVec S_ 1 := constantI S_ 1 1#1
  let main_v19 : IVec S_ 1 := (fun x v => Host.reduce IntOp.andi x v reducesTo_S6x2x20_S_d0_1_2 h_S_) main_v18 main_c_6
  let main_v20 : IVec S_ 1 := andi main_v13 main_v19
  main_v20

def fn {F : FTy → Type} [FloatOps F] (main_arg0 : FVec F S2x6x100x128x128 .f32) (main_arg1 : FVec F S2x6x100x256 .f32) (main_arg2 : FVec F S2x6x20x128x128 .f32) (main_arg3 : IVec S6x2x20 32) : IVec S_ 1 :=
  let main_v0 : FVec F S2x6x100x128x128 .f32 := Host.absf main_arg0
  let main_cst : FVec F S_ .f32 := constant S_ .f32 0x7F800000#32
  let main_v1 : FVec F S2x6x100x128x128 .f32 := broadcastInDim S2x6x100x128x128 ![] bcast_S_S2x6x100x128x128 main_cst
  let main_v2 : IVec S2x6x100x128x128 1 := cmpf .olt main_v0 main_v1
  let main_c : IVec S_ 1 := constantI S_ 1 1#1
  let main_v3 : IVec S_ 1 := (fun x v => Host.reduce IntOp.andi x v reducesTo_S2x6x100x128x128_S_d0_1_2_3_4 h_S_) main_v2 main_c
  let main_v4 : FVec F S2x6x100x256 .f32 := Host.absf main_arg1
  let main_cst_0 : FVec F S_ .f32 := constant S_ .f32 0x7F800000#32
  let main_v5 : FVec F S2x6x100x256 .f32 := broadcastInDim S2x6x100x256 ![] bcast_S_S2x6x100x256 main_cst_0
  let main_v6 : IVec S2x6x100x256 1 := cmpf .olt main_v4 main_v5
  let main_c_1 : IVec S_ 1 := constantI S_ 1 1#1
  let main_v7 : IVec S_ 1 := (fun x v => Host.reduce IntOp.andi x v reducesTo_S2x6x100x256_S_d0_1_2_3 h_S_) main_v6 main_c_1
  let main_v8 : IVec S_ 1 := andi main_v3 main_v7
  let main_v9 : FVec F S2x6x20x128x128 .f32 := Host.absf main_arg2
  let main_cst_2 : FVec F S_ .f32 := constant S_ .f32 0x7F800000#32
  let main_v10 : FVec F S2x6x20x128x128 .f32 := broadcastInDim S2x6x20x128x128 ![] bcast_S_S2x6x20x128x128 main_cst_2
  let main_v11 : IVec S2x6x20x128x128 1 := cmpf .olt main_v9 main_v10
  let main_c_3 : IVec S_ 1 := constantI S_ 1 1#1
  let main_v12 : IVec S_ 1 := (fun x v => Host.reduce IntOp.andi x v reducesTo_S2x6x20x128x128_S_d0_1_2_3_4 h_S_) main_v11 main_c_3
  let main_v13 : IVec S_ 1 := andi main_v8 main_v12
  let main_c_4 : IVec S_ 32 := constantI S_ 32 0#32
  let main_v14 : IVec S6x2x20 32 := broadcastInDim S6x2x20 ![] bcast_S_S6x2x20 main_c_4
  let main_v15 : IVec S6x2x20 1 := cmpi .sge main_arg3 main_v14
  let main_c_5 : IVec S_ 32 := constantI S_ 32 100#32
  fn_part1 (F := F) main_arg3 main_v13 main_v15 main_c_5
-- ==== Kernel.lean ====
abbrev S2x6x100x128x128 : Shape := ⟨5, ![2, 6, 100, 128, 128]⟩
abbrev S2x6x100x256 : Shape := ⟨4, ![2, 6, 100, 256]⟩
abbrev S2x6x20x128x128 : Shape := ⟨5, ![2, 6, 20, 128, 128]⟩
abbrev S6x2x20 : Shape := ⟨3, ![6, 2, 20]⟩
abbrev S6x2x1x20 : Shape := ⟨4, ![6, 2, 1, 20]⟩
abbrev S1x1x100x128x128 : Shape := ⟨5, ![1, 1, 100, 128, 128]⟩
abbrev S1x1x20x128x128 : Shape := ⟨5, ![1, 1, 20, 128, 128]⟩
abbrev S1x1x1x20 : Shape := ⟨4, ![1, 1, 1, 20]⟩
abbrev S20x128x128 : Shape := ⟨3, ![20, 128, 128]⟩
abbrev S1x1x1 : Shape := ⟨3, ![1, 1, 1]⟩
abbrev S1x1x1x128x128 : Shape := ⟨5, ![1, 1, 1, 128, 128]⟩
abbrev S128x128 : Shape := ⟨2, ![128, 128]⟩
abbrev S1x128x128 : Shape := ⟨3, ![1, 128, 128]⟩
abbrev S20x128 : Shape := ⟨2, ![20, 128]⟩
abbrev S20 : Shape := ⟨1, ![20]⟩
abbrev S1x20 : Shape := ⟨2, ![1, 20]⟩
abbrev S_ : Shape := ⟨0, ![]⟩
abbrev S6x2x100x256 : Shape := ⟨4, ![6, 2, 100, 256]⟩
abbrev S6x2x100 : Shape := ⟨3, ![6, 2, 100]⟩
abbrev S6x2x100x1 : Shape := ⟨4, ![6, 2, 100, 1]⟩
abbrev S6x2x20x1 : Shape := ⟨4, ![6, 2, 20, 1]⟩
abbrev S1 : Shape := ⟨1, ![1]⟩
abbrev S1x1x1x1 : Shape := ⟨4, ![1, 1, 1, 1]⟩
abbrev S6x2x20x256 : Shape := ⟨4, ![6, 2, 20, 256]⟩
abbrev S5x2x20x256 : Shape := ⟨4, ![5, 2, 20, 256]⟩
abbrev S5x2x20x20 : Shape := ⟨4, ![5, 2, 20, 20]⟩
abbrev S5x2x20 : Shape := ⟨3, ![5, 2, 20]⟩
abbrev S5x2x20x1 : Shape := ⟨4, ![5, 2, 20, 1]⟩
abbrev S20x1 : Shape := ⟨2, ![20, 1]⟩
abbrev S20x2 : Shape := ⟨2, ![20, 2]⟩

abbrev nBuf : Space → Nat
  | .hbm => 156
  | .vmem => 11
  | .smem => 1
  | _ => 0

abbrev hbmTy0_0 (i : Nat) : BufTy := match i % 128 with
  | 0 => ⟨S2x6x100x128x128, .f32⟩
  | 1 => ⟨S2x6x100x256, .f32⟩
  | 2 => ⟨S2x6x20x128x128, .f32⟩
  | 3 => ⟨S6x2x1x20, .f32⟩
  | 4 => ⟨S6x2x1x20, .f32⟩
  | 5 => ⟨S6x2x1x20, .f32⟩
  | 6 => ⟨S6x2x20, .f32⟩
  | 7 => ⟨S6x2x20, .f32⟩
  | 8 => ⟨S6x2x20, .f32⟩
  | 9 => ⟨S_, .f32⟩
  | 10 => ⟨S_, .f32⟩
  | 11 => ⟨S_, .f32⟩
  | 12 => ⟨S_, .f32⟩
  | 13 => ⟨S6x2x20, .f32⟩
  | 14 => ⟨S_, .f32⟩
  | 15 => ⟨S6x2x20, .f32⟩
  | 16 => ⟨S6x2x20, .f32⟩
  | 17 => ⟨S_, .f32⟩
  | 18 => ⟨S_, .f32⟩
  | 19 => ⟨S_, .f32⟩
  | 20 => ⟨S_, .f32⟩
  | 21 => ⟨S6x2x100x256, .f32⟩
  | 22 => ⟨S6x2x100x256, .f32⟩
  | 23 => ⟨S_, .f32⟩
  | 24 => ⟨S6x2x100, .f32⟩
  | 25 => ⟨S6x2x100x1, .f32⟩
  | 26 => ⟨S6x2x100x1, .f32⟩
  | 27 => ⟨S_, .f32⟩
  | 28 => ⟨S_, .f32⟩
  | 29 => ⟨S6x2x100x1, .f32⟩
  | 30 => ⟨S6x2x100x1, .f32⟩
  | 31 => ⟨S6x2x100x256, .f32⟩
  | 32 => ⟨S6x2x100x256, .f32⟩
  | 33 => ⟨S6x2x20x1, .i32⟩
  | 34 => ⟨S_, .i32⟩
  | 35 => ⟨S6x2x20x1, .i32⟩
  | 36 => ⟨S6x2x20x1, .i1⟩
  | 37 => ⟨S_, .i32⟩
  | 38 => ⟨S6x2x20x1, .i32⟩
  | 39 => ⟨S6x2x20x1, .i32⟩
  | 40 => ⟨S6x2x20x1, .i32⟩
  | 41 => ⟨S1, .i32⟩
  | 42 => ⟨S_, .i32⟩
  | 43 => ⟨S6x2x20x1, .i32⟩
  | 44 => ⟨S6x2x20x1, .i1⟩
  | 45 => ⟨S1x1x1x1, .i32⟩
  | 46 => ⟨S6x2x20x1, .i32⟩
  | 47 => ⟨S6x2x20x1, .i1⟩
  | 48 => ⟨S6x2x20x1, .i1⟩
  | 49 => ⟨S_, .i1⟩
  | 50 => ⟨S6x2x20, .i1⟩
  | 51 => ⟨S6x2x20x256, .f32⟩
  | 52 => ⟨S6x2x20x256, .i1⟩
  | 53 => ⟨S_, .f32⟩
  | 54 => ⟨S6x2x20x256, .f32⟩
  | 55 => ⟨S6x2x20x256, .f32⟩
  | 56 => ⟨S5x2x20x256, .f32⟩
  | 57 => ⟨S5x2x20x256, .f32⟩
  | 58 => ⟨S5x2x20x20, .f32⟩
  | 59 => ⟨S_, .f32⟩
  | 60 => ⟨S5x2x20x20, .f32⟩
  | 61 => ⟨S5x2x20x20, .f32⟩
  | 62 => ⟨S_, .f32⟩
  | 63 => ⟨S5x2x20, .f32⟩
  | 64 => ⟨S_, .f32⟩
  | 65 => ⟨S5x2x20, .f32⟩
  | 66 => ⟨S5x2x20, .f32⟩
  | 67 => ⟨S5x2x20x1, .f32⟩
  | 68 => ⟨S5x2x20x20, .f32⟩
  | 69 => ⟨S5x2x20x20, .f32⟩
  | 70 => ⟨S5x2x20x20, .f32⟩
  | 71 => ⟨S_, .f32⟩
  | 72 => ⟨S5x2x20, .f32⟩
  | 73 => ⟨S5x2x20x1, .f32⟩
  | 74 => ⟨S5x2x20x1, .f32⟩
  | 75 => ⟨S5x2x20x20, .f32⟩
  | 76 => ⟨S5x2x20x20, .f32⟩
  | 77 => ⟨S20, .i32⟩
  | 78 => ⟨S20, .i32⟩
  | 79 => ⟨S_, .i32⟩
  | 80 => ⟨S20, .i32⟩
  | 81 => ⟨S20, .i1⟩
  | 82 => ⟨S_, .i32⟩
  | 83 => ⟨S20, .i32⟩
  | 84 => ⟨S20, .i32⟩
  | 85 => ⟨S20, .i32⟩
  | 86 => ⟨S_, .i32⟩
  | 87 => ⟨S20, .i32⟩
  | 88 => ⟨S20, .i1⟩
  | 89 => ⟨S_, .i32⟩
  | 90 => ⟨S20, .i32⟩
  | 91 => ⟨S20, .i32⟩
  | 92 => ⟨S20, .i32⟩
  | 93 => ⟨S20x1, .i32⟩
  | 94 => ⟨S20x1, .i32⟩
  | 95 => ⟨S20x2, .i32⟩
  | 96 => ⟨S5x2x20, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S5x2x20x20, .f32⟩
  | 104 => ⟨S5x2x20x20, .f32⟩
  | 105 => ⟨S_, .f32⟩
  | 106 => ⟨S5x2x20, .f32⟩
  | 107 => ⟨S_, .f32⟩
  | 108 => ⟨S5x2x20, .f32⟩
  | 109 => ⟨S5x2x20, .f32⟩
  | 110 => ⟨S5x2x20x1, .f32⟩
  | 111 => ⟨S5x2x20x20, .f32⟩
  | 112 => ⟨S5x2x20x20, .f32⟩
  | 113 => ⟨S5x2x20x20, .f32⟩
  | 114 => ⟨S_, .f32⟩
  | 115 => ⟨S5x2x20, .f32⟩
  | 116 => ⟨S5x2x20x1, .f32⟩
  | 117 => ⟨S5x2x20x1, .f32⟩
  | 118 => ⟨S5x2x20x20, .f32⟩
  | 119 => ⟨S5x2x20x20, .f32⟩
  | 120 => ⟨S20, .i32⟩
  | 121 => ⟨S20, .i32⟩
  | 122 => ⟨S_, .i32⟩
  | 123 => ⟨S20, .i32⟩
  | 124 => ⟨S20, .i1⟩
  | 125 => ⟨S_, .i32⟩
  | 126 => ⟨S20, .i32⟩
  | 127 => ⟨S20, .i32⟩
  | _ => ⟨S2x6x100x128x128, .f32⟩

abbrev hbmTy0_1 (i : Nat) : BufTy := match i % 128 with
  | 0 => ⟨S20, .i32⟩
  | 1 => ⟨S_, .i32⟩
  | 2 => ⟨S20, .i32⟩
  | 3 => ⟨S20, .i1⟩
  | 4 => ⟨S_, .i32⟩
  | 5 => ⟨S20, .i32⟩
  | 6 => ⟨S20, .i32⟩
  | 7 => ⟨S20, .i32⟩
  | 8 => ⟨S20x1, .i32⟩
  | 9 => ⟨S20x1, .i32⟩
  | 10 => ⟨S20x2, .i32⟩
  | 11 => ⟨S5x2x20, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S2x6x100x128x128, .f32⟩

abbrev hbmTy (i : Nat) : BufTy := match i / 128 with
  | 0 => hbmTy0_0 i
  | 1 => hbmTy0_1 i
  | _ => ⟨S2x6x100x128x128, .f32⟩

abbrev bufTy : (tb : Table) → Fin (tcTables nBuf tb) → BufTy
  | .hbm, ⟨i, _⟩ => hbmTy i
  | .local _ .vmem, ⟨0, _⟩ => ⟨S1x1x100x128x128, .f32⟩
  | .local _ .vmem, ⟨1, _⟩ => ⟨S1x1x100x128x128, .f32⟩
  | .local _ .vmem, ⟨2, _⟩ => ⟨S1x1x20x128x128, .f32⟩
  | .local _ .vmem, ⟨3, _⟩ => ⟨S1x1x20x128x128, .f32⟩
  | .local _ .vmem, ⟨4, _⟩ => ⟨S1x1x1x20, .f32⟩
  | .local _ .vmem, ⟨5, _⟩ => ⟨S1x1x1x20, .f32⟩
  | .local _ .vmem, ⟨6, _⟩ => ⟨S1x1x1x20, .f32⟩
  | .local _ .vmem, ⟨7, _⟩ => ⟨S1x1x1x20, .f32⟩
  | .local _ .vmem, ⟨8, _⟩ => ⟨S1x1x1x20, .f32⟩
  | .local _ .vmem, ⟨9, _⟩ => ⟨S1x1x1x20, .f32⟩
  | .local _ .vmem, ⟨10, _⟩ => ⟨S20x128x128, .f32⟩
  | .local _ .smem, ⟨0, _⟩ => ⟨S6x2x20, .i32⟩
  | _, _ => ⟨S2x6x100x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v12 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_c_2 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_c_3 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_5 : Ref sig .tc := ⟨.hbm, 59, rfl⟩
abbrev main_v21 : Ref sig .tc := ⟨.hbm, 60, rfl⟩
abbrev main_v22 : Ref sig .tc := ⟨.hbm, 61, rfl⟩
abbrev main_call3_cst : Ref sig .tc := ⟨.hbm, 62, rfl⟩
abbrev main_call3_v0 : Ref sig .tc := ⟨.hbm, 63, rfl⟩
abbrev main_call3_cst_0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_cst_1 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_v23 : Ref sig .tc := ⟨.hbm, 76, rfl⟩
abbrev main_call4_v0 : Ref sig .tc := ⟨.hbm, 77, rfl⟩
abbrev main_call4_v1 : Ref sig .tc := ⟨.hbm, 78, rfl⟩
abbrev main_call4_c : Ref sig .tc := ⟨.hbm, 79, rfl⟩
abbrev main_call4_v2 : Ref sig .tc := ⟨.hbm, 80, rfl⟩
abbrev main_call4_v3 : Ref sig .tc := ⟨.hbm, 81, rfl⟩
abbrev main_call4_c_0 : Ref sig .tc := ⟨.hbm, 82, rfl⟩
abbrev main_call4_v4 : Ref sig .tc := ⟨.hbm, 83, rfl⟩
abbrev main_call4_v5 : Ref sig .tc := ⟨.hbm, 84, rfl⟩
abbrev main_call4_v6 : Ref sig .tc := ⟨.hbm, 85, rfl⟩
abbrev main_call4_c_1 : Ref sig .tc := ⟨.hbm, 86, rfl⟩
abbrev main_call4_v7 : Ref sig .tc := ⟨.hbm, 87, rfl⟩
abbrev main_call4_v8 : Ref sig .tc := ⟨.hbm, 88, rfl⟩
abbrev main_call4_c_2 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_v12 : Ref sig .tc := ⟨.hbm, 93, rfl⟩
abbrev main_call4_v13 : Ref sig .tc := ⟨.hbm, 94, rfl⟩
abbrev main_call4_v14 : Ref sig .tc := ⟨.hbm, 95, rfl⟩
abbrev main_v24 : Ref sig .tc := ⟨.hbm, 96, rfl⟩
abbrev main_cst_6 : Ref sig .tc := ⟨.hbm, 97, rfl⟩
abbrev main_v25 : Ref sig .tc := ⟨.hbm, 98, rfl⟩
abbrev main_cst_7 : Ref sig .tc := ⟨.hbm, 99, rfl⟩
abbrev main_v26 : Ref sig .tc := ⟨.hbm, 100, rfl⟩
abbrev main_v27 : Ref sig .tc := ⟨.hbm, 101, rfl⟩
abbrev main_cst_8 : Ref sig .tc := ⟨.hbm, 102, rfl⟩
abbrev main_v28 : Ref sig .tc := ⟨.hbm, 103, rfl⟩
abbrev main_v29 : Ref sig .tc := ⟨.hbm, 104, rfl⟩
abbrev main_call5_cst : Ref sig .tc := ⟨.hbm, 105, rfl⟩
abbrev main_call5_v0 : Ref sig .tc := ⟨.hbm, 106, rfl⟩
abbrev main_call5_cst_0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_v6 : Ref sig .tc := ⟨.hbm, 113, rfl⟩
abbrev main_call5_cst_1 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_v30 : Ref sig .tc := ⟨.hbm, 119, rfl⟩
abbrev main_call6_v0 : Ref sig .tc := ⟨.hbm, 120, rfl⟩
abbrev main_call6_v1 : Ref sig .tc := ⟨.hbm, 121, rfl⟩
abbrev main_call6_c : Ref sig .tc := ⟨.hbm, 122, rfl⟩
abbrev main_call6_v2 : Ref sig .tc := ⟨.hbm, 123, rfl⟩
abbrev main_call6_v3 : Ref sig .tc := ⟨.hbm, 124, rfl⟩
abbrev main_call6_c_0 : Ref sig .tc := ⟨.hbm, 125, rfl⟩
abbrev main_call6_v4 : Ref sig .tc := ⟨.hbm, 126, rfl⟩
abbrev main_call6_v5 : Ref sig .tc := ⟨.hbm, 127, rfl⟩
abbrev main_call6_v6 : Ref sig .tc := ⟨.hbm, 128, rfl⟩
abbrev main_call6_c_1 : Ref sig .tc := ⟨.hbm, 129, rfl⟩
abbrev main_call6_v7 : Ref sig .tc := ⟨.hbm, 130, rfl⟩
abbrev main_call6_v8 : Ref sig .tc := ⟨.hbm, 131, rfl⟩
abbrev main_call6_c_2 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_v12 : Ref sig .tc := ⟨.hbm, 136, rfl⟩
abbrev main_call6_v13 : Ref sig .tc := ⟨.hbm, 137, rfl⟩
abbrev main_call6_v14 : Ref sig .tc := ⟨.hbm, 138, rfl⟩
abbrev main_v31 : Ref sig .tc := ⟨.hbm, 139, rfl⟩
abbrev main_cst_9 : Ref sig .tc := ⟨.hbm, 140, rfl⟩
abbrev main_v32 : Ref sig .tc := ⟨.hbm, 141, rfl⟩
abbrev main_cst_10 : Ref sig .tc := ⟨.hbm, 142, rfl⟩
abbrev main_v33 : Ref sig .tc := ⟨.hbm, 143, rfl⟩
abbrev main_v34 : Ref sig .tc := ⟨.hbm, 144, rfl⟩
abbrev main_cst_11 : Ref sig .tc := ⟨.hbm, 145, rfl⟩
abbrev main_v35 : Ref sig .tc := ⟨.hbm, 146, rfl⟩
abbrev main_cst_12 : Ref sig .tc := ⟨.hbm, 147, rfl⟩
abbrev main_v36 : Ref sig .tc := ⟨.hbm, 148, rfl⟩
abbrev main_v37 : Ref sig .tc := ⟨.hbm, 149, rfl⟩
abbrev main_cst_13 : Ref sig .tc := ⟨.hbm, 150, rfl⟩
abbrev main_v38 : Ref sig .tc := ⟨.hbm, 151, rfl⟩
abbrev main_v39 : Ref sig .tc := ⟨.hbm, 152, rfl⟩
abbrev main_cst_14 : Ref sig .tc := ⟨.hbm, 153, rfl⟩
abbrev main_v40 : Ref sig .tc := ⟨.hbm, 154, rfl⟩
abbrev main_v41 : Ref sig .tc := ⟨.hbm, 155, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0 : Index := 0#32
  ![v0.toNat, v1.toNat, 0]
def k0_off2 (v2 : BitVec 32) : Fin 5 → Nat :=
  let c0_0 : Index := 0#32
  let c0_1 : Index := 0#32
  let v3 : Index := Scalar.indexCast v2
  let c0_2 : Index := 0#32
  let c0_3 : Index := 0#32
  ![0, 0, v3.toNat, 0, 0]

def k0_chk1 (v2 : BitVec 32) : Prop :=
  (∀ a, (k0_off2 v2) a + S1x1x1x128x128.size a ≤ S1x1x100x128x128.size a)
instance k0_chk1.dec : ∀ (v2 : BitVec 32), Decidable (k0_chk1 v2) := fun v2 => decidable_of_iff' _ (Iff.of_eq (k0_chk1.eq_1 v2))
theorem k0_off2_inb : ∀ (v2 : BitVec 32) (k0_hw1 : k0_chk1 v2), ∀ a, (k0_off2 v2) a + S1x1x1x128x128.size a ≤ S1x1x100x128x128.size a := fun v2 k0_hw1 => k0_hw1

def k0_off3 (i : grid0.Coords) : Fin 3 → Nat :=
  let arg0 : BitVec 32 := BitVec.ofNat 32 (i 0).val
  let v9 : Index := Scalar.indexCast arg0
  let arg1 : BitVec 32 := BitVec.ofNat 32 (i 1).val
  let v10 : Index := Scalar.indexCast arg1
  let c1 : Index := 1#32
  ![v9.toNat, v10.toNat, 1]
def k0_off4 (v11 : BitVec 32) : Fin 5 → Nat :=
  let c0_7 : Index := 0#32
  let c0_8 : Index := 0#32
  let v12 : Index := Scalar.indexCast v11
  let c0_9 : Index := 0#32
  let c0_10 : Index := 0#32
  ![0, 0, v12.toNat, 0, 0]

def k0_chk2 (v11 : BitVec 32) : Prop :=
  (∀ a, (k0_off4 v11) a + S1x1x1x128x128.size a ≤ S1x1x100x128x128.size a)
instance k0_chk2.dec : ∀ (v11 : BitVec 32), Decidable (k0_chk2 v11) := fun v11 => decidable_of_iff' _ (Iff.of_eq (k0_chk2.eq_1 v11))
theorem k0_off4_inb : ∀ (v11 : BitVec 32) (k0_hw2 : k0_chk2 v11), ∀ a, (k0_off4 v11) a + S1x1x1x128x128.size a ≤ S1x1x100x128x128.size a := fun v11 k0_hw2 => k0_hw2

def k0_off5 (i : grid0.Coords) : Fin 3 → Nat :=
  let arg0 : BitVec 32 := BitVec.ofNat 32 (i 0).val
  let v18 : Index := Scalar.indexCast arg0
  let arg1 : BitVec 32 := BitVec.ofNat 32 (i 1).val
  let v19 : Index := Scalar.indexCast arg1
  let c2 : Index := 2#32
  ![v18.toNat, v19.toNat, 2]
def k0_off6 (v20 : BitVec 32) : Fin 5 → Nat :=
  let c0_14 : Index := 0#32
  let c0_15 : Index := 0#32
  let v21 : Index := Scalar.indexCast v20
  let c0_16 : Index := 0#32
  let c0_17 : Index := 0#32
  ![0, 0, v21.toNat, 0, 0]

def k0_chk3 (v20 : BitVec 32) : Prop :=
  (∀ a, (k0_off6 v20) a + S1x1x1x128x128.size a ≤ S1x1x100x128x128.size a)
instance k0_chk3.dec : ∀ (v20 : BitVec 32), Decidable (k0_chk3 v20) := fun v20 => decidable_of_iff' _ (Iff.of_eq (k0_chk3.eq_1 v20))
theorem k0_off6_inb : ∀ (v20 : BitVec 32) (k0_hw3 : k0_chk3 v20), ∀ a, (k0_off6 v20) a + S1x1x1x128x128.size a ≤ S1x1x100x128x128.size a := fun v20 k0_hw3 => k0_hw3

def k0_off7 (i : grid0.Coords) : Fin 3 → Nat :=
  let arg0 : BitVec 32 := BitVec.ofNat 32 (i 0).val
  let v27 : Index := Scalar.indexCast arg0
  let arg1 : BitVec 32 := BitVec.ofNat 32 (i 1).val
  let v28 : Index := Scalar.indexCast arg1
  let c3 : Index := 3#32
  ![v27.toNat, v28.toNat, 3]
def k0_off8 (v29 : BitVec 32) : Fin 5 → Nat :=
  let c0_21 : Index := 0#32
  let c0_22 : Index := 0#32
  let v30 : Index := Scalar.indexCast v29
  let c0_23 : Index := 0#32
  let c0_24 : Index := 0#32
  ![0, 0, v30.toNat, 0, 0]

def k0_chk4 (v29 : BitVec 32) : Prop :=
  (∀ a, (k0_off8 v29) a + S1x1x1x128x128.size a ≤ S1x1x100x128x128.size a)
instance k0_chk4.dec : ∀ (v29 : BitVec 32), Decidable (k0_chk4 v29) := fun v29 => decidable_of_iff' _ (Iff.of_eq (k0_chk4.eq_1 v29))
theorem k0_off8_inb : ∀ (v29 : BitVec 32) (k0_hw4 : k0_chk4 v29), ∀ a, (k0_off8 v29) a + S1x1x1x128x128.size a ≤ S1x1x100x128x128.size a := fun v29 k0_hw4 => k0_hw4

def k0_off9 (i : grid0.Coords) : Fin 3 → Nat :=
  let arg0 : BitVec 32 := BitVec.ofNat 32 (i 0).val
  let v36 : Index := Scalar.indexCast arg0
  let arg1 : BitVec 32 := BitVec.ofNat 32 (i 1).val
  let v37 : Index := Scalar.indexCast arg1
  let c4 : Index := 4#32
  ![v36.toNat, v37.toNat, 4]
def k0_off10 (v38 : BitVec 32) : Fin 5 → Nat :=
  let c0_28 : Index := 0#32
  let c0_29 : Index := 0#32
  let v39 : Index := Scalar.indexCast v38
  let c0_30 : Index := 0#32
  let c0_31 : Index := 0#32
  ![0, 0, v39.toNat, 0, 0]

def k0_chk5 (v38 : BitVec 32) : Prop :=
  (∀ a, (k0_off10 v38) a + S1x1x1x128x128.size a ≤ S1x1x100x128x128.size a)
instance k0_chk5.dec : ∀ (v38 : BitVec 32), Decidable (k0_chk5 v38) := fun v38 => decidable_of_iff' _ (Iff.of_eq (k0_chk5.eq_1 v38))
theorem k0_off10_inb : ∀ (v38 : BitVec 32) (k0_hw5 : k0_chk5 v38), ∀ a, (k0_off10 v38) a + S1x1x1x128x128.size a ≤ S1x1x100x128x128.size a := fun v38 k0_hw5 => k0_hw5

def k0_off11 (i : grid0.Coords) : Fin 3 → Nat :=
  let arg0 : BitVec 32 := BitVec.ofNat 32 (i 0).val
  let v45 : Index := Scalar.indexCast arg0
  let arg1 : BitVec 32 := BitVec.ofNat 32 (i 1).val
  let v46 : Index := Scalar.indexCast arg1
  let c5 : Index := 5#32
  ![v45.toNat, v46.toNat, 5]
def k0_off12 (v47 : BitVec 32) : Fin 5 → Nat :=
  let c0_35 : Index := 0#32
  let c0_36 : Index := 0#32
  let v48 : Index := Scalar.indexCast v47
  let c0_37 : Index := 0#32
  let c0_38 : Index := 0#32
  ![0, 0, v48.toNat, 0, 0]

def k0_chk6 (v47 : BitVec 32) : Prop :=
  (∀ a, (k0_off12 v47) a + S1x1x1x128x128.size a ≤ S1x1x100x128x128.size a)
instance k0_chk6.dec : ∀ (v47 : BitVec 32), Decidable (k0_chk6 v47) := fun v47 => decidable_of_iff' _ (Iff.of_eq (k0_chk6.eq_1 v47))
theorem k0_off12_inb : ∀ (v47 : BitVec 32) (k0_hw6 : k0_chk6 v47), ∀ a, (k0_off12 v47) a + S1x1x1x128x128.size a ≤ S1x1x100x128x128.size a := fun v47 k0_hw6 => k0_hw6

def k0_off13 (i : grid0.Coords) : Fin 3 → Nat :=
  let arg0 : BitVec 32 := BitVec.ofNat 32 (i 0).val
  let v54 : Index := Scalar.indexCast arg0
  let arg1 : BitVec 32 := BitVec.ofNat 32 (i 1).val
  let v55 : Index := Scalar.indexCast arg1
  let c6 : Index := 6#32
  ![v54.toNat, v55.toNat, 6]
def k0_off14 (v56 : BitVec 32) : Fin 5 → Nat :=
  let c0_42 : Index := 0#32
  let c0_43 : Index := 0#32
  let v57 : Index := Scalar.indexCast v56
  let c0_44 : Index := 0#32
  let c0_45 : Index := 0#32
  ![0, 0, v57.toNat, 0, 0]

def k0_chk7 (v56 : BitVec 32) : Prop :=
  (∀ a, (k0_off14 v56) a + S1x1x1x128x128.size a ≤ S1x1x100x128x128.size a)
instance k0_chk7.dec : ∀ (v56 : BitVec 32), Decidable (k0_chk7 v56) := fun v56 => decidable_of_iff' _ (Iff.of_eq (k0_chk7.eq_1 v56))
theorem k0_off14_inb : ∀ (v56 : BitVec 32) (k0_hw7 : k0_chk7 v56), ∀ a, (k0_off14 v56) a + S1x1x1x128x128.size a ≤ S1x1x100x128x128.size a := fun v56 k0_hw7 => k0_hw7

def k0_off15 (i : grid0.Coords) : Fin 3 → Nat :=
  let arg0 : BitVec 32 := BitVec.ofNat 32 (i 0).val
  let v63 : Index := Scalar.indexCast arg0
  let arg1 : BitVec 32 := BitVec.ofNat 32 (i 1).val
  let v64 : Index := Scalar.indexCast arg1
  let c7 : Index := 7#32
  ![v63.toNat, v64.toNat, 7]
def k0_off16 (v65 : BitVec 32) : Fin 5 → Nat :=
  let c0_49 : Index := 0#32
  let c0_50 : Index := 0#32
  let v66 : Index := Scalar.indexCast v65
  let c0_51 : Index := 0#32
  let c0_52 : Index := 0#32
  ![0, 0, v66.toNat, 0, 0]

def k0_chk8 (v65 : BitVec 32) : Prop :=
  (∀ a, (k0_off16 v65) a + S1x1x1x128x128.size a ≤ S1x1x100x128x128.size a)
instance k0_chk8.dec : ∀ (v65 : BitVec 32), Decidable (k0_chk8 v65) := fun v65 => decidable_of_iff' _ (Iff.of_eq (k0_chk8.eq_1 v65))
theorem k0_off16_inb : ∀ (v65 : BitVec 32) (k0_hw8 : k0_chk8 v65), ∀ a, (k0_off16 v65) a + S1x1x1x128x128.size a ≤ S1x1x100x128x128.size a := fun v65 k0_hw8 => k0_hw8

def k0_off17 (i : grid0.Coords) : Fin 3 → Nat :=
  let arg0 : BitVec 32 := BitVec.ofNat 32 (i 0).val
  let v72 : Index := Scalar.indexCast arg0
  let arg1 : BitVec 32 := BitVec.ofNat 32 (i 1).val
  let v73 : Index := Scalar.indexCast arg1
  let c8 : Index := 8#32
  ![v72.toNat, v73.toNat, 8]
def k0_off18 (v74 : BitVec 32) : Fin 5 → Nat :=
  let c0_56 : Index := 0#32
  let c0_57 : Index := 0#32
  let v75 : Index := Scalar.indexCast v74
  let c0_58 : Index := 0#32
  let c0_59 : Index := 0#32
  ![0, 0, v75.toNat, 0, 0]

def k0_chk9 (v74 : BitVec 32) : Prop :=
  (∀ a, (k0_off18 v74) a + S1x1x1x128x128.size a ≤ S1x1x100x128x128.size a)
instance k0_chk9.dec : ∀ (v74 : BitVec 32), Decidable (k0_chk9 v74) := fun v74 => decidable_of_iff' _ (Iff.of_eq (k0_chk9.eq_1 v74))
theorem k0_off18_inb : ∀ (v74 : BitVec 32) (k0_hw9 : k0_chk9 v74), ∀ a, (k0_off18 v74) a + S1x1x1x128x128.size a ≤ S1x1x100x128x128.size a := fun v74 k0_hw9 => k0_hw9

def k0_off19 (i : grid0.Coords) : Fin 3 → Nat :=
  let arg0 : BitVec 32 := BitVec.ofNat 32 (i 0).val
  let v81 : Index := Scalar.indexCast arg0
  let arg1 : BitVec 32 := BitVec.ofNat 32 (i 1).val
  let v82 : Index := Scalar.indexCast arg1
  let c9 : Index := 9#32
  ![v81.toNat, v82.toNat, 9]
def k0_off20 (v83 : BitVec 32) : Fin 5 → Nat :=
  let c0_63 : Index := 0#32
  let c0_64 : Index := 0#32
  let v84 : Index := Scalar.indexCast v83
  let c0_65 : Index := 0#32
  let c0_66 : Index := 0#32
  ![0, 0, v84.toNat, 0, 0]

def k0_chk10 (v83 : BitVec 32) : Prop :=
  (∀ a, (k0_off20 v83) a + S1x1x1x128x128.size a ≤ S1x1x100x128x128.size a)
instance k0_chk10.dec : ∀ (v83 : BitVec 32), Decidable (k0_chk10 v83) := fun v83 => decidable_of_iff' _ (Iff.of_eq (k0_chk10.eq_1 v83))
theorem k0_off20_inb : ∀ (v83 : BitVec 32) (k0_hw10 : k0_chk10 v83), ∀ a, (k0_off20 v83) a + S1x1x1x128x128.size a ≤ S1x1x100x128x128.size a := fun v83 k0_hw10 => k0_hw10

def k0_off21 (i : grid0.Coords) : Fin 3 → Nat :=
  let arg0 : BitVec 32 := BitVec.ofNat 32 (i 0).val
  let v90 : Index := Scalar.indexCast arg0
  let arg1 : BitVec 32 := BitVec.ofNat 32 (i 1).val
  let v91 : Index := Scalar.indexCast arg1
  let c10 : Index := 10#32
  ![v90.toNat, v91.toNat, 10]
def k0_off22 (v92 : BitVec 32) : Fin 5 → Nat :=
  let c0_70 : Index := 0#32
  let c0_71 : Index := 0#32
  let v93 : Index := Scalar.indexCast v92
  let c0_72 : Index := 0#32
  let c0_73 : Index := 0#32
  ![0, 0, v93.toNat, 0, 0]

def k0_chk11 (v92 : BitVec 32) : Prop :=
  (∀ a, (k0_off22 v92) a + S1x1x1x128x128.size a ≤ S1x1x100x128x128.size a)
instance k0_chk11.dec : ∀ (v92 : BitVec 32), Decidable (k0_chk11 v92) := fun v92 => decidable_of_iff' _ (Iff.of_eq (k0_chk11.eq_1 v92))
theorem k0_off22_inb : ∀ (v92 : BitVec 32) (k0_hw11 : k0_chk11 v92), ∀ a, (k0_off22 v92) a + S1x1x1x128x128.size a ≤ S1x1x100x128x128.size a := fun v92 k0_hw11 => k0_hw11

def k0_off23 (i : grid0.Coords) : Fin 3 → Nat :=
  let arg0 : BitVec 32 := BitVec.ofNat 32 (i 0).val
  let v99 : Index := Scalar.indexCast arg0
  let arg1 : BitVec 32 := BitVec.ofNat 32 (i 1).val
  let v100 : Index := Scalar.indexCast arg1
  let c11 : Index := 11#32
  ![v99.toNat, v100.toNat, 11]
def k0_off24 (v101 : BitVec 32) : Fin 5 → Nat :=
  let c0_77 : Index := 0#32
  let c0_78 : Index := 0#32
  let v102 : Index := Scalar.indexCast v101
  let c0_79 : Index := 0#32
  let c0_80 : Index := 0#32
  ![0, 0, v102.toNat, 0, 0]

def k0_chk12 (v101 : BitVec 32) : Prop :=
  (∀ a, (k0_off24 v101) a + S1x1x1x128x128.size a ≤ S1x1x100x128x128.size a)
instance k0_chk12.dec : ∀ (v101 : BitVec 32), Decidable (k0_chk12 v101) := fun v101 => decidable_of_iff' _ (Iff.of_eq (k0_chk12.eq_1 v101))
theorem k0_off24_inb : ∀ (v101 : BitVec 32) (k0_hw12 : k0_chk12 v101), ∀ a, (k0_off24 v101) a + S1x1x1x128x128.size a ≤ S1x1x100x128x128.size a := fun v101 k0_hw12 => k0_hw12

def k0_off25 (i : grid0.Coords) : Fin 3 → Nat :=
  let arg0 : BitVec 32 := BitVec.ofNat 32 (i 0).val
  let v108 : Index := Scalar.indexCast arg0
  let arg1 : BitVec 32 := BitVec.ofNat 32 (i 1).val
  let v109 : Index := Scalar.indexCast arg1
  let c12 : Index := 12#32
  ![v108.toNat, v109.toNat, 12]
def k0_off26 (v110 : BitVec 32) : Fin 5 → Nat :=
  let c0_84 : Index := 0#32
  let c0_85 : Index := 0#32
  let v111 : Index := Scalar.indexCast v110
  let c0_86 : Index := 0#32
  let c0_87 : Index := 0#32
  ![0, 0, v111.toNat, 0, 0]

def k0_chk13 (v110 : BitVec 32) : Prop :=
  (∀ a, (k0_off26 v110) a + S1x1x1x128x128.size a ≤ S1x1x100x128x128.size a)
instance k0_chk13.dec : ∀ (v110 : BitVec 32), Decidable (k0_chk13 v110) := fun v110 => decidable_of_iff' _ (Iff.of_eq (k0_chk13.eq_1 v110))
theorem k0_off26_inb : ∀ (v110 : BitVec 32) (k0_hw13 : k0_chk13 v110), ∀ a, (k0_off26 v110) a + S1x1x1x128x128.size a ≤ S1x1x100x128x128.size a := fun v110 k0_hw13 => k0_hw13

def k0_off27 (i : grid0.Coords) : Fin 3 → Nat :=
  let arg0 : BitVec 32 := BitVec.ofNat 32 (i 0).val
  let v117 : Index := Scalar.indexCast arg0
  let arg1 : BitVec 32 := BitVec.ofNat 32 (i 1).val
  let v118 : Index := Scalar.indexCast arg1
  let c13 : Index := 13#32
  ![v117.toNat, v118.toNat, 13]
def k0_off28 (v119 : BitVec 32) : Fin 5 → Nat :=
  let c0_91 : Index := 0#32
  let c0_92 : Index := 0#32
  let v120 : Index := Scalar.indexCast v119
  let c0_93 : Index := 0#32
  let c0_94 : Index := 0#32
  ![0, 0, v120.toNat, 0, 0]

def k0_chk14 (v119 : BitVec 32) : Prop :=
  (∀ a, (k0_off28 v119) a + S1x1x1x128x128.size a ≤ S1x1x100x128x128.size a)
instance k0_chk14.dec : ∀ (v119 : BitVec 32), Decidable (k0_chk14 v119) := fun v119 => decidable_of_iff' _ (Iff.of_eq (k0_chk14.eq_1 v119))
theorem k0_off28_inb : ∀ (v119 : BitVec 32) (k0_hw14 : k0_chk14 v119), ∀ a, (k0_off28 v119) a + S1x1x1x128x128.size a ≤ S1x1x100x128x128.size a := fun v119 k0_hw14 => k0_hw14

def k0_off29 (i : grid0.Coords) : Fin 3 → Nat :=
  let arg0 : BitVec 32 := BitVec.ofNat 32 (i 0).val
  let v126 : Index := Scalar.indexCast arg0
  let arg1 : BitVec 32 := BitVec.ofNat 32 (i 1).val
  let v127 : Index := Scalar.indexCast arg1
  let c14 : Index := 14#32
  ![v126.toNat, v127.toNat, 14]
def k0_off30 (v128 : BitVec 32) : Fin 5 → Nat :=
  let c0_98 : Index := 0#32
  let c0_99 : Index := 0#32
  let v129 : Index := Scalar.indexCast v128
  let c0_100 : Index := 0#32
  let c0_101 : Index := 0#32
  ![0, 0, v129.toNat, 0, 0]

def k0_chk15 (v128 : BitVec 32) : Prop :=
  (∀ a, (k0_off30 v128) a + S1x1x1x128x128.size a ≤ S1x1x100x128x128.size a)
instance k0_chk15.dec : ∀ (v128 : BitVec 32), Decidable (k0_chk15 v128) := fun v128 => decidable_of_iff' _ (Iff.of_eq (k0_chk15.eq_1 v128))
theorem k0_off30_inb : ∀ (v128 : BitVec 32) (k0_hw15 : k0_chk15 v128), ∀ a, (k0_off30 v128) a + S1x1x1x128x128.size a ≤ S1x1x100x128x128.size a := fun v128 k0_hw15 => k0_hw15

def k0_off31 (i : grid0.Coords) : Fin 3 → Nat :=
  let arg0 : BitVec 32 := BitVec.ofNat 32 (i 0).val
  let v135 : Index := Scalar.indexCast arg0
  let arg1 : BitVec 32 := BitVec.ofNat 32 (i 1).val
  let v136 : Index := Scalar.indexCast arg1
  let c15 : Index := 15#32
  ![v135.toNat, v136.toNat, 15]
def k0_off32 (v137 : BitVec 32) : Fin 5 → Nat :=
  let c0_105 : Index := 0#32
  let c0_106 : Index := 0#32
  let v138 : Index := Scalar.indexCast v137
  let c0_107 : Index := 0#32
  let c0_108 : Index := 0#32
  ![0, 0, v138.toNat, 0, 0]

def k0_chk16 (v137 : BitVec 32) : Prop :=
  (∀ a, (k0_off32 v137) a + S1x1x1x128x128.size a ≤ S1x1x100x128x128.size a)
instance k0_chk16.dec : ∀ (v137 : BitVec 32), Decidable (k0_chk16 v137) := fun v137 => decidable_of_iff' _ (Iff.of_eq (k0_chk16.eq_1 v137))
theorem k0_off32_inb : ∀ (v137 : BitVec 32) (k0_hw16 : k0_chk16 v137), ∀ a, (k0_off32 v137) a + S1x1x1x128x128.size a ≤ S1x1x100x128x128.size a := fun v137 k0_hw16 => k0_hw16

def k0_off33 (i : grid0.Coords) : Fin 3 → Nat :=
  let arg0 : BitVec 32 := BitVec.ofNat 32 (i 0).val
  let v144 : Index := Scalar.indexCast arg0
  let arg1 : BitVec 32 := BitVec.ofNat 32 (i 1).val
  let v145 : Index := Scalar.indexCast arg1
  let c16 : Index := 16#32
  ![v144.toNat, v145.toNat, 16]
def k0_off34 (v146 : BitVec 32) : Fin 5 → Nat :=
  let c0_112 : Index := 0#32
  let c0_113 : Index := 0#32
  let v147 : Index := Scalar.indexCast v146
  let c0_114 : Index := 0#32
  let c0_115 : Index := 0#32
  ![0, 0, v147.toNat, 0, 0]

def k0_chk17 (v146 : BitVec 32) : Prop :=
  (∀ a, (k0_off34 v146) a + S1x1x1x128x128.size a ≤ S1x1x100x128x128.size a)
instance k0_chk17.dec : ∀ (v146 : BitVec 32), Decidable (k0_chk17 v146) := fun v146 => decidable_of_iff' _ (Iff.of_eq (k0_chk17.eq_1 v146))
theorem k0_off34_inb : ∀ (v146 : BitVec 32) (k0_hw17 : k0_chk17 v146), ∀ a, (k0_off34 v146) a + S1x1x1x128x128.size a ≤ S1x1x100x128x128.size a := fun v146 k0_hw17 => k0_hw17

def k0_off35 (i : grid0.Coords) : Fin 3 → Nat :=
  let arg0 : BitVec 32 := BitVec.ofNat 32 (i 0).val
  let v153 : Index := Scalar.indexCast arg0
  let arg1 : BitVec 32 := BitVec.ofNat 32 (i 1).val
  let v154 : Index := Scalar.indexCast arg1
  let c17 : Index := 17#32
  ![v153.toNat, v154.toNat, 17]
def k0_off36 (v155 : BitVec 32) : Fin 5 → Nat :=
  let c0_119 : Index := 0#32
  let c0_120 : Index := 0#32
  let v156 : Index := Scalar.indexCast v155
  let c0_121 : Index := 0#32
  let c0_122 : Index := 0#32
  ![0, 0, v156.toNat, 0, 0]

def k0_chk18 (v155 : BitVec 32) : Prop :=
  (∀ a, (k0_off36 v155) a + S1x1x1x128x128.size a ≤ S1x1x100x128x128.size a)
instance k0_chk18.dec : ∀ (v155 : BitVec 32), Decidable (k0_chk18 v155) := fun v155 => decidable_of_iff' _ (Iff.of_eq (k0_chk18.eq_1 v155))
theorem k0_off36_inb : ∀ (v155 : BitVec 32) (k0_hw18 : k0_chk18 v155), ∀ a, (k0_off36 v155) a + S1x1x1x128x128.size a ≤ S1x1x100x128x128.size a := fun v155 k0_hw18 => k0_hw18

def k0_off37 (i : grid0.Coords) : Fin 3 → Nat :=
  let arg0 : BitVec 32 := BitVec.ofNat 32 (i 0).val
  let v162 : Index := Scalar.indexCast arg0
  let arg1 : BitVec 32 := BitVec.ofNat 32 (i 1).val
  let v163 : Index := Scalar.indexCast arg1
  let c18 : Index := 18#32
  ![v162.toNat, v163.toNat, 18]
def k0_off38 (v164 : BitVec 32) : Fin 5 → Nat :=
  let c0_126 : Index := 0#32
  let c0_127 : Index := 0#32
  let v165 : Index := Scalar.indexCast v164
  let c0_128 : Index := 0#32
  let c0_129 : Index := 0#32
  ![0, 0, v165.toNat, 0, 0]

def k0_chk19 (v164 : BitVec 32) : Prop :=
  (∀ a, (k0_off38 v164) a + S1x1x1x128x128.size a ≤ S1x1x100x128x128.size a)
instance k0_chk19.dec : ∀ (v164 : BitVec 32), Decidable (k0_chk19 v164) := fun v164 => decidable_of_iff' _ (Iff.of_eq (k0_chk19.eq_1 v164))
theorem k0_off38_inb : ∀ (v164 : BitVec 32) (k0_hw19 : k0_chk19 v164), ∀ a, (k0_off38 v164) a + S1x1x1x128x128.size a ≤ S1x1x100x128x128.size a := fun v164 k0_hw19 => k0_hw19

def k0_off39 (i : grid0.Coords) : Fin 3 → Nat :=
  let arg0 : BitVec 32 := BitVec.ofNat 32 (i 0).val
  let v171 : Index := Scalar.indexCast arg0
  let arg1 : BitVec 32 := BitVec.ofNat 32 (i 1).val
  let v172 : Index := Scalar.indexCast arg1
  let c19 : Index := 19#32
  ![v171.toNat, v172.toNat, 19]
def k0_off40 (v173 : BitVec 32) : Fin 5 → Nat :=
  let c0_133 : Index := 0#32
  let c0_134 : Index := 0#32
  let v174 : Index := Scalar.indexCast v173
  let c0_135 : Index := 0#32
  let c0_136 : Index := 0#32
  ![0, 0, v174.toNat, 0, 0]

def k0_chk20 (v173 : BitVec 32) : Prop :=
  (∀ a, (k0_off40 v173) a + S1x1x1x128x128.size a ≤ S1x1x100x128x128.size a)
instance k0_chk20.dec : ∀ (v173 : BitVec 32), Decidable (k0_chk20 v173) := fun v173 => decidable_of_iff' _ (Iff.of_eq (k0_chk20.eq_1 v173))
theorem k0_off40_inb : ∀ (v173 : BitVec 32) (k0_hw20 : k0_chk20 v173), ∀ a, (k0_off40 v173) a + S1x1x1x128x128.size a ≤ S1x1x100x128x128.size a := fun v173 k0_hw20 => k0_hw20

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x100x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x20x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  numel1_S1x1x1 : S1x1x1.numel = 1
  h_S1x1x1x128x128 : 0 < S1x1x1x128x128.numel
  shapeCasts_S1x1x1x128x128_S128x128 : S1x1x1x128x128.ShapeCasts S128x128
  inb_S20x128x128_S1x128x128_0_0_0 : ∀ a, (![0, 0, 0] : Fin 3 → Nat) a + S1x128x128.size a ≤ S20x128x128.size a
  h_S1x128x128 : 0 < S1x128x128.numel
  shapeCasts_S1x128x128_S128x128 : S1x128x128.ShapeCasts S128x128
  shapeCasts_S128x128_S1x128x128 : S128x128.ShapeCasts S1x128x128
  inb_S20x128x128_S1x128x128_1_0_0 : ∀ a, (![1, 0, 0] : Fin 3 → Nat) a + S1x128x128.size a ≤ S20x128x128.size a
  inb_S20x128x128_S1x128x128_2_0_0 : ∀ a, (![2, 0, 0] : Fin 3 → Nat) a + S1x128x128.size a ≤ S20x128x128.size a
  inb_S20x128x128_S1x128x128_3_0_0 : ∀ a, (![3, 0, 0] : Fin 3 → Nat) a + S1x128x128.size a ≤ S20x128x128.size a
  inb_S20x128x128_S1x128x128_4_0_0 : ∀ a, (![4, 0, 0] : Fin 3 → Nat) a + S1x128x128.size a ≤ S20x128x128.size a
  inb_S20x128x128_S1x128x128_5_0_0 : ∀ a, (![5, 0, 0] : Fin 3 → Nat) a + S1x128x128.size a ≤ S20x128x128.size a
  inb_S20x128x128_S1x128x128_6_0_0 : ∀ a, (![6, 0, 0] : Fin 3 → Nat) a + S1x128x128.size a ≤ S20x128x128.size a
  inb_S20x128x128_S1x128x128_7_0_0 : ∀ a, (![7, 0, 0] : Fin 3 → Nat) a + S1x128x128.size a ≤ S20x128x128.size a
  inb_S20x128x128_S1x128x128_8_0_0 : ∀ a, (![8, 0, 0] : Fin 3 → Nat) a + S1x128x128.size a ≤ S20x128x128.size a
  inb_S20x128x128_S1x128x128_9_0_0 : ∀ a, (![9, 0, 0] : Fin 3 → Nat) a + S1x128x128.size a ≤ S20x128x128.size a
  inb_S20x128x128_S1x128x128_10_0_0 : ∀ a, (![10, 0, 0] : Fin 3 → Nat) a + S1x128x128.size a ≤ S20x128x128.size a
  inb_S20x128x128_S1x128x128_11_0_0 : ∀ a, (![11, 0, 0] : Fin 3 → Nat) a + S1x128x128.size a ≤ S20x128x128.size a
  inb_S20x128x128_S1x128x128_12_0_0 : ∀ a, (![12, 0, 0] : Fin 3 → Nat) a + S1x128x128.size a ≤ S20x128x128.size a
  inb_S20x128x128_S1x128x128_13_0_0 : ∀ a, (![13, 0, 0] : Fin 3 → Nat) a + S1x128x128.size a ≤ S20x128x128.size a
  inb_S20x128x128_S1x128x128_14_0_0 : ∀ a, (![14, 0, 0] : Fin 3 → Nat) a + S1x128x128.size a ≤ S20x128x128.size a
  inb_S20x128x128_S1x128x128_15_0_0 : ∀ a, (![15, 0, 0] : Fin 3 → Nat) a + S1x128x128.size a ≤ S20x128x128.size a
  inb_S20x128x128_S1x128x128_16_0_0 : ∀ a, (![16, 0, 0] : Fin 3 → Nat) a + S1x128x128.size a ≤ S20x128x128.size a
  inb_S20x128x128_S1x128x128_17_0_0 : ∀ a, (![17, 0, 0] : Fin 3 → Nat) a + S1x128x128.size a ≤ S20x128x128.size a
  inb_S20x128x128_S1x128x128_18_0_0 : ∀ a, (![18, 0, 0] : Fin 3 → Nat) a + S1x128x128.size a ≤ S20x128x128.size a
  inb_S20x128x128_S1x128x128_19_0_0 : ∀ a, (![19, 0, 0] : Fin 3 → Nat) a + S1x128x128.size a ≤ S20x128x128.size a
  inb_S20x128x128_S20x128x128_0_0_0 : ∀ a, (![0, 0, 0] : Fin 3 → Nat) a + S20x128x128.size a ≤ S20x128x128.size a
  h_S20x128x128 : 0 < S20x128x128.numel
  inb_S1x1x20x128x128_S1x1x20x128x128_0_0_0_0_0 : ∀ a, (![0, 0, 0, 0, 0] : Fin 5 → Nat) a + S1x1x20x128x128.size a ≤ S1x1x20x128x128.size a
  h_S1x1x20x128x128 : 0 < S1x1x20x128x128.numel
  shapeCasts_S1x1x20x128x128_S20x128x128 : S1x1x20x128x128.ShapeCasts S20x128x128
  reduces_S20x128x128_S20x128 : S20x128x128.Reduces [2] S20x128
  reduces_S20x128_S20 : S20x128.Reduces [1] S20
  shapeCasts_S20_S1x20 : S20.ShapeCasts S1x20
  inb_S1x1x1x20_S1x1x1x20_0_0_0_0 : ∀ a, (![0, 0, 0, 0] : Fin 4 → Nat) a + S1x1x1x20.size a ≤ S1x1x1x20.size a
  h_S1x1x1x20 : 0 < S1x1x1x20.numel
  shapeCasts_S1x1x1x20_S1x20 : S1x1x1x20.ShapeCasts S1x20
  shapeCasts_S1x20_S1x1x1x20 : S1x20.ShapeCasts S1x1x1x20
  shapeCasts_S6x2x1x20_S6x2x20 : S6x2x1x20.ShapeCasts S6x2x20
  reducesTo_S6x2x20_S_d0_1_2 : S6x2x20.ReducesTo [0, 1, 2] S_
  h_S_ : 0 < S_.numel
  bcast_S_S6x2x20 : S_.BroadcastsInDim S6x2x20 (![] : Fin 0 → Fin S6x2x20.rank)
  transposes_S2x6x100x256_S6x2x100x256_1_0_2_3 : S2x6x100x256.Transposes [1, 0, 2, 3] S6x2x100x256
  reducesTo_S6x2x100x256_S6x2x100_d3 : S6x2x100x256.ReducesTo [3] S6x2x100
  bcast_S6x2x100_S6x2x100x1_0_1_2 : S6x2x100.BroadcastsInDim S6x2x100x1 (![0, 1, 2] : Fin 3 → Fin S6x2x100x1.rank)
  bcast_S_S6x2x100x1 : S_.BroadcastsInDim S6x2x100x1 (![] : Fin 0 → Fin S6x2x100x1.rank)
  bcast_S6x2x100x1_S6x2x100x256_0_1_2_3 : S6x2x100x1.BroadcastsInDim S6x2x100x256 (![0, 1, 2, 3] : Fin 4 → Fin S6x2x100x256.rank)
  bcast_S6x2x20_S6x2x20x1_0_1_2 : S6x2x20.BroadcastsInDim S6x2x20x1 (![0, 1, 2] : Fin 3 → Fin S6x2x20x1.rank)
  bcast_S_S6x2x20x1 : S_.BroadcastsInDim S6x2x20x1 (![] : Fin 0 → Fin S6x2x20x1.rank)
  bcast_S1_S1x1x1x1_3 : S1.BroadcastsInDim S1x1x1x1 (![3] : Fin 1 → Fin S1x1x1x1.rank)
  bcast_S1x1x1x1_S6x2x20x1_0_1_2_3 : S1x1x1x1.BroadcastsInDim S6x2x20x1 (![0, 1, 2, 3] : Fin 4 → Fin S6x2x20x1.rank)
  reducesTo_S6x2x20x1_S6x2x20_d3 : S6x2x20x1.ReducesTo [3] S6x2x20
  bcast_S6x2x20_S6x2x20x256_0_1_2 : S6x2x20.BroadcastsInDim S6x2x20x256 (![0, 1, 2] : Fin 3 → Fin S6x2x20x256.rank)
  bcast_S_S6x2x20x256 : S_.BroadcastsInDim S6x2x20x256 (![] : Fin 0 → Fin S6x2x20x256.rank)
  slices_S6x2x20x256_S5x2x20x256_0_0_0_0 : S6x2x20x256.Slices ![0, 0, 0, 0] S5x2x20x256
  slices_S6x2x20x256_S5x2x20x256_1_0_0_0 : S6x2x20x256.Slices ![1, 0, 0, 0] S5x2x20x256
  bcast_S_S5x2x20x20 : S_.BroadcastsInDim S5x2x20x20 (![] : Fin 0 → Fin S5x2x20x20.rank)
  reducesTo_S5x2x20x20_S5x2x20_d3 : S5x2x20x20.ReducesTo [3] S5x2x20
  bcast_S_S5x2x20 : S_.BroadcastsInDim S5x2x20 (![] : Fin 0 → Fin S5x2x20.rank)
  bcast_S5x2x20_S5x2x20x1_0_1_2 : S5x2x20.BroadcastsInDim S5x2x20x1 (![0, 1, 2] : Fin 3 → Fin S5x2x20x1.rank)
  bcast_S5x2x20x1_S5x2x20x20_0_1_2_3 : S5x2x20x1.BroadcastsInDim S5x2x20x20 (![0, 1, 2, 3] : Fin 4 → Fin S5x2x20x20.rank)
  bcast_S_S20 : S_.BroadcastsInDim S20 (![] : Fin 0 → Fin S20.rank)
  bcast_S20_S20x1_0 : S20.BroadcastsInDim S20x1 (![0] : Fin 1 → Fin S20x1.rank)
  concatenates_S20x1_S20x1_S20x2_d1 : Shape.Concatenates [S20x1, S20x1] S20x2 1
  reducesTo_S5x2x20_S_d0_1_2 : S5x2x20.ReducesTo [0, 1, 2] S_
  gather_S6x2x100x256_S6x2x20x1_S6x2x20x256_3_2_01_01_2_3_111256_wf : GatherDims.WF S6x2x100x256 S6x2x20x1 S6x2x20x256 [3] [2] [0, 1] [2] [0, 1] 3 ![1, 1, 1, 256]
  dot_S5x2x20x256_S5x2x20x256_S5x2x20x20_3_3_2_2_01_01_wf : DotDims.WF S5x2x20x256 S5x2x20x256 S5x2x20x20 [3] [3] [2] [2] [0, 1] [0, 1]
  gather_S5x2x20x20_S20x2_S5x2x20_01_23_n_n_23_1_5211_wf : GatherDims.WF S5x2x20x20 S20x2 S5x2x20 [0, 1] [2, 3] [] [2, 3] [] 1 ![5, 2, 1, 1]
  hrank0 : 0 < grid0.rank
  k0_off1_inb : ∀ i : grid0.Coords, ∀ a, (k0_off1 i) a + S1x1x1.size a ≤ S6x2x20.size a
  k0_off3_inb : ∀ i : grid0.Coords, ∀ a, (k0_off3 i) a + S1x1x1.size a ≤ S6x2x20.size a
  k0_off5_inb : ∀ i : grid0.Coords, ∀ a, (k0_off5 i) a + S1x1x1.size a ≤ S6x2x20.size a
  k0_off7_inb : ∀ i : grid0.Coords, ∀ a, (k0_off7 i) a + S1x1x1.size a ≤ S6x2x20.size a
  k0_off9_inb : ∀ i : grid0.Coords, ∀ a, (k0_off9 i) a + S1x1x1.size a ≤ S6x2x20.size a
  k0_off11_inb : ∀ i : grid0.Coords, ∀ a, (k0_off11 i) a + S1x1x1.size a ≤ S6x2x20.size a
  k0_off13_inb : ∀ i : grid0.Coords, ∀ a, (k0_off13 i) a + S1x1x1.size a ≤ S6x2x20.size a
  k0_off15_inb : ∀ i : grid0.Coords, ∀ a, (k0_off15 i) a + S1x1x1.size a ≤ S6x2x20.size a
  k0_off17_inb : ∀ i : grid0.Coords, ∀ a, (k0_off17 i) a + S1x1x1.size a ≤ S6x2x20.size a
  k0_off19_inb : ∀ i : grid0.Coords, ∀ a, (k0_off19 i) a + S1x1x1.size a ≤ S6x2x20.size a
  k0_off21_inb : ∀ i : grid0.Coords, ∀ a, (k0_off21 i) a + S1x1x1.size a ≤ S6x2x20.size a
  k0_off23_inb : ∀ i : grid0.Coords, ∀ a, (k0_off23 i) a + S1x1x1.size a ≤ S6x2x20.size a
  k0_off25_inb : ∀ i : grid0.Coords, ∀ a, (k0_off25 i) a + S1x1x1.size a ≤ S6x2x20.size a
  k0_off27_inb : ∀ i : grid0.Coords, ∀ a, (k0_off27 i) a + S1x1x1.size a ≤ S6x2x20.size a
  k0_off29_inb : ∀ i : grid0.Coords, ∀ a, (k0_off29 i) a + S1x1x1.size a ≤ S6x2x20.size a
  k0_off31_inb : ∀ i : grid0.Coords, ∀ a, (k0_off31 i) a + S1x1x1.size a ≤ S6x2x20.size a
  k0_off33_inb : ∀ i : grid0.Coords, ∀ a, (k0_off33 i) a + S1x1x1.size a ≤ S6x2x20.size a
  k0_off35_inb : ∀ i : grid0.Coords, ∀ a, (k0_off35 i) a + S1x1x1.size a ≤ S6x2x20.size a
  k0_off37_inb : ∀ i : grid0.Coords, ∀ a, (k0_off37 i) a + S1x1x1.size a ≤ S6x2x20.size a
  k0_off39_inb : ∀ i : grid0.Coords, ∀ a, (k0_off39 i) a + S1x1x1.size a ≤ S6x2x20.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x100x128x128.size a ≤ S2x6x100x128x128.size a
  hwx0_0 : ∀ i : grid0.Coords, EltTy.bits .f32 = 32 ∨ (Rect.block (s := S2x6x100x128x128) S1x1x100x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x20x128x128.size a ≤ S2x6x20x128x128.size a
  hwx0_1 : ∀ i : grid0.Coords, EltTy.bits .f32 = 32 ∨ (Rect.block (s := S2x6x20x128x128) S1x1x20x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x20.size a ≤ S6x2x1x20.size a
  hwx0_2 : ∀ i : grid0.Coords, EltTy.bits .f32 = 32 ∨ (Rect.block (s := S6x2x1x20) S1x1x1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x20.size a ≤ S6x2x1x20.size a
  hwx0_3 : ∀ i : grid0.Coords, EltTy.bits .f32 = 32 ∨ (Rect.block (s := S6x2x1x20) S1x1x1x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x20.size a ≤ S6x2x1x20.size a
  hwx0_4 : ∀ i : grid0.Coords, EltTy.bits .f32 = 32 ∨ (Rect.block (s := S6x2x1x20) S1x1x1x20.size (cc0_transform_4 i) (hinb0_4 i)).WholeWords (EltTy.packing .f32)

variable [Facts₀]

def gather_S6x2x100x256_S6x2x20x1_S6x2x20x256_3_2_01_01_2_3_111256 : GatherDims S6x2x100x256 S6x2x20x1 S6x2x20x256 where
  offsetDims := [3]
  collapsedSliceDims := [2]
  operandBatchingDims := [0, 1]
  startIndicesBatchingDims := [0, 1]
  startIndexMap := [2]
  indexVectorDim := 3
  sliceSizes := ![1, 1, 1, 256]
  wf := gather_S6x2x100x256_S6x2x20x1_S6x2x20x256_3_2_01_01_2_3_111256_wf
def dot_S5x2x20x256_S5x2x20x256_S5x2x20x20_3_3_2_2_01_01 : DotDims S5x2x20x256 S5x2x20x256 S5x2x20x20 where
  lhsContracting := [3]
  rhsContracting := [3]
  lhsNonContracting := [2]
  rhsNonContracting := [2]
  lhsBatch := [0, 1]
  rhsBatch := [0, 1]
  wf := dot_S5x2x20x256_S5x2x20x256_S5x2x20x20_3_3_2_2_01_01_wf
def gather_S5x2x20x20_S20x2_S5x2x20_01_23_n_n_23_1_5211 : GatherDims S5x2x20x20 S20x2 S5x2x20 where
  offsetDims := [0, 1]
  collapsedSliceDims := [2, 3]
  operandBatchingDims := []
  startIndicesBatchingDims := []
  startIndexMap := [2, 3]
  indexVectorDim := 1
  sliceSizes := ![5, 2, 1, 1]
  wf := gather_S5x2x20x20_S20x2_S5x2x20_01_23_n_n_23_1_5211_wf

abbrev spec0_0 : Pipeline.WinSpec sig grid0.rank :=
  Pipeline.WinSpec.ofSpec (Memref.whole main_arg0) S1x1x100x128x128.size reads0_0 false false 2 stage0_0 sem0_0 nbuf0_0 hstage0_0

abbrev spec0_1 : Pipeline.WinSpec sig grid0.rank :=
  Pipeline.WinSpec.ofSpec (Memref.whole main_arg2) S1x1x20x128x128.size reads0_1 false false 2 stage0_1 sem0_1 nbuf0_1 hstage0_1

abbrev spec0_2 : Pipeline.WinSpec sig grid0.rank :=
  Pipeline.WinSpec.ofSpec (Memref.whole main_v0_0) S1x1x1x20.size reads0_2 true false 2 stage0_2 sem0_2 nbuf0_2 hstage0_2

abbrev spec0_3 : Pipeline.WinSpec sig grid0.rank :=
  Pipeline.WinSpec.ofSpec (Memref.whole main_v0_1) S1x1x1x20.size reads0_3 true false 2 stage0_3 sem0_3 nbuf0_3 hstage0_3

abbrev spec0_4 : Pipeline.WinSpec sig grid0.rank :=
  Pipeline.WinSpec.ofSpec (Memref.whole main_v0_2) S1x1x1x20.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S2x6x100x128x128 : Shape := ⟨5, ![2, 6, 100, 128, 128]⟩
abbrev S2x6x100x256 : Shape := ⟨4, ![2, 6, 100, 256]⟩
abbrev S2x6x20x128x128 : Shape := ⟨5, ![2, 6, 20, 128, 128]⟩
abbrev S6x2x20 : Shape := ⟨3, ![6, 2, 20]⟩
abbrev S6x2x100x128x128 : Shape := ⟨5, ![6, 2, 100, 128, 128]⟩
abbrev S6x2x20x1x1 : Shape := ⟨5, ![6, 2, 20, 1, 1]⟩
abbrev S_ : Shape := ⟨0, ![]⟩
abbrev S6x2x20x1 : Shape := ⟨4, ![6, 2, 20, 1]⟩
abbrev S1 : Shape := ⟨1, ![1]⟩
abbrev S1x1x1x1 : Shape := ⟨4, ![1, 1, 1, 1]⟩
abbrev S6x2x20x128x128 : Shape := ⟨5, ![6, 2, 20, 128, 128]⟩
abbrev S6x2x20x16384 : Shape := ⟨4, ![6, 2, 20, 16384]⟩
abbrev S6x2x100x256 : Shape := ⟨4, ![6, 2, 100, 256]⟩
abbrev S6x2x100 : Shape := ⟨3, ![6, 2, 100]⟩
abbrev S6x2x100x1 : Shape := ⟨4, ![6, 2, 100, 1]⟩
abbrev S6x2x20x256 : Shape := ⟨4, ![6, 2, 20, 256]⟩
abbrev S5x2x20x256 : Shape := ⟨4, ![5, 2, 20, 256]⟩
abbrev S5x2x20x20 : Shape := ⟨4, ![5, 2, 20, 20]⟩
abbrev S5x2x20 : Shape := ⟨3, ![5, 2, 20]⟩
abbrev S5x2x20x1 : Shape := ⟨4, ![5, 2, 20, 1]⟩
abbrev S20 : Shape := ⟨1, ![20]⟩
abbrev S20x1 : Shape := ⟨2, ![20, 1]⟩
abbrev S20x2 : Shape := ⟨2, ![20, 2]⟩

abbrev nBuf : Space → Nat
  | .hbm => 211
  | .vmem => 0
  | .smem => 0
  | _ => 0

abbrev hbmTy0_0 (i : Nat) : BufTy := match i % 128 with
  | 0 => ⟨S2x6x100x128x128, .f32⟩
  | 1 => ⟨S2x6x100x256, .f32⟩
  | 2 => ⟨S2x6x20x128x128, .f32⟩
  | 3 => ⟨S6x2x20, .i32⟩
  | 4 => ⟨S6x2x100x128x128, .f32⟩
  | 5 => ⟨S6x2x20x1x1, .i32⟩
  | 6 => ⟨S_, .i32⟩
  | 7 => ⟨S6x2x20x1x1, .i32⟩
  | 8 => ⟨S6x2x20x1x1, .i1⟩
  | 9 => ⟨S_, .i32⟩
  | 10 => ⟨S6x2x20x1x1, .i32⟩
  | 11 => ⟨S6x2x20x1x1, .i32⟩
  | 12 => ⟨S6x2x20x1x1, .i32⟩
  | 13 => ⟨S6x2x20x1, .i32⟩
  | 14 => ⟨S1, .i32⟩
  | 15 => ⟨S_, .i32⟩
  | 16 => ⟨S6x2x20x1, .i32⟩
  | 17 => ⟨S6x2x20x1, .i1⟩
  | 18 => ⟨S1x1x1x1, .i32⟩
  | 19 => ⟨S6x2x20x1, .i32⟩
  | 20 => ⟨S6x2x20x1, .i1⟩
  | 21 => ⟨S6x2x20x1, .i1⟩
  | 22 => ⟨S_, .i1⟩
  | 23 => ⟨S6x2x20, .i1⟩
  | 24 => ⟨S6x2x20x128x128, .f32⟩
  | 25 => ⟨S6x2x20x128x128, .i1⟩
  | 26 => ⟨S_, .f32⟩
  | 27 => ⟨S6x2x20x128x128, .f32⟩
  | 28 => ⟨S6x2x20x128x128, .f32⟩
  | 29 => ⟨S6x2x20x128x128, .f32⟩
  | 30 => ⟨S_, .f32⟩
  | 31 => ⟨S6x2x20x128x128, .f32⟩
  | 32 => ⟨S6x2x20x128x128, .f32⟩
  | 33 => ⟨S6x2x20x128x128, .f32⟩
  | 34 => ⟨S6x2x20x128x128, .f32⟩
  | 35 => ⟨S6x2x20x128x128, .f32⟩
  | 36 => ⟨S6x2x20x128x128, .f32⟩
  | 37 => ⟨S6x2x20x128x128, .f32⟩
  | 38 => ⟨S6x2x20x128x128, .f32⟩
  | 39 => ⟨S6x2x20x128x128, .f32⟩
  | 40 => ⟨S_, .f32⟩
  | 41 => ⟨S_, .f32⟩
  | 42 => ⟨S_, .f32⟩
  | 43 => ⟨S_, .f32⟩
  | 44 => ⟨S6x2x20x128x128, .f32⟩
  | 45 => ⟨S6x2x20x128x128, .f32⟩
  | 46 => ⟨S_, .f32⟩
  | 47 => ⟨S6x2x20x128x128, .f32⟩
  | 48 => ⟨S6x2x20x128x128, .f32⟩
  | 49 => ⟨S_, .f32⟩
  | 50 => ⟨S6x2x20x128x128, .f32⟩
  | 51 => ⟨S6x2x20x128x128, .f32⟩
  | 52 => ⟨S6x2x20x16384, .f32⟩
  | 53 => ⟨S6x2x20x16384, .f32⟩
  | 54 => ⟨S6x2x20x16384, .f32⟩
  | 55 => ⟨S_, .f32⟩
  | 56 => ⟨S6x2x20, .f32⟩
  | 57 => ⟨S_, .f32⟩
  | 58 => ⟨S6x2x20, .f32⟩
  | 59 => ⟨S6x2x20, .f32⟩
  | 60 => ⟨S_, .f32⟩
  | 61 => ⟨S6x2x20, .f32⟩
  | 62 => ⟨S_, .f32⟩
  | 63 => ⟨S6x2x20, .f32⟩
  | 64 => ⟨S6x2x20, .f32⟩
  | 65 => ⟨S_, .f32⟩
  | 66 => ⟨S6x2x20, .f32⟩
  | 67 => ⟨S6x2x20, .f32⟩
  | 68 => ⟨S6x2x20, .f32⟩
  | 69 => ⟨S_, .f32⟩
  | 70 => ⟨S6x2x20, .f32⟩
  | 71 => ⟨S6x2x20, .f32⟩
  | 72 => ⟨S_, .f32⟩
  | 73 => ⟨S_, .f32⟩
  | 74 => ⟨S_, .f32⟩
  | 75 => ⟨S_, .f32⟩
  | 76 => ⟨S6x2x100x256, .f32⟩
  | 77 => ⟨S6x2x100x256, .f32⟩
  | 78 => ⟨S_, .f32⟩
  | 79 => ⟨S6x2x100, .f32⟩
  | 80 => ⟨S6x2x100x1, .f32⟩
  | 81 => ⟨S6x2x100x1, .f32⟩
  | 82 => ⟨S_, .f32⟩
  | 83 => ⟨S_, .f32⟩
  | 84 => ⟨S6x2x100x1, .f32⟩
  | 85 => ⟨S6x2x100x1, .f32⟩
  | 86 => ⟨S6x2x100x256, .f32⟩
  | 87 => ⟨S6x2x100x256, .f32⟩
  | 88 => ⟨S6x2x20x1, .i32⟩
  | 89 => ⟨S_, .i32⟩
  | 90 => ⟨S6x2x20x1, .i32⟩
  | 91 => ⟨S6x2x20x1, .i1⟩
  | 92 => ⟨S_, .i32⟩
  | 93 => ⟨S6x2x20x1, .i32⟩
  | 94 => ⟨S6x2x20x1, .i32⟩
  | 95 => ⟨S6x2x20x1, .i32⟩
  | 96 => ⟨S1, .i32⟩
  | 97 => ⟨S_, .i32⟩
  | 98 => ⟨S6x2x20x1, .i32⟩
  | 99 => ⟨S6x2x20x1, .i1⟩
  | 100 => ⟨S1x1x1x1, .i32⟩
  | 101 => ⟨S6x2x20x1, .i32⟩
  | 102 => ⟨S6x2x20x1, .i1⟩
  | 103 => ⟨S6x2x20x1, .i1⟩
  | 104 => ⟨S_, .i1⟩
  | 105 => ⟨S6x2x20, .i1⟩
  | 106 => ⟨S6x2x20x256, .f32⟩
  | 107 => ⟨S6x2x20x256, .i1⟩
  | 108 => ⟨S_, .f32⟩
  | 109 => ⟨S6x2x20x256, .f32⟩
  | 110 => ⟨S6x2x20x256, .f32⟩
  | 111 => ⟨S5x2x20x256, .f32⟩
  | 112 => ⟨S5x2x20x256, .f32⟩
  | 113 => ⟨S5x2x20x20, .f32⟩
  | 114 => ⟨S_, .f32⟩
  | 115 => ⟨S5x2x20x20, .f32⟩
  | 116 => ⟨S5x2x20x20, .f32⟩
  | 117 => ⟨S_, .f32⟩
  | 118 => ⟨S5x2x20, .f32⟩
  | 119 => ⟨S_, .f32⟩
  | 120 => ⟨S5x2x20, .f32⟩
  | 121 => ⟨S5x2x20, .f32⟩
  | 122 => ⟨S5x2x20x1, .f32⟩
  | 123 => ⟨S5x2x20x20, .f32⟩
  | 124 => ⟨S5x2x20x20, .f32⟩
  | 125 => ⟨S5x2x20x20, .f32⟩
  | 126 => ⟨S_, .f32⟩
  | 127 => ⟨S5x2x20, .f32⟩
  | _ => ⟨S2x6x100x128x128, .f32⟩

abbrev hbmTy0_1 (i : Nat) : BufTy := match i % 128 with
  | 0 => ⟨S5x2x20x1, .f32⟩
  | 1 => ⟨S5x2x20x1, .f32⟩
  | 2 => ⟨S5x2x20x20, .f32⟩
  | 3 => ⟨S5x2x20x20, .f32⟩
  | 4 => ⟨S20, .i32⟩
  | 5 => ⟨S20, .i32⟩
  | 6 => ⟨S_, .i32⟩
  | 7 => ⟨S20, .i32⟩
  | 8 => ⟨S20, .i1⟩
  | 9 => ⟨S_, .i32⟩
  | 10 => ⟨S20, .i32⟩
  | 11 => ⟨S20, .i32⟩
  | 12 => ⟨S20, .i32⟩
  | 13 => ⟨S_, .i32⟩
  | 14 => ⟨S20, .i32⟩
  | 15 => ⟨S20, .i1⟩
  | 16 => ⟨S_, .i32⟩
  | 17 => ⟨S20, .i32⟩
  | 18 => ⟨S20, .i32⟩
  | 19 => ⟨S20, .i32⟩
  | 20 => ⟨S20x1, .i32⟩
  | 21 => ⟨S20x1, .i32⟩
  | 22 => ⟨S20x2, .i32⟩
  | 23 => ⟨S5x2x20, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S5x2x20x20, .f32⟩
  | 31 => ⟨S5x2x20x20, .f32⟩
  | 32 => ⟨S_, .f32⟩
  | 33 => ⟨S5x2x20, .f32⟩
  | 34 => ⟨S_, .f32⟩
  | 35 => ⟨S5x2x20, .f32⟩
  | 36 => ⟨S5x2x20, .f32⟩
  | 37 => ⟨S5x2x20x1, .f32⟩
  | 38 => ⟨S5x2x20x20, .f32⟩
  | 39 => ⟨S5x2x20x20, .f32⟩
  | 40 => ⟨S5x2x20x20, .f32⟩
  | 41 => ⟨S_, .f32⟩
  | 42 => ⟨S5x2x20, .f32⟩
  | 43 => ⟨S5x2x20x1, .f32⟩
  | 44 => ⟨S5x2x20x1, .f32⟩
  | 45 => ⟨S5x2x20x20, .f32⟩
  | 46 => ⟨S5x2x20x20, .f32⟩
  | 47 => ⟨S20, .i32⟩
  | 48 => ⟨S20, .i32⟩
  | 49 => ⟨S_, .i32⟩
  | 50 => ⟨S20, .i32⟩
  | 51 => ⟨S20, .i1⟩
  | 52 => ⟨S_, .i32⟩
  | 53 => ⟨S20, .i32⟩
  | 54 => ⟨S20, .i32⟩
  | 55 => ⟨S20, .i32⟩
  | 56 => ⟨S_, .i32⟩
  | 57 => ⟨S20, .i32⟩
  | 58 => ⟨S20, .i1⟩
  | 59 => ⟨S_, .i32⟩
  | 60 => ⟨S20, .i32⟩
  | 61 => ⟨S20, .i32⟩
  | 62 => ⟨S20, .i32⟩
  | 63 => ⟨S20x1, .i32⟩
  | 64 => ⟨S20x1, .i32⟩
  | 65 => ⟨S20x2, .i32⟩
  | 66 => ⟨S5x2x20, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S2x6x100x128x128, .f32⟩

abbrev hbmTy (i : Nat) : BufTy := match i / 128 with
  | 0 => hbmTy0_0 i
  | 1 => hbmTy0_1 i
  | _ => ⟨S2x6x100x128x128, .f32⟩

abbrev bufTy : (tb : Table) → Fin (tcTables nBuf tb) → BufTy
  | .hbm, ⟨i, _⟩ => hbmTy i
  | _, _ => ⟨S2x6x100x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_v29 : Ref sig .tc := ⟨.hbm, 64, rfl⟩
abbrev main_cst_8 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩
abbrev main_cst_11 : Ref sig .tc := ⟨.hbm, 74, rfl⟩
abbrev main_v36 : Ref sig .tc := ⟨.hbm, 75, rfl⟩
abbrev main_v37 : Ref sig .tc := ⟨.hbm, 76, rfl⟩
abbrev main_call1_v0 : Ref sig .tc := ⟨.hbm, 77, rfl⟩
abbrev main_call1_cst : Ref sig .tc := ⟨.hbm, 78, rfl⟩
abbrev main_call1_v1 : Ref sig .tc := ⟨.hbm, 79, rfl⟩
abbrev main_call1_v2 : Ref sig .tc := ⟨.hbm, 80, rfl⟩
abbrev main_v38 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_c_2 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_c_3 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_13 : Ref sig .tc := ⟨.hbm, 114, rfl⟩
abbrev main_v47 : Ref sig .tc := ⟨.hbm, 115, rfl⟩
abbrev main_v48 : Ref sig .tc := ⟨.hbm, 116, rfl⟩
abbrev main_call4_cst : Ref sig .tc := ⟨.hbm, 117, rfl⟩
abbrev main_call4_v0 : Ref sig .tc := ⟨.hbm, 118, rfl⟩
abbrev main_call4_cst_0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_cst_1 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_v49 : Ref sig .tc := ⟨.hbm, 131, rfl⟩
abbrev main_call5_v0 : Ref sig .tc := ⟨.hbm, 132, rfl⟩
abbrev main_call5_v1 : Ref sig .tc := ⟨.hbm, 133, rfl⟩
abbrev main_call5_c : Ref sig .tc := ⟨.hbm, 134, rfl⟩
abbrev main_call5_v2 : Ref sig .tc := ⟨.hbm, 135, rfl⟩
abbrev main_call5_v3 : Ref sig .tc := ⟨.hbm, 136, rfl⟩
abbrev main_call5_c_0 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_c_1 : Ref sig .tc := ⟨.hbm, 141, rfl⟩
abbrev main_call5_v7 : Ref sig .tc := ⟨.hbm, 142, rfl⟩
abbrev main_call5_v8 : Ref sig .tc := ⟨.hbm, 143, rfl⟩
abbrev main_call5_c_2 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_v50 : Ref sig .tc := ⟨.hbm, 151, rfl⟩
abbrev main_cst_14 : Ref sig .tc := ⟨.hbm, 152, rfl⟩
abbrev main_v51 : Ref sig .tc := ⟨.hbm, 153, rfl⟩
abbrev main_cst_15 : Ref sig .tc := ⟨.hbm, 154, rfl⟩
abbrev main_v52 : Ref sig .tc := ⟨.hbm, 155, rfl⟩
abbrev main_v53 : Ref sig .tc := ⟨.hbm, 156, rfl⟩
abbrev main_cst_16 : Ref sig .tc := ⟨.hbm, 157, rfl⟩
abbrev main_v54 : Ref sig .tc := ⟨.hbm, 158, rfl⟩
abbrev main_v55 : Ref sig .tc := ⟨.hbm, 159, rfl⟩
abbrev main_call6_cst : Ref sig .tc := ⟨.hbm, 160, rfl⟩
abbrev main_call6_v0 : Ref sig .tc := ⟨.hbm, 161, rfl⟩
abbrev main_call6_cst_0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_v6 : Ref sig .tc := ⟨.hbm, 168, rfl⟩
abbrev main_call6_cst_1 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_v56 : Ref sig .tc := ⟨.hbm, 174, rfl⟩
abbrev main_call7_v0 : Ref sig .tc := ⟨.hbm, 175, rfl⟩
abbrev main_call7_v1 : Ref sig .tc := ⟨.hbm, 176, rfl⟩
abbrev main_call7_c : Ref sig .tc := ⟨.hbm, 177, rfl⟩
abbrev main_call7_v2 : Ref sig .tc := ⟨.hbm, 178, rfl⟩
abbrev main_call7_v3 : Ref sig .tc := ⟨.hbm, 179, rfl⟩
abbrev main_call7_c_0 : Ref sig .tc := ⟨.hbm, 180, rfl⟩
abbrev main_call7_v4 : Ref sig .tc := ⟨.hbm, 181, rfl⟩
abbrev main_call7_v5 : Ref sig .tc := ⟨.hbm, 182, rfl⟩
abbrev main_call7_v6 : Ref sig .tc := ⟨.hbm, 183, rfl⟩
abbrev main_call7_c_1 : Ref sig .tc := ⟨.hbm, 184, rfl⟩
abbrev main_call7_v7 : Ref sig .tc := ⟨.hbm, 185, rfl⟩
abbrev main_call7_v8 : Ref sig .tc := ⟨.hbm, 186, rfl⟩
abbrev main_call7_c_2 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_v12 : Ref sig .tc := ⟨.hbm, 191, rfl⟩
abbrev main_call7_v13 : Ref sig .tc := ⟨.hbm, 192, rfl⟩
abbrev main_call7_v14 : Ref sig .tc := ⟨.hbm, 193, rfl⟩
abbrev main_v57 : Ref sig .tc := ⟨.hbm, 194, rfl⟩
abbrev main_cst_17 : Ref sig .tc := ⟨.hbm, 195, rfl⟩
abbrev main_v58 : Ref sig .tc := ⟨.hbm, 196, rfl⟩
abbrev main_cst_18 : Ref sig .tc := ⟨.hbm, 197, rfl⟩
abbrev main_v59 : Ref sig .tc := ⟨.hbm, 198, rfl⟩
abbrev main_v60 : Ref sig .tc := ⟨.hbm, 199, rfl⟩
abbrev main_cst_19 : Ref sig .tc := ⟨.hbm, 200, rfl⟩
abbrev main_v61 : Ref sig .tc := ⟨.hbm, 201, rfl⟩
abbrev main_cst_20 : Ref sig .tc := ⟨.hbm, 202, rfl⟩
abbrev main_v62 : Ref sig .tc := ⟨.hbm, 203, rfl⟩
abbrev main_v63 : Ref sig .tc := ⟨.hbm, 204, rfl⟩
abbrev main_cst_21 : Ref sig .tc := ⟨.hbm, 205, rfl⟩
abbrev main_v64 : Ref sig .tc := ⟨.hbm, 206, rfl⟩
abbrev main_v65 : Ref sig .tc := ⟨.hbm, 207, rfl⟩
abbrev main_cst_22 : Ref sig .tc := ⟨.hbm, 208, rfl⟩
abbrev main_v66 : Ref sig .tc := ⟨.hbm, 209, rfl⟩
abbrev main_v67 : Ref sig .tc := ⟨.hbm, 210, rfl⟩

abbrev nD : Nat := 1
abbrev τ : Topo := Topo.v7x

variable {F : FTy → Type} [FloatOps F]

class Facts₀ : Prop where
  transposes_S2x6x100x128x128_S6x2x100x128x128_1_0_2_3_4 : S2x6x100x128x128.Transposes [1, 0, 2, 3, 4] S6x2x100x128x128
  bcast_S6x2x20_S6x2x20x1x1_0_1_2 : S6x2x20.BroadcastsInDim S6x2x20x1x1 (![0, 1, 2] : Fin 3 → Fin S6x2x20x1x1.rank)
  bcast_S_S6x2x20x1x1 : S_.BroadcastsInDim S6x2x20x1x1 (![] : Fin 0 → Fin S6x2x20x1x1.rank)
  shapeCasts_S6x2x20x1x1_S6x2x20x1 : S6x2x20x1x1.ShapeCasts S6x2x20x1
  bcast_S_S6x2x20x1 : S_.BroadcastsInDim S6x2x20x1 (![] : Fin 0 → Fin S6x2x20x1.rank)
  bcast_S1_S1x1x1x1_3 : S1.BroadcastsInDim S1x1x1x1 (![3] : Fin 1 → Fin S1x1x1x1.rank)
  bcast_S1x1x1x1_S6x2x20x1_0_1_2_3 : S1x1x1x1.BroadcastsInDim S6x2x20x1 (![0, 1, 2, 3] : Fin 4 → Fin S6x2x20x1.rank)
  reducesTo_S6x2x20x1_S6x2x20_d3 : S6x2x20x1.ReducesTo [3] S6x2x20
  h_S_ : 0 < S_.numel
  bcast_S6x2x20_S6x2x20x128x128_0_1_2 : S6x2x20.BroadcastsInDim S6x2x20x128x128 (![0, 1, 2] : Fin 3 → Fin S6x2x20x128x128.rank)
  bcast_S_S6x2x20x128x128 : S_.BroadcastsInDim S6x2x20x128x128 (![] : Fin 0 → Fin S6x2x20x128x128.rank)
  transposes_S2x6x20x128x128_S6x2x20x128x128_1_0_2_3_4 : S2x6x20x128x128.Transposes [1, 0, 2, 3, 4] S6x2x20x128x128
  reducesTo_S6x2x20x128x128_S_d0_1_2_3_4 : S6x2x20x128x128.ReducesTo [0, 1, 2, 3, 4] S_
  shapeCasts_S6x2x20x128x128_S6x2x20x16384 : S6x2x20x128x128.ShapeCasts S6x2x20x16384
  reducesTo_S6x2x20x16384_S6x2x20_d3 : S6x2x20x16384.ReducesTo [3] S6x2x20
  bcast_S_S6x2x20 : S_.BroadcastsInDim S6x2x20 (![] : Fin 0 → Fin S6x2x20.rank)
  reducesTo_S6x2x20_S_d0_1_2 : S6x2x20.ReducesTo [0, 1, 2] S_
  transposes_S2x6x100x256_S6x2x100x256_1_0_2_3 : S2x6x100x256.Transposes [1, 0, 2, 3] S6x2x100x256
  reducesTo_S6x2x100x256_S6x2x100_d3 : S6x2x100x256.ReducesTo [3] S6x2x100
  bcast_S6x2x100_S6x2x100x1_0_1_2 : S6x2x100.BroadcastsInDim S6x2x100x1 (![0, 1, 2] : Fin 3 → Fin S6x2x100x1.rank)
  bcast_S_S6x2x100x1 : S_.BroadcastsInDim S6x2x100x1 (![] : Fin 0 → Fin S6x2x100x1.rank)
  bcast_S6x2x100x1_S6x2x100x256_0_1_2_3 : S6x2x100x1.BroadcastsInDim S6x2x100x256 (![0, 1, 2, 3] : Fin 4 → Fin S6x2x100x256.rank)
  bcast_S6x2x20_S6x2x20x1_0_1_2 : S6x2x20.BroadcastsInDim S6x2x20x1 (![0, 1, 2] : Fin 3 → Fin S6x2x20x1.rank)
  bcast_S6x2x20_S6x2x20x256_0_1_2 : S6x2x20.BroadcastsInDim S6x2x20x256 (![0, 1, 2] : Fin 3 → Fin S6x2x20x256.rank)
  bcast_S_S6x2x20x256 : S_.BroadcastsInDim S6x2x20x256 (![] : Fin 0 → Fin S6x2x20x256.rank)
  slices_S6x2x20x256_S5x2x20x256_0_0_0_0 : S6x2x20x256.Slices ![0, 0, 0, 0] S5x2x20x256
  slices_S6x2x20x256_S5x2x20x256_1_0_0_0 : S6x2x20x256.Slices ![1, 0, 0, 0] S5x2x20x256
  bcast_S_S5x2x20x20 : S_.BroadcastsInDim S5x2x20x20 (![] : Fin 0 → Fin S5x2x20x20.rank)
  reducesTo_S5x2x20x20_S5x2x20_d3 : S5x2x20x20.ReducesTo [3] S5x2x20
  bcast_S_S5x2x20 : S_.BroadcastsInDim S5x2x20 (![] : Fin 0 → Fin S5x2x20.rank)
  bcast_S5x2x20_S5x2x20x1_0_1_2 : S5x2x20.BroadcastsInDim S5x2x20x1 (![0, 1, 2] : Fin 3 → Fin S5x2x20x1.rank)
  bcast_S5x2x20x1_S5x2x20x20_0_1_2_3 : S5x2x20x1.BroadcastsInDim S5x2x20x20 (![0, 1, 2, 3] : Fin 4 → Fin S5x2x20x20.rank)
  bcast_S_S20 : S_.BroadcastsInDim S20 (![] : Fin 0 → Fin S20.rank)
  bcast_S20_S20x1_0 : S20.BroadcastsInDim S20x1 (![0] : Fin 1 → Fin S20x1.rank)
  concatenates_S20x1_S20x1_S20x2_d1 : Shape.Concatenates [S20x1, S20x1] S20x2 1
  reducesTo_S5x2x20_S_d0_1_2 : S5x2x20.ReducesTo [0, 1, 2] S_
  gather_S6x2x100x128x128_S6x2x20x1_S6x2x20x128x128_34_2_01_01_2_3_111128128_wf : GatherDims.WF S6x2x100x128x128 S6x2x20x1 S6x2x20x128x128 [3, 4] [2] [0, 1] [2] [0, 1] 3 ![1, 1, 1, 128, 128]
  gather_S6x2x100x256_S6x2x20x1_S6x2x20x256_3_2_01_01_2_3_111256_wf : GatherDims.WF S6x2x100x256 S6x2x20x1 S6x2x20x256 [3] [2] [0, 1] [2] [0, 1] 3 ![1, 1, 1, 256]
  dot_S5x2x20x256_S5x2x20x256_S5x2x20x20_3_3_2_2_01_01_wf : DotDims.WF S5x2x20x256 S5x2x20x256 S5x2x20x20 [3] [3] [2] [2] [0, 1] [0, 1]
  gather_S5x2x20x20_S20x2_S5x2x20_01_23_n_n_23_1_5211_wf : GatherDims.WF S5x2x20x20 S20x2 S5x2x20 [0, 1] [2, 3] [] [2, 3] [] 1 ![5, 2, 1, 1]

variable [Facts₀]

def gather_S6x2x100x128x128_S6x2x20x1_S6x2x20x128x128_34_2_01_01_2_3_111128128 : GatherDims S6x2x100x128x128 S6x2x20x1 S6x2x20x128x128 where
  offsetDims := [3, 4]
  collapsedSliceDims := [2]
  operandBatchingDims := [0, 1]
  startIndicesBatchingDims := [0, 1]
  startIndexMap := [2]
  indexVectorDim := 3
  sliceSizes := ![1, 1, 1, 128, 128]
  wf := gather_S6x2x100x128x128_S6x2x20x1_S6x2x20x128x128_34_2_01_01_2_3_111128128_wf
def gather_S6x2x100x256_S6x2x20x1_S6x2x20x256_3_2_01_01_2_3_111256 : GatherDims S6x2x100x256 S6x2x20x1 S6x2x20x256 where
  offsetDims := [3]
  collapsedSliceDims := [2]
  operandBatchingDims := [0, 1]
  startIndicesBatchingDims := [0, 1]
  startIndexMap := [2]
  indexVectorDim := 3
  sliceSizes := ![1, 1, 1, 256]
  wf := gather_S6x2x100x256_S6x2x20x1_S6x2x20x256_3_2_01_01_2_3_111256_wf
def dot_S5x2x20x256_S5x2x20x256_S5x2x20x20_3_3_2_2_01_01 : DotDims S5x2x20x256 S5x2x20x256 S5x2x20x20 where
  lhsContracting := [3]
  rhsContracting := [3]
  lhsNonContracting := [2]
  rhsNonContracting := [2]
  lhsBatch := [0, 1]
  rhsBatch := [0, 1]
  wf := dot_S5x2x20x256_S5x2x20x256_S5x2x20x20_3_3_2_2_01_01_wf
def gather_S5x2x20x20_S20x2_S5x2x20_01_23_n_n_23_1_5211 : GatherDims S5x2x20x20 S20x2 S5x2x20 where
  offsetDims := [0, 1]
  collapsedSliceDims := [2, 3]
  operandBatchingDims := []
  startIndicesBatchingDims := []
  startIndexMap := [2, 3]
  indexVectorDim := 1
  sliceSizes := ![5, 2, 1, 1]
  wf := gather_S5x2x20x20_S20x2_S5x2x20_01_23_n_n_23_1_5211_wf

class Facts : Prop extends Facts₀ where

variable [Facts]
-- ==== Proof.KI.Run.lean ====
/-
  The kernel body run once, on any whole staging memrefs.

  The body reads the twenty words π(t, b, 0..19) of the matching table, and for each one assumes that the plane it
  names lies inside the block of 100 prediction planes before it copies that plane into row m of the scratch stack;
  it then reads the whole stack and the whole target block and stores one vector of twenty numbers into each of the
  three output buffers. Given that every word the table holds is below 100 as an unsigned number, each assumption
  holds, the body runs to its end, the two input buffers and the table are left as they were, the scratch holds some
  contents, and each output buffer holds what its one store wrote.
-/
import proofs.«431483_j19456201851405_2_alg».proof.Proof.Gen.KernelIdeal.Launch
import proofs.«431483_j19456201851405_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The matching table as the body is handed it: the whole buffer of the fourth argument. -/
abbrev tbM : Memref sig .tc .smem S6x2x20 .i32 := Memref.whole main_arg3
abbrev htbM : tbM.IsWhole := Memref.isWhole_whole _
/-- The scratch stack of twenty planes. -/
abbrev scM : Memref sig .tc .vmem S20x128x128 .f32 := Memref.whole cc0_scratch0
abbrev hscM : scM.IsWhole := Memref.isWhole_whole _

/-- The table's buffer on core c, and it held whole at contents f. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- A word below 100 names a plane inside the block of 100 planes: each of the twenty side conditions the body
    assumes after a read of the table (plane number + 1 ≤ 100 on the plane axis, the other axes whole). -/
macro "chk_tac" : tactic => `(tactic| (intro a; fin_cases a <;> simp [Scalar.indexCast, Shape.size] <;> omega))
theorem chk1 (v : BitVec 32) (h : v.toNat < 100) : k0_chk1 v := by
  unfold k0_chk1 k0_off2; chk_tac
theorem chk2 (v : BitVec 32) (h : v.toNat < 100) : k0_chk2 v := by
  unfold k0_chk2 k0_off4; chk_tac
theorem chk3 (v : BitVec 32) (h : v.toNat < 100) : k0_chk3 v := by
  unfold k0_chk3 k0_off6; chk_tac
theorem chk4 (v : BitVec 32) (h : v.toNat < 100) : k0_chk4 v := by
  unfold k0_chk4 k0_off8; chk_tac
theorem chk5 (v : BitVec 32) (h : v.toNat < 100) : k0_chk5 v := by
  unfold k0_chk5 k0_off10; chk_tac
theorem chk6 (v : BitVec 32) (h : v.toNat < 100) : k0_chk6 v := by
  unfold k0_chk6 k0_off12; chk_tac
theorem chk7 (v : BitVec 32) (h : v.toNat < 100) : k0_chk7 v := by
  unfold k0_chk7 k0_off14; chk_tac
theorem chk8 (v : BitVec 32) (h : v.toNat < 100) : k0_chk8 v := by
  unfold k0_chk8 k0_off16; chk_tac
theorem chk9 (v : BitVec 32) (h : v.toNat < 100) : k0_chk9 v := by
  unfold k0_chk9 k0_off18; chk_tac
theorem chk10 (v : BitVec 32) (h : v.toNat < 100) : k0_chk10 v := by
  unfold k0_chk10 k0_off20; chk_tac
theorem chk11 (v : BitVec 32) (h : v.toNat < 100) : k0_chk11 v := by
  unfold k0_chk11 k0_off22; chk_tac
theorem chk12 (v : BitVec 32) (h : v.toNat < 100) : k0_chk12 v := by
  unfold k0_chk12 k0_off24; chk_tac
theorem chk13 (v : BitVec 32) (h : v.toNat < 100) : k0_chk13 v := by
  unfold k0_chk13 k0_off26; chk_tac
theorem chk14 (v : BitVec 32) (h : v.toNat < 100) : k0_chk14 v := by
  unfold k0_chk14 k0_off28; chk_tac
theorem chk15 (v : BitVec 32) (h : v.toNat < 100) : k0_chk15 v := by
  unfold k0_chk15 k0_off30; chk_tac
theorem chk16 (v : BitVec 32) (h : v.toNat < 100) : k0_chk16 v := by
  unfold k0_chk16 k0_off32; chk_tac
theorem chk17 (v : BitVec 32) (h : v.toNat < 100) : k0_chk17 v := by
  unfold k0_chk17 k0_off34; chk_tac
theorem chk18 (v : BitVec 32) (h : v.toNat < 100) : k0_chk18 v := by
  unfold k0_chk18 k0_off36; chk_tac
theorem chk19 (v : BitVec 32) (h : v.toNat < 100) : k0_chk19 v := by
  unfold k0_chk19 k0_off38; chk_tac
theorem chk20 (v : BitVec 32) (h : v.toNat < 100) : k0_chk20 v := by
  unfold k0_chk20 k0_off40; chk_tac

set_option maxHeartbeats 4000000 in
/-- What the body's stores leave in the three output buffers, as pieces, with the proof that on whole staging memrefs —
    the two inputs' at their contents, the outputs' and the scratch at anything, the table whole at contents all of whose
    words are below 100 — the body runs to the continuation holding the inputs and the table as they were, the scratch at
    some contents, each output's buffer with its pieces written. -/
noncomputable def kernelRun0 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) :
    { L : List (View.Piece (Elt F) S1x1x1x20 .f32) × List (View.Piece (Elt F) S1x1x1x20 .f32) × List (View.Piece (Elt F) S1x1x1x20 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) scM fullShare d) ∗ tbPt c xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)
                ∗ (∃ d, owns (c : Thread nD τ) scM fullShare d) ∗ tbPt c xt) -∗ K ⟨⟩))
          ⊢ wp frame (wpE (defs₀ (F := F)) Variants.none c none) E (cc0_kernel i tbM htbM arg3 harg3 arg4 harg4 arg5 harg5 arg6 harg6 arg7 harg7 scM hscM) K } := by
  refine ⟨⟨?_, ?_, ?_⟩, fun E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d5, %f5, -, H5⟩, ⟨%d6, %f6, -, H6⟩, ⟨%d7, %f7, -, H7⟩, ⟨%ds, %fs, -, HS⟩, HT, Hk⟩
    obtain rfl := harg3.eq_unread hf0
    obtain rfl := harg4.eq_unread hf1
    sl_exec (disch := first | sl_exact (chk1 _ (hrd _ _)) | sl_exact (chk2 _ (hrd _ _)) | sl_exact (chk3 _ (hrd _ _)) | sl_exact (chk4 _ (hrd _ _)) | sl_exact (chk5 _ (hrd _ _)) | sl_exact (chk6 _ (hrd _ _)) | sl_exact (chk7 _ (hrd _ _)) | sl_exact (chk8 _ (hrd _ _)) | sl_exact (chk9 _ (hrd _ _)) | sl_exact (chk10 _ (hrd _ _)) | sl_exact (chk11 _ (hrd _ _)) | sl_exact (chk12 _ (hrd _ _)) | sl_exact (chk13 _ (hrd _ _)) | sl_exact (chk14 _ (hrd _ _)) | sl_exact (chk15 _ (hrd _ _)) | sl_exact (chk16 _ (hrd _ _)) | sl_exact (chk17 _ (hrd _ _)) | sl_exact (chk18 _ (hrd _ _)) | sl_exact (chk19 _ (hrd _ _)) | sl_exact (chk20 _ (hrd _ _)))
    sl_step
    iapply Hk
    isplitl [H0]
    · iexists _; isplitr; · ipureintro; exact harg3.read_unread _
      iexact H0
    isplitl [H1]
    · iexists _; isplitr; · ipureintro; exact harg4.read_unread _
      iexact H1
    isplitl [H5]; · iexists _; iexact H5
    isplitl [H6]; · iexists _; iexact H6
    isplitl [H7]; · iexists _; iexact H7
    isplitl [HS]
    · iexists _; iexists _; isplitr
      swap; · iexact HS
      ipureintro; rfl
    iexact HT

end Cert.KernelIdeal.Fr

end
-- ==== Proof.KI.Body.lean ====
/-
  The pipeline's proof data for the one kernel region, and the body obligation.

  The region is entered with the TensorCore's buffers at contents V. The matching table is read off V; the pipeline is
  pinned at it (its index maps read no table, so its side condition is empty). Window 0 is the block of 100
  prediction planes of frame t, batch b; window 1 the block of 20 target planes; windows 2, 3, 4 the three output
  vectors of twenty numbers at (t, b). After the body at point t each input's buffer holds its block and each output's
  buffer holds what the run's one store wrote. The invariant is the scratch stack at some contents, the generator
  register, and the table held whole. The twenty side conditions the body assumes all follow from one fact about
  the table: every word it holds is below 100.
-/
import proofs.«431483_j19456201851405_2_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The table, and the pipeline at it -/

/-- The table's contents when the region is entered (the program runs on one device). -/
def tbl : pre0.Contents (Elt F) := fun j => V (0 : Dev nD) (pre0.ref j)
/-- On every device the table holds those contents. -/
theorem V_pre (c : Dev nD) (j : Fin 1) : V c (pre0.ref j) = tbl V j := by
  obtain rfl : c = 0 := Subsingleton.elim _ _; rfl
/-- No window's index map reads the table: its side condition is empty. -/
abbrev adm : (pcfg0 (F := F)).Adm := ⟨tbl V, trivial⟩
abbrev cfgM : Pipeline.Cfg sig Λ₀ := cfg0 (adm V)

/-- Every word the table holds is below 100: what the frame needs of the matching, and all it needs. -/
def Hyps : Prop := ∀ (c : Dev nD) (r : LoadRect S6x2x20) (y : r.shape.Idx), BitVec.toNat (tbM.view.readAt (Elt F) r (tbl V 0) y) < 100

/-- The kernel body at point t, on what the pipeline calls it with. -/
abbrev bodyAt0 (a : (pcfg0 (F := F)).Adm) (t : Fin (cfg0 a).N) : Prog (TpuEff nD τ sig (Elt F) Λ₀ .tc) PUnit :=
  cc0_kernel (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## The windows' blocks -/

/-- Window w's block at point t, read off its array as the region finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

/-- An input window's current staging buffer holds its block at every point, fetched there or not. -/
theorem before0_of {c : Dev nD} (dat : Dat τ (Elt F) Unit ℕ (Pipeline.UD sig nD τ) ℕ (cfgM V) c) (hA : dat.A 0 = V c (Pipeline.arrRef spec0 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ (cfgM V) c) (hA : dat.A 1 = V c (Pipeline.arrRef spec0 1))
    (hafter : ∀ t, dat.after 1 t = iblk V c 1 t) (t : Fin (cfgM V).N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and what the run leaves in the outputs' -/

abbrev ms0 (t : Fin (cfgM V).N) : Memref sig .tc .vmem S1x1x100x128x128 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S1x1x20x128x128 .f32 := spec0_1.stage ((cfgM V).slots t 1)
abbrev hs1 (t : Fin (cfgM V).N) : (ms1 V t).IsWhole := hstage0_1 (((cfgM V).slots t 1).cast nbuf0_1)
abbrev ms2 (t : Fin (cfgM V).N) : Memref sig .tc .vmem S1x1x1x20 .f32 := spec0_2.stage ((cfgM V).slots t 2)
abbrev hs2 (t : Fin (cfgM V).N) : (ms2 V t).IsWhole := hstage0_2 (((cfgM V).slots t 2).cast nbuf0_2)
abbrev ms3 (t : Fin (cfgM V).N) : Memref sig .tc .vmem S1x1x1x20 .f32 := spec0_3.stage ((cfgM V).slots t 3)
abbrev hs3 (t : Fin (cfgM V).N) : (ms3 V t).IsWhole := hstage0_3 (((cfgM V).slots t 3).cast nbuf0_3)
abbrev ms4 (t : Fin (cfgM V).N) : Memref sig .tc .vmem S1x1x1x20 .f32 := spec0_4.stage ((cfgM V).slots t 4)
abbrev hs4 (t : Fin (cfgM V).N) : (ms4 V t).IsWhole := hstage0_4 (((cfgM V).slots t 4).cast nbuf0_4)

/-- One staging buffer of each output window, through which its contents are stated. -/
abbrev VO2 : View sig .tc .vmem S1x1x1x20 .f32 := (Memref.whole cc0_stg2_0 : Memref sig .tc .vmem S1x1x1x20 .f32).view
abbrev VO3 : View sig .tc .vmem S1x1x1x20 .f32 := (Memref.whole cc0_stg3_0 : Memref sig .tc .vmem S1x1x1x20 .f32).view
abbrev VO4 : View sig .tc .vmem S1x1x1x20 .f32 := (Memref.whole cc0_stg4_0 : Memref sig .tc .vmem S1x1x1x20 .f32).view

/-! Each output's one piece is a store of the whole block, so it covers it. -/

theorem cover2 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) (y : S1x1x1x20.Idx) :
    ∃ pc ∈ (kernelRun0 c i arg3 harg3 arg4 harg4 arg5 harg5 arg6 harg6 arg7 harg7 x0 x1 xt hrd).1.1, y ∈ pc.1.set :=
  View.cover_of_wholeMem (kernelRun0 c i arg3 harg3 arg4 harg4 arg5 harg5 arg6 harg6 arg7 harg7 x0 x1 xt hrd).1.1 (by sl_whole_mem) y

/-- What the run leaves in output window 2's staging buffer: its one piece read back. -/
def out2 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) : Vec F S1x1x1x20 .f32 :=
  VO2.read (Elt F) (VO2.writes (Elt F) VO2.junk (kernelRun0 c i arg3 harg3 arg4 harg4 arg5 harg5 arg6 harg6 arg7 harg7 x0 x1 xt hrd).1.1)

theorem cover3 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) (y : S1x1x1x20.Idx) :
    ∃ pc ∈ (kernelRun0 c i arg3 harg3 arg4 harg4 arg5 harg5 arg6 harg6 arg7 harg7 x0 x1 xt hrd).1.2.1, y ∈ pc.1.set :=
  View.cover_of_wholeMem (kernelRun0 c i arg3 harg3 arg4 harg4 arg5 harg5 arg6 harg6 arg7 harg7 x0 x1 xt hrd).1.2.1 (by sl_whole_mem) y

/-- What the run leaves in output window 3's staging buffer: its one piece read back. -/
def out3 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) : Vec F S1x1x1x20 .f32 :=
  VO3.read (Elt F) (VO3.writes (Elt F) VO3.junk (kernelRun0 c i arg3 harg3 arg4 harg4 arg5 harg5 arg6 harg6 arg7 harg7 x0 x1 xt hrd).1.2.1)

theorem cover4 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) (y : S1x1x1x20.Idx) :
    ∃ pc ∈ (kernelRun0 c i arg3 harg3 arg4 harg4 arg5 harg5 arg6 harg6 arg7 harg7 x0 x1 xt hrd).1.2.2, y ∈ pc.1.set :=
  View.cover_of_wholeMem (kernelRun0 c i arg3 harg3 arg4 harg4 arg5 harg5 arg6 harg6 arg7 harg7 x0 x1 xt hrd).1.2.2 (by sl_whole_mem) y

/-- What the run leaves in output window 4's staging buffer: its one piece read back. -/
def out4 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) : Vec F S1x1x1x20 .f32 :=
  VO4.read (Elt F) (VO4.writes (Elt F) VO4.junk (kernelRun0 c i arg3 harg3 arg4 harg4 arg5 harg5 arg6 harg6 arg7 harg7 x0 x1 xt hrd).1.2.2)

/-- The three outputs after the body at point t: the run at the point's memrefs, input blocks and the table. -/
def out2At (hH : Hyps V) (c : Dev nD) (t : Fin (cfgM V).N) : Vec F S1x1x1x20 .f32 := out2 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)
def out3At (hH : Hyps V) (c : Dev nD) (t : Fin (cfgM V).N) : Vec F S1x1x1x20 .f32 := out3 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)
def out4At (hH : Hyps V) (c : Dev nD) (t : Fin (cfgM V).N) : Vec F S1x1x1x20 .f32 := out4 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)

/-! ## The proof data -/

/-- The arrays as the region finds them; after the body each input's buffer at its block and each output's at what
    the run wrote; the invariant the scoped rest, the generator register and the table held whole; nothing owed. -/
def dat0 (hH : Hyps V) (c : Dev nD) : Dat τ (Elt F) Unit ℕ (Pipeline.UD sig nD τ) ℕ (cfgM V) c where
  A w := V c (Pipeline.arrRef spec0 w)
  after w t := match w with
    | ⟨0, _⟩ => iblk V c 0 t
    | ⟨1, _⟩ => iblk V c 1 t
    | ⟨2, _⟩ => out2At V hH c t
    | ⟨3, _⟩ => out3At V hH c t
    | ⟨4, _⟩ => out4At V hH c t
  Φ _ := iprop(Pipeline.ΦA spec0 c ∗ Pipeline.prefHeld pre0 c (fun _ => fullShare) (tbl V))
  q _ := fullShare
  owed _ := 0

theorem A_eq0 (hH : Hyps V) (c : Dev nD) (w : Fin (cfgM V).W) : (dat0 V hH c).A w = V c (Pipeline.arrRef spec0 w) := by
  dsimp only [dat0]

theorem after0_0 (hH : Hyps V) (c : Dev nD) (t : Fin (cfgM V).N) : (dat0 V hH c).after 0 t = iblk V c 0 t := by dsimp only [dat0]; try rfl
theorem after0_1 (hH : Hyps V) (c : Dev nD) (t : Fin (cfgM V).N) : (dat0 V hH c).after 1 t = iblk V c 1 t := by dsimp only [dat0]; try rfl
theorem after0_2 (hH : Hyps V) (c : Dev nD) (t : Fin (cfgM V).N) : (dat0 V hH c).after 2 t = out2At V hH c t := by dsimp only [dat0]; try rfl
theorem after0_3 (hH : Hyps V) (c : Dev nD) (t : Fin (cfgM V).N) : (dat0 V hH c).after 3 t = out3At V hH c t := by dsimp only [dat0]; try rfl
theorem after0_4 (hH : Hyps V) (c : Dev nD) (t : Fin (cfgM V).N) : (dat0 V hH c).after 4 t = out4At V hH c t := by dsimp only [dat0]; try rfl

theorem before0_0 (hH : Hyps V) (c : Dev nD) (t : Fin (cfgM V).N) (d) : (dat0 V hH c).before 0 t d = iblk V c 0 t :=
  before0_of V (dat0 V hH c) (A_eq0 V hH c 0) (after0_0 V hH c) t d
theorem before0_1 (hH : Hyps V) (c : Dev nD) (t : Fin (cfgM V).N) (d) : (dat0 V hH c).before 1 t d = iblk V c 1 t :=
  before1_of V (dat0 V hH c) (A_eq0 V hH c 1) (after0_1 V hH c) t d

/-! ## The invariant's parts as the run takes them -/

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem pref_eq (c : Dev nD) : (Pipeline.prefHeld pre0 c (fun _ => fullShare) (tbl V) : sProp 𝕄) = tbPt c (tbl V 0) := by
  unfold Pipeline.prefHeld
  rw [show (Finset.univ : Finset (Fin 1)) = {(0 : Fin 1)} from by decide, bigSep_singleton]
  rfl

/-! ## The body obligation -/

def bodyPre (hH : Hyps V) (c : Dev nD) (t : Fin (cfgM V).N) : sProp 𝕄 :=
  iprop((dat0 V hH c).Φ t.castSucc ∗ (dat0 V hH c).owesAt () t.castSucc
    ∗ (∃ d, owns (c : Thread nD τ) (ms0 V t) fullShare ((dat0 V hH c).before 0 t d))
    ∗ (∃ d, owns (c : Thread nD τ) (ms1 V t) fullShare ((dat0 V hH c).before 1 t d))
    ∗ (∃ d, owns (c : Thread nD τ) (ms2 V t) fullShare ((dat0 V hH c).before 2 t d))
    ∗ (∃ d, owns (c : Thread nD τ) (ms3 V t) fullShare ((dat0 V hH c).before 3 t d))
    ∗ (∃ d, owns (c : Thread nD τ) (ms4 V t) fullShare ((dat0 V hH c).before 4 t d)))

def bodyPost (hH : Hyps V) (c : Dev nD) (t : Fin (cfgM V).N) : sProp 𝕄 :=
  iprop((dat0 V hH c).Φ t.succ ∗ (dat0 V hH c).owesAt () t.succ
    ∗ owns (c : Thread nD τ) (ms0 V t) fullShare ((dat0 V hH c).after 0 t)
    ∗ owns (c : Thread nD τ) (ms1 V t) fullShare ((dat0 V hH c).after 1 t)
    ∗ owns (c : Thread nD τ) (ms2 V t) fullShare ((dat0 V hH c).after 2 t)
    ∗ owns (c : Thread nD τ) (ms3 V t) fullShare ((dat0 V hH c).after 3 t)
    ∗ owns (c : Thread nD τ) (ms4 V t) fullShare ((dat0 V hH c).after 4 t))

/-- The body at any point: the inputs' memrefs hold their blocks, so the run applies; the invariant hands the body the
    scratch at some contents and the table and takes them back; the core owes nothing throughout. -/
theorem sound_body (hH : Hyps V) (c : Dev nD) (t : Fin (cfgM V).N) :
    bodyPre V hH c t ⊢ wp frame (wpE (defs₀ (F := F)) Variants.none c none) Set.univ (bodyAt0 (adm V) t) (fun _ => bodyPost V hH c t) := by
  unfold bodyPre bodyPost bodyAt0
  simp only [before0_0, before0_1]
  rw [show (dat0 V hH c).Φ t.succ = (dat0 V hH c).Φ t.castSucc from rfl,
    show (dat0 V hH c).owesAt () t.succ = (dat0 V hH c).owesAt () t.castSucc from rfl,
    after0_0, after0_1, after0_2, after0_3, after0_4]
  rw [show (dat0 V hH c).Φ t.castSucc = iprop(Pipeline.ΦA spec0 c ∗ Pipeline.prefHeld pre0 c (fun _ => fullShare) (tbl V)) from rfl, PhiA0_eq, pref_eq]
  unfold out2At out3At out4At
  unfold out2 out3 out4
  iintro ⟨⟨⟨HS, Hg⟩, HT⟩, Ho, ⟨%d0, H0⟩, ⟨%d1, H1⟩, ⟨%d2, H2⟩, ⟨%d3, H3⟩, ⟨%d4, H4⟩⟩
  iapply ((kernelRun0 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)).2 Set.univ _)
  isplitl [H0]; · iexact H0
  isplitl [H1]; · iexact H1
  isplitl [H2]; · iexists _; iexact H2
  isplitl [H3]; · iexists _; iexact H3
  isplitl [H4]; · iexists _; iexact H4
  isplitl [HS]; · iexact HS
  isplitl [HT]; · iexact HT
  iintro ⟨H0, H1, ⟨%e2, H2⟩, ⟨%e3, H3⟩, ⟨%e4, H4⟩, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover2 _ _ _ _ _ _ _ _ _ _ _ _ _ _ _ _)
  isplitl [H3]
  · unfold owns; iexists _; isplitr
    swap; · iexact H3
    ipureintro; exact View.read_writes_of_cover _ _ _ _ _ (cover3 _ _ _ _ _ _ _ _ _ _ _ _ _ _ _ _)
  unfold owns; iexists _; isplitr
  swap; · iexact H4
  ipureintro; exact View.read_writes_of_cover _ _ _ _ _ (cover4 _ _ _ _ _ _ _ _ _ _ _ _ _ _ _ _)

/-- The library's body obligation, at every point. -/
theorem body_obligation0 (hH : Hyps V) (c : Dev nD) : BodyObligation (dat0 (F := F) V hH c) (defs₀ (F := F)) Variants.none () Set.univ := fun t => by
  rw [bigSep_W0, bigSep_W0]
  exact sound_body V hH c t

end Cert.KernelIdeal.Fr

end
-- ==== Proof.KI.Launch.lean ====
/-
  The whole run of @main: the kernel region, then the thirteen stretches of host operations, from the launch to the
  return.

  Between two segments the core holds every unscoped buffer at a named valuation. The region is entered from the
  launch memory; its arrays are split out of the unscoped buffers, the matching table is taken whole into the
  region's invariant and handed back at its exit, every other buffer bypasses the region; at the exit the arrays hold
  what the pipeline leaves (the inputs as entered, each output's write-backs folded) and everything else what it held.
  Each host stretch then maps the valuation before it to the operations' results after it. At the return the last
  valuation is read against the final memory: every unscoped buffer holds what that valuation says.
-/
import proofs.«431483_j19456201851405_2_alg».proof.Proof.KI.Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core c's buffers at launch (the region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: its arrays at what the pipeline leaves, every other buffer as entered. -/
def W1 (hH : Hyps (V0 m ρ)) (c : Dev nD) : Valuation τ sig (Elt F) :=
  Pipeline.withArrays spec0 c (W0 m ρ c) fun w => (dat0 (V0 m ρ) hH c).arrAt w (cfgM (V0 m ρ)).N
theorem W1_arr (hH : Hyps (V0 m ρ)) (c : Dev nD) (w : Fin (cfgM (V0 m ρ)).W) :
    W1 m ρ hH c (Proc.devRef .tc (Pipeline.arrRef spec0 w)) = (dat0 (V0 m ρ) hH c).arrAt w (cfgM (V0 m ρ)).N := by
  unfold W1; exact Pipeline.withArrays_arr spec0 (launch0 (F := F)).win.arr_inj c _ _ w
theorem W1_of_ne (hH : Hyps (V0 m ρ)) (c : Dev nD) (b : Ref sig .tc) (hb : ∀ w, Pipeline.arrRef spec0 w ≠ b) :
    W1 m ρ hH c (Proc.devRef .tc b) = W0 m ρ c (Proc.devRef .tc b) := by
  unfold W1; exact Pipeline.withArrays_of_ne spec0 c _ _ b hb
abbrev V1 (hH : Hyps (V0 m ρ)) : (c : Dev nD) → (b : Ref sig .tc) → Buf (Elt F) ((c : Thread nD τ).loc b) := fun c b => W1 m ρ hH c b
theorem hF0 (hH : Hyps (V0 m ρ)) (c : Dev nD) (w : Fin (cfgM (V0 m ρ)).W) : (dat0 (V0 m ρ) hH c).arrAt w (cfgM (V0 m ρ)).N = V1 m ρ hH c (Pipeline.arrRef spec0 w) :=
  (W1_arr m ρ hH c w).symm
theorem hrest0 (hH : Hyps (V0 m ρ)) (c : Dev nD) : ∀ b, b ∉ Finset.univ.image (Pipeline.arrRef spec0) → V1 m ρ hH c b = V0 m ρ c b :=
  fun b hb => W1_of_ne m ρ hH c b fun w e => hb (Finset.mem_image.mpr ⟨w, Finset.mem_univ _, e⟩)

/-- After each host stretch: the stretch's operations applied to the valuation before it. -/
def Wh1 (hH : Hyps (V0 m ρ)) (c : Dev nD) : Valuation τ sig (Elt F) := StableHlo.after (hostOps1 : List (HloOp τ sig (Elt F))) (W1 m ρ hH c)
def Wh2 (hH : Hyps (V0 m ρ)) (c : Dev nD) : Valuation τ sig (Elt F) := StableHlo.after (hostOps1_1 : List (HloOp τ sig (Elt F))) (Wh1 m ρ hH c)
def Wh3 (hH : Hyps (V0 m ρ)) (c : Dev nD) : Valuation τ sig (Elt F) := StableHlo.after (hostOps1_2 : List (HloOp τ sig (Elt F))) (Wh2 m ρ hH c)
def Wh4 (hH : Hyps (V0 m ρ)) (c : Dev nD) : Valuation τ sig (Elt F) := StableHlo.after (hostOps1_3 : List (HloOp τ sig (Elt F))) (Wh3 m ρ hH c)
def Wh5 (hH : Hyps (V0 m ρ)) (c : Dev nD) : Valuation τ sig (Elt F) := StableHlo.after (hostOps1_4 : List (HloOp τ sig (Elt F))) (Wh4 m ρ hH c)
def Wh6 (hH : Hyps (V0 m ρ)) (c : Dev nD) : Valuation τ sig (Elt F) := StableHlo.after (hostOps1_5 : List (HloOp τ sig (Elt F))) (Wh5 m ρ hH c)
def Wh7 (hH : Hyps (V0 m ρ)) (c : Dev nD) : Valuation τ sig (Elt F) := StableHlo.after (hostOps1_6 : List (HloOp τ sig (Elt F))) (Wh6 m ρ hH c)
def Wh8 (hH : Hyps (V0 m ρ)) (c : Dev nD) : Valuation τ sig (Elt F) := StableHlo.after (hostOps1_7 : List (HloOp τ sig (Elt F))) (Wh7 m ρ hH c)
def Wh9 (hH : Hyps (V0 m ρ)) (c : Dev nD) : Valuation τ sig (Elt F) := StableHlo.after (hostOps1_8 : List (HloOp τ sig (Elt F))) (Wh8 m ρ hH c)
def Wh10 (hH : Hyps (V0 m ρ)) (c : Dev nD) : Valuation τ sig (Elt F) := StableHlo.after (hostOps1_9 : List (HloOp τ sig (Elt F))) (Wh9 m ρ hH c)
def Wh11 (hH : Hyps (V0 m ρ)) (c : Dev nD) : Valuation τ sig (Elt F) := StableHlo.after (hostOps1_10 : List (HloOp τ sig (Elt F))) (Wh10 m ρ hH c)
def Wh12 (hH : Hyps (V0 m ρ)) (c : Dev nD) : Valuation τ sig (Elt F) := StableHlo.after (hostOps1_11 : List (HloOp τ sig (Elt F))) (Wh11 m ρ hH c)
def Wh13 (hH : Hyps (V0 m ρ)) (c : Dev nD) : Valuation τ sig (Elt F) := StableHlo.after (hostOps1_12 : List (HloOp τ sig (Elt F))) (Wh12 m ρ hH c)

/-- No host operation allocates. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-! ## The proof data family and the thread state -/

abbrev admP : (p : Fin 1) → (pcfgs (F := F) p).Adm := fun _ => adm (V0 m ρ)
def pdats (hH : Hyps (V0 m ρ)) : (p : Fin 1) → (c : Dev nD) → Dat τ (Elt F) Unit ℕ (Pipeline.UD sig nD τ) ℕ (Pipeline.pin (pcfgs (F := F)) (admP m ρ) p) c
  | ⟨0, _⟩ => fun c => dat0 (V0 m ρ) hH c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator register at some state. -/
abbrev Tₙ (hH : Hyps (V0 m ρ)) (c : Dev nD) : sProp 𝕄 := iprop(StableHlo.held (c : Thread nD τ) (Pipeline.ucRefs τ sig) (Wh13 m ρ hH c) ∗ ∃ r, prngReg c r)

/-! ## The region as a segment -/

set_option backward.isDefEq.respectTransparency.types false in
/-- The region over the thread state: entered from every unscoped buffer at W0, left at W1. Its arrays split out of
    the unscoped buffers and put back at the exit contents; the table split out of the bypassing buffers, taken whole
    into the invariant and handed back; the generator register into the invariant and out; nothing owed; no semaphore
    of the kernel's own. -/
def reg0 (hH : Hyps (V0 m ρ)) : Pipeline.RegionSeg (pcfgs (F := F)) (admP m ρ) (pdats m ρ hH) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m ρ) hH c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ hH c) ∗ R c)
  X c := iprop(∃ r, prngReg c r)
  Y c := iprop((∃ r, prngReg c r) ∗ Pipeline.prefHeld (Ix := Unit) (Name := ℕ) (U := Pipeline.UD sig nD τ) (Lvl := ℕ) pre0 c (fun _ => fullShare) (tbl (V0 m ρ)))
  Z c := Pipeline.unscopedRestP (Ix := Unit) (Name := ℕ) (U := Pipeline.UD sig nD τ) (Lvl := ℕ) pre0 spec0 c (V0 m ρ c)
  hentry c := by
    rw [Pipeline.ownSems0_none]
    have hsplit := Pipeline.arrays_of_unscopedBufs (p := 0) (pcfgs (F := F)) (admP m ρ) (pdats m ρ hH) (launch0 (F := F)).win (launch0 (F := F)).arr_whole c
      ((pdats m ρ hH 0 c).share_full fun _ => rfl) (V0 m ρ c) fun _ => rfl
    rw [Pipeline.unscopedBufs_held] at hsplit
    have hT : (Pipeline.unscopedRest (Ix := Unit) (Name := ℕ) (U := Pipeline.UD sig nD τ) (Lvl := ℕ) spec0 c (V0 m ρ c) : sProp 𝕄)
        = iprop(Pipeline.prefHeld pre0 c (fun _ => fullShare) (tbl (V0 m ρ)) ∗ Pipeline.unscopedRestP pre0 spec0 c (V0 m ρ c)) := by
      rw [Pipeline.unscopedRest_split (launch0 (F := F)).pre c (V0 m ρ c)]
      rw [show (fun k => V0 m ρ c (pre0.ref k)) = tbl (V0 m ρ) from funext fun k => V_pre (V0 m ρ) c k]
    iintro ⟨⟨Hub, Hp, HO⟩, -, -⟩
    ihave H := hsplit $$ Hub
    icases H with ⟨Ha, Hrest⟩
    ihave H' := (Entails.of_eq hT) $$ Hrest
    icases H' with ⟨HT, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HR
  hin c := by
    rw [show (pdats m ρ hH 0 c).Φ 0 = iprop(Pipeline.ΦA spec0 c ∗ Pipeline.prefHeld pre0 c (fun _ => fullShare) (tbl (V0 m ρ))) from rfl]; unfold Pipeline.ΦA
    iintro ⟨Hp, HT, Hr⟩
    isplitl [Hr Hp]
    · isplitl [Hr]; · iexact Hr
      iexact Hp
    iexact HT
  hout c := by
    rw [Pipeline.ownSems0_none, show (pdats m ρ hH 0 c).Φ (Fin.last _) = iprop(Pipeline.ΦA spec0 c ∗ Pipeline.prefHeld pre0 c (fun _ => fullShare) (tbl (V0 m ρ))) from rfl]; unfold Pipeline.ΦA
    iintro ⟨⟨Hr, Hp⟩, HT⟩
    isplitl [Hp HT]
    · isplitl [Hp]; · iexact Hp
      iexact HT
    isplitr; · iempintro
    iexact Hr
  hexit c := by
    have hjoin := Pipeline.unscopedBufs_of_arrays (p := 0) (pcfgs (F := F)) (admP m ρ) (Ix := Unit) (Name := ℕ) (U := Pipeline.UD sig nD τ) (Lvl := ℕ)
      (launch0 (F := F)).win (launch0 (F := F)).arr_whole c (pdats m ρ hH) ((pdats m ρ hH 0 c).share_full fun _ => rfl)
      (V0 m ρ c) (V1 m ρ hH c) ((pdats m ρ hH 0 c).arrAt · (cfgM (V0 m ρ)).N) (hF0 m ρ hH c) (hrest0 m ρ hH c)
    rw [Pipeline.unscopedBufs_held] at hjoin
    have hT : (Pipeline.unscopedRest (Ix := Unit) (Name := ℕ) (U := Pipeline.UD sig nD τ) (Lvl := ℕ) spec0 c (V0 m ρ c) : sProp 𝕄)
        = iprop(Pipeline.prefHeld pre0 c (fun _ => fullShare) (tbl (V0 m ρ)) ∗ Pipeline.unscopedRestP pre0 spec0 c (V0 m ρ c)) := by
      rw [Pipeline.unscopedRest_split (launch0 (F := F)).pre c (V0 m ρ c)]
      rw [show (fun k => V0 m ρ c (pre0.ref k)) = tbl (V0 m ρ) from funext fun k => V_pre (V0 m ρ) c k]
    iintro ⟨Ha, HO, ⟨HY, HT⟩, HR⟩
    ihave Hrest := (Entails.of_eq hT.symm) $$ [HT HR]
    · isplitl [HT]; · iexact HT
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hH : Hyps (V0 m ρ)) : List (Pipeline.Seg (pcfgs (F := F)) (admP m ρ) (pdats m ρ hH) () defs₀ 𝒱₀ L lv) :=
  [ .region (reg0 m ρ hH),
    .host (hseg hostOps1 hostOps1_sub hostOps1_fresh (W1 m ρ hH)),
    .host (hseg hostOps1_1 hostOps1_1_sub hostOps1_1_fresh (Wh1 m ρ hH)),
    .host (hseg hostOps1_2 hostOps1_2_sub hostOps1_2_fresh (Wh2 m ρ hH)),
    .host (hseg hostOps1_3 hostOps1_3_sub hostOps1_3_fresh (Wh3 m ρ hH)),
    .host (hseg hostOps1_4 hostOps1_4_sub hostOps1_4_fresh (Wh4 m ρ hH)),
    .host (hseg hostOps1_5 hostOps1_5_sub hostOps1_5_fresh (Wh5 m ρ hH)),
    .host (hseg hostOps1_6 hostOps1_6_sub hostOps1_6_fresh (Wh6 m ρ hH)),
    .host (hseg hostOps1_7 hostOps1_7_sub hostOps1_7_fresh (Wh7 m ρ hH)),
    .host (hseg hostOps1_8 hostOps1_8_sub hostOps1_8_fresh (Wh8 m ρ hH)),
    .host (hseg hostOps1_9 hostOps1_9_sub hostOps1_9_fresh (Wh9 m ρ hH)),
    .host (hseg hostOps1_10 hostOps1_10_sub hostOps1_10_fresh (Wh10 m ρ hH)),
    .host (hseg hostOps1_11 hostOps1_11_sub hostOps1_11_fresh (Wh11 m ρ hH)),
    .host (hseg hostOps1_12 hostOps1_12_sub hostOps1_12_fresh (Wh12 m ρ hH)) ]

theorem main_run (hH : Hyps (V0 m ρ)) (c : Dev nD) : main (F := F) c = Pipeline.Seg.run (segs m ρ hH) := (main_chain c).trans (by chain_rfl)

set_option backward.isDefEq.respectTransparency.types false in
/-- From any memory with zero counters whose matching table holds only words below 100: every weakly fair execution of
    @main terminates, nothing faulting, and in every final state each unscoped buffer of the TensorCore holds what the
    last valuation says. -/
theorem run_all (hH : Hyps (V0 m ρ)) : θ_run defs (onTc (τ := τ) (main (F := F))) ⟨m, fun _ => 0, ρ⟩ (fun r => ∀ c : Dev nD,
      ∀ b ∈ Pipeline.ucRefs τ sig, r.2.mem (((c : Thread nD τ)).1, b) = Wh13 m ρ hH c b) :=
  Pipeline.θ_run_regions_kit (pcfgs (F := F)) (admP m ρ) (pdats m ρ hH) () (cellOf_inj (admP m ρ)) embL defs₀ 𝒱₀ L lv m ρ main (segs m ρ hH)
    (fun c Q => by rw [main_run m ρ hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (admP m ρ)) (cellOf_inj (admP m ρ))) (Pipeline.launchToks (Pipeline.pin (pcfgs (F := F)) (admP m ρ)) (cellOf_inj (admP m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hH)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wh13 m ρ hH c) ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wh13 m ρ hH c b)
    (hfin := fun c s' => by
      iintro ⟨⟨Hh, -⟩, HSI⟩
      unfold StableHlo.held
      imodintro
      iapply (pointsTo_read_all (Pipeline.ucRefs τ sig) (fun b => (((c : Thread nD τ)).1, b)) (Wh13 m ρ hH c) s')
      isplitl [Hh] <;> iassumption)
    (hQ := fun s h c => h c)

end Cert.KernelIdeal.Fr

end
-- ==== Proof.KI.TailArgs.lean ====
/-
  The host operations after the region, as one valuation, and what they leave untouched.

  After the region the program applies 150 host operations in 13 stretches. `Wtail W` is what the buffers hold once
  all of them have run from contents `W`. No stretch allocates a buffer, and none writes an argument or one of the
  region's three output arrays: each operation writes its own result buffer only, and those are listed stretch by
  stretch.
-/
import proofs.«431483_j19456201851405_2_alg».proof.Proof.Gen.KernelIdeal.Launch
import Idealize.ShloMosaic.Lib.StableHlo.Run

noncomputable section

namespace Cert.KernelIdeal.Tail

open Idealize.ShloMosaic Idealize.ShloMosaic.TcCoe Idealize.SL.Sem
open Cert.KernelIdeal Cert.KernelIdeal.Gen

variable {F : FTy → Type} [FloatOps F]

/-- The buffer contents once the thirteen stretches of host operations have run in order from contents `W`. -/
def Wtail (W : Valuation τ sig (Elt F)) : Valuation τ sig (Elt F) :=
  StableHlo.after hostOps1_12 (StableHlo.after hostOps1_11 (StableHlo.after hostOps1_10 (StableHlo.after hostOps1_9
    (StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
        (StableHlo.after hostOps1 W))))))))))))

/-! ## No stretch allocates -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-! ## What each stretch writes

Each host operation writes its own result buffer only. Listing a stretch's result buffers, a reference outside the
list keeps its contents through the stretch. -/

/-- The result buffers of stretch 0, in order. -/
abbrev wr0 : List (Ref sig .tc) :=
  [main_v1, main_v2, main_v3, main_cst, main_v4, main_cst_0, main_v5, main_v6, main_cst_1, main_v7, main_v8,
   main_cst_2, main_v9, main_cst_3, main_v10, main_v11]
/-- The result buffers of stretch 1, in order. -/
abbrev wr1 : List (Ref sig .tc) :=
  [main_call0_v0, main_call0_cst, main_call0_v1, main_call0_v2, main_v12]
/-- The result buffer of stretch 2. -/
abbrev wr2 : List (Ref sig .tc) :=
  [main_cst_4]
/-- The result buffers of stretch 3, in order. -/
abbrev wr3 : List (Ref sig .tc) :=
  [main_call1_v0, main_call1_v1, main_v13]
/-- The result buffers of stretch 4, in order. -/
abbrev wr4 : List (Ref sig .tc) :=
  [main_v14, main_v15, main_v16]
/-- The result buffers of stretch 5, in order. -/
abbrev wr5 : List (Ref sig .tc) :=
  [main_call2_c, main_call2_v0, main_call2_v1, main_call2_c_0, main_call2_v2, main_call2_v3, main_call2_v4,
   main_call2_c_1, main_call2_c_2, main_call2_v5, main_call2_v6, main_call2_v7, main_call2_v8, main_call2_v9,
   main_call2_v10, main_call2_c_3, main_call2_v11, main_call2_v12, main_call2_v13, main_call2_cst, main_call2_v14,
   main_v17]
/-- The result buffers of stretch 6, in order. -/
abbrev wr6 : List (Ref sig .tc) :=
  [main_v18, main_v19, main_v20, main_cst_5, main_v21, main_v22]
/-- The result buffers of stretch 7, in order. -/
abbrev wr7 : List (Ref sig .tc) :=
  [main_call3_cst, main_call3_v0, main_call3_cst_0, main_call3_v1, main_call3_v2, main_call3_v3, main_call3_v4,
   main_call3_v5, main_call3_v6, main_call3_cst_1, main_call3_v7, main_call3_v8, main_call3_v9, main_call3_v10,
   main_v23]
/-- The result buffers of stretch 8, in order. -/
abbrev wr8 : List (Ref sig .tc) :=
  [main_call4_v0, main_call4_v1, main_call4_c, main_call4_v2, main_call4_v3, main_call4_c_0, main_call4_v4,
   main_call4_v5, main_call4_v6, main_call4_c_1, main_call4_v7, main_call4_v8, main_call4_c_2, main_call4_v9,
   main_call4_v10, main_call4_v11, main_call4_v12, main_call4_v13, main_call4_v14, main_v24]
/-- The result buffers of stretch 9, in order. -/
abbrev wr9 : List (Ref sig .tc) :=
  [main_cst_6, main_v25, main_cst_7, main_v26, main_v27, main_cst_8, main_v28, main_v29]
/-- The result buffers of stretch 10, in order. -/
abbrev wr10 : List (Ref sig .tc) :=
  [main_call5_cst, main_call5_v0, main_call5_cst_0, main_call5_v1, main_call5_v2, main_call5_v3, main_call5_v4,
   main_call5_v5, main_call5_v6, main_call5_cst_1, main_call5_v7, main_call5_v8, main_call5_v9, main_call5_v10,
   main_v30]
/-- The result buffers of stretch 11, in order. -/
abbrev wr11 : List (Ref sig .tc) :=
  [main_call6_v0, main_call6_v1, main_call6_c, main_call6_v2, main_call6_v3, main_call6_c_0, main_call6_v4,
   main_call6_v5, main_call6_v6, main_call6_c_1, main_call6_v7, main_call6_v8, main_call6_c_2, main_call6_v9,
   main_call6_v10, main_call6_v11, main_call6_v12, main_call6_v13, main_call6_v14, main_v31]
/-- The result buffers of stretch 12, in order. -/
abbrev wr12 : List (Ref sig .tc) :=
  [main_cst_9, main_v32, main_cst_10, main_v33, main_v34, main_cst_11, main_v35, main_cst_12, main_v36, main_v37,
   main_cst_13, main_v38, main_v39, main_cst_14, main_v40, main_v41]

theorem wsub0 : (hostOps1 : List (HloOp τ sig (Elt F))).Forall fun op =>
    op.writes ⊆ (wr0.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub1 : (hostOps1_1 : List (HloOp τ sig (Elt F))).Forall fun op =>
    op.writes ⊆ (wr1.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub2 : (hostOps1_2 : List (HloOp τ sig (Elt F))).Forall fun op =>
    op.writes ⊆ (wr2.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub3 : (hostOps1_3 : List (HloOp τ sig (Elt F))).Forall fun op =>
    op.writes ⊆ (wr3.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub4 : (hostOps1_4 : List (HloOp τ sig (Elt F))).Forall fun op =>
    op.writes ⊆ (wr4.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub5 : (hostOps1_5 : List (HloOp τ sig (Elt F))).Forall fun op =>
    op.writes ⊆ (wr5.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub6 : (hostOps1_6 : List (HloOp τ sig (Elt F))).Forall fun op =>
    op.writes ⊆ (wr6.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub7 : (hostOps1_7 : List (HloOp τ sig (Elt F))).Forall fun op =>
    op.writes ⊆ (wr7.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub8 : (hostOps1_8 : List (HloOp τ sig (Elt F))).Forall fun op =>
    op.writes ⊆ (wr8.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub9 : (hostOps1_9 : List (HloOp τ sig (Elt F))).Forall fun op =>
    op.writes ⊆ (wr9.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub10 : (hostOps1_10 : List (HloOp τ sig (Elt F))).Forall fun op =>
    op.writes ⊆ (wr10.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub11 : (hostOps1_11 : List (HloOp τ sig (Elt F))).Forall fun op =>
    op.writes ⊆ (wr11.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub12 : (hostOps1_12 : List (HloOp τ sig (Elt F))).Forall fun op =>
    op.writes ⊆ (wr12.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem keep0 (V : Valuation τ sig (Elt F)) {r : Ref sig .tc} (hr : r ∉ wr0) :
    StableHlo.after hostOps1 V (Proc.devRef .tc r) = V (Proc.devRef .tc r) :=
  StableHlo.after_of_writes_sub hostOps1 V wsub0 hr
theorem keep1 (V : Valuation τ sig (Elt F)) {r : Ref sig .tc} (hr : r ∉ wr1) :
    StableHlo.after hostOps1_1 V (Proc.devRef .tc r) = V (Proc.devRef .tc r) :=
  StableHlo.after_of_writes_sub hostOps1_1 V wsub1 hr
theorem keep2 (V : Valuation τ sig (Elt F)) {r : Ref sig .tc} (hr : r ∉ wr2) :
    StableHlo.after hostOps1_2 V (Proc.devRef .tc r) = V (Proc.devRef .tc r) :=
  StableHlo.after_of_writes_sub hostOps1_2 V wsub2 hr
theorem keep3 (V : Valuation τ sig (Elt F)) {r : Ref sig .tc} (hr : r ∉ wr3) :
    StableHlo.after hostOps1_3 V (Proc.devRef .tc r) = V (Proc.devRef .tc r) :=
  StableHlo.after_of_writes_sub hostOps1_3 V wsub3 hr
theorem keep4 (V : Valuation τ sig (Elt F)) {r : Ref sig .tc} (hr : r ∉ wr4) :
    StableHlo.after hostOps1_4 V (Proc.devRef .tc r) = V (Proc.devRef .tc r) :=
  StableHlo.after_of_writes_sub hostOps1_4 V wsub4 hr
theorem keep5 (V : Valuation τ sig (Elt F)) {r : Ref sig .tc} (hr : r ∉ wr5) :
    StableHlo.after hostOps1_5 V (Proc.devRef .tc r) = V (Proc.devRef .tc r) :=
  StableHlo.after_of_writes_sub hostOps1_5 V wsub5 hr
theorem keep6 (V : Valuation τ sig (Elt F)) {r : Ref sig .tc} (hr : r ∉ wr6) :
    StableHlo.after hostOps1_6 V (Proc.devRef .tc r) = V (Proc.devRef .tc r) :=
  StableHlo.after_of_writes_sub hostOps1_6 V wsub6 hr
theorem keep7 (V : Valuation τ sig (Elt F)) {r : Ref sig .tc} (hr : r ∉ wr7) :
    StableHlo.after hostOps1_7 V (Proc.devRef .tc r) = V (Proc.devRef .tc r) :=
  StableHlo.after_of_writes_sub hostOps1_7 V wsub7 hr
theorem keep8 (V : Valuation τ sig (Elt F)) {r : Ref sig .tc} (hr : r ∉ wr8) :
    StableHlo.after hostOps1_8 V (Proc.devRef .tc r) = V (Proc.devRef .tc r) :=
  StableHlo.after_of_writes_sub hostOps1_8 V wsub8 hr
theorem keep9 (V : Valuation τ sig (Elt F)) {r : Ref sig .tc} (hr : r ∉ wr9) :
    StableHlo.after hostOps1_9 V (Proc.devRef .tc r) = V (Proc.devRef .tc r) :=
  StableHlo.after_of_writes_sub hostOps1_9 V wsub9 hr
theorem keep10 (V : Valuation τ sig (Elt F)) {r : Ref sig .tc} (hr : r ∉ wr10) :
    StableHlo.after hostOps1_10 V (Proc.devRef .tc r) = V (Proc.devRef .tc r) :=
  StableHlo.after_of_writes_sub hostOps1_10 V wsub10 hr
theorem keep11 (V : Valuation τ sig (Elt F)) {r : Ref sig .tc} (hr : r ∉ wr11) :
    StableHlo.after hostOps1_11 V (Proc.devRef .tc r) = V (Proc.devRef .tc r) :=
  StableHlo.after_of_writes_sub hostOps1_11 V wsub11 hr
theorem keep12 (V : Valuation τ sig (Elt F)) {r : Ref sig .tc} (hr : r ∉ wr12) :
    StableHlo.after hostOps1_12 V (Proc.devRef .tc r) = V (Proc.devRef .tc r) :=
  StableHlo.after_of_writes_sub hostOps1_12 V wsub12 hr

/-- A reference no stretch writes ends as it began. -/
theorem Wtail_keep (W : Valuation τ sig (Elt F)) {r : Ref sig .tc}
    (h0 : r ∉ wr0) (h1 : r ∉ wr1) (h2 : r ∉ wr2) (h3 : r ∉ wr3) (h4 : r ∉ wr4) (h5 : r ∉ wr5) (h6 : r ∉ wr6)
    (h7 : r ∉ wr7) (h8 : r ∉ wr8) (h9 : r ∉ wr9) (h10 : r ∉ wr10) (h11 : r ∉ wr11) (h12 : r ∉ wr12) :
    Wtail W (Proc.devRef .tc r) = W (Proc.devRef .tc r) := by
  unfold Wtail
  rw [keep12 _ h12, keep11 _ h11, keep10 _ h10, keep9 _ h9, keep8 _ h8, keep7 _ h7, keep6 _ h6, keep5 _ h5, keep4 _ h4,
    keep3 _ h3, keep2 _ h2, keep1 _ h1, keep0 _ h0]

/-! ## The arguments and the region's outputs are written by no host operation -/

theorem Wtail_arg0 (W : Valuation τ sig (Elt F)) : Wtail W (Proc.devRef .tc main_arg0) = W (Proc.devRef .tc main_arg0) := by
  exact Wtail_keep W (by decide) (by decide) (by decide) (by decide) (by decide) (by decide) (by decide) (by decide) (by decide) (by decide) (by decide) (by decide) (by decide)
theorem Wtail_arg1 (W : Valuation τ sig (Elt F)) : Wtail W (Proc.devRef .tc main_arg1) = W (Proc.devRef .tc main_arg1) := by
  exact Wtail_keep W (by decide) (by decide) (by decide) (by decide) (by decide) (by decide) (by decide) (by decide) (by decide) (by decide) (by decide) (by decide) (by decide)
theorem Wtail_arg2 (W : Valuation τ sig (Elt F)) : Wtail W (Proc.devRef .tc main_arg2) = W (Proc.devRef .tc main_arg2) := by
  exact Wtail_keep W (by decide) (by decide) (by decide) (by decide) (by decide) (by decide) (by decide) (by decide) (by decide) (by decide) (by decide) (by decide) (by decide)
theorem Wtail_arg3 (W : Valuation τ sig (Elt F)) : Wtail W (Proc.devRef .tc main_arg3) = W (Proc.devRef .tc main_arg3) := by
  exact Wtail_keep W (by decide) (by decide) (by decide) (by decide) (by decide) (by decide) (by decide) (by decide) (by decide) (by decide) (by decide) (by decide) (by decide)
theorem Wtail_v0_0 (W : Valuation τ sig (Elt F)) : Wtail W (Proc.devRef .tc main_v0_0) = W (Proc.devRef .tc main_v0_0) := by
  exact Wtail_keep W (by decide) (by decide) (by decide) (by decide) (by decide) (by decide) (by decide) (by decide) (by decide) (by decide) (by decide) (by decide) (by decide)
theorem Wtail_v0_1 (W : Valuation τ sig (Elt F)) : Wtail W (Proc.devRef .tc main_v0_1) = W (Proc.devRef .tc main_v0_1) := by
  exact Wtail_keep W (by decide) (by decide) (by decide) (by decide) (by decide) (by decide) (by decide) (by decide) (by decide) (by decide) (by decide) (by decide) (by decide)
theorem Wtail_v0_2 (W : Valuation τ sig (Elt F)) : Wtail W (Proc.devRef .tc main_v0_2) = W (Proc.devRef .tc main_v0_2) := by
  exact Wtail_keep W (by decide) (by decide) (by decide) (by decide) (by decide) (by decide) (by decide) (by decide) (by decide) (by decide) (by decide) (by decide) (by decide)

end Cert.KernelIdeal.Tail

end
-- ==== Proof.PreRange.lean ====
/-
  UNTRUSTED — THE INDEX RANGE OUT OF THE PRECONDITION. The printed precondition is the conjunction of three
  finiteness tests and of the reduction by `and`, over every (t, b, m), of (π ≥ 0, signed) ∧ (π < 100, signed).
  If it is all ones then every entry of π, read as an unsigned number, is below 100: a 32-bit word that is
  nonnegative signed has its top bit clear, so it reads the same signed and unsigned, and signed it is below 100.
-/
import proofs.«431483_j19456201851405_2_alg».proof.Pre_finite_inputs
import proofs.«431483_j19456201851405_2_alg».proof.Proof.Gen.Pre_finite_inputs
import Idealize.ShloMosaic.Lib.ReduceAll
import Idealize.ShloMosaic.Lib.ValueIdx

noncomputable section

namespace Cert.PreRange

open Idealize.ShloMosaic

/-- The rank-0 shape has one index. -/
instance subsingleton_S_ : Subsingleton Cert.Pre_finite_inputs.S_.Idx := ⟨fun a b => funext fun d => d.elim0⟩

/-- A 32-bit word in [0, 100) signed is below 100 unsigned. -/
theorem toNat_lt_of_signed (w : BitVec 32) (h0 : IntOp.cmpi .sge w 0#32 = 1#1) (h1 : IntOp.cmpi .slt w 100#32 = 1#1) :
    w.toNat < 100 := by
  rw [IntOp.cmpi_sge, show (0#32 : BitVec 32).toInt = 0 from by decide] at h0
  rw [IntOp.cmpi_slt, show (100#32 : BitVec 32).toInt = 100 from by decide] at h1
  -- nonnegative signed: the top bit is clear, and the word reads the same signed and unsigned
  have hpos : 2 * w.toNat < 2 ^ 32 := BitVec.toInt_pos_iff.1 h0
  rw [BitVec.toInt_eq_toNat_of_lt hpos] at h1
  omega

/-- THE PRECONDITION DECODED: every entry of π is below 100, unsigned. -/
theorem perm_lt {F : FTy → Type} [FloatOps F] [Cert.Pre_finite_inputs.Facts]
    (a0 : FVec F Cert.Pre_finite_inputs.S2x6x100x128x128 .f32) (a1 : FVec F Cert.Pre_finite_inputs.S2x6x100x256 .f32)
    (a2 : FVec F Cert.Pre_finite_inputs.S2x6x20x128x128 .f32) (a3 : IVec Cert.Pre_finite_inputs.S6x2x20 32)
    (h : Cert.Pre_finite_inputs.fn (F := F) a0 a1 a2 a3 = fun _ => 1#1)
    (j : Cert.Pre_finite_inputs.S6x2x20.Idx) : (a3 j).toNat < 100 := by
  have e := congrFun h ValueIdx.ix0
  dsimp only [Cert.Pre_finite_inputs.fn, Cert.Pre_finite_inputs.fn_part1, andi] at e
  -- the last conjunct is the reduction by `and`, over every (t, b, m), of the two range tests
  have er := (IntOp.andi_eq_one.1 e).2
  have ej := Host.reduce_andi_all _ _ _ _ _ er j
  -- at (t, b, m) = j the broadcast constants read 0 and 100, and the two tests compare the word π j with them
  have ew : IntOp.andi (IntOp.cmpi .sge (a3 j) 0#32) (IntOp.cmpi .slt (a3 j) 100#32) = 1#1 := ej
  obtain ⟨h0, h1⟩ := IntOp.andi_eq_one.1 ew
  exact toNat_lt_of_signed (a3 j) h0 h1

end Cert.PreRange

end
-- ==== Proof.KI.Frame.lean ====
/-
  The frame of the program: under the precondition it runs to the end, faults nowhere, and leaves its four argument
  arrays as launched.

  The precondition bounds every word of the matching table below 100, which is all the run needs. At the end each
  argument's buffer holds what the last valuation says; no host operation writes an argument, the region reads the two
  mask arrays through input windows and leaves them as entered, and the other two bypass the region: so the last
  valuation at an argument walks back to the launch memory.
-/
import proofs.«431483_j19456201851405_2_alg».proof.Proof.KI.Launch
import proofs.«431483_j19456201851405_2_alg».proof.Proof.KI.TailArgs
import proofs.«431483_j19456201851405_2_alg».proof.Proof.PreRange

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The precondition's range test on the matching gives the run's hypothesis: a word read through the table's whole view
    is an entry of the table. -/
theorem hyps_of_pre [Cert.Pre_finite_inputs.Facts]
    (hpre : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Hyps (V0 m ρ) :=
  fun c r y => Cert.PreRange.perm_lt (F := F) _ _ _ _ (hpre 0) (r.idx y)

/-- The last valuation is the host tail applied to the region's exit valuation. -/
theorem Wh13_eq (hH : Hyps (V0 m ρ)) (c : Dev nD) : Wh13 m ρ hH c = Cert.KernelIdeal.Tail.Wtail (W1 m ρ hH c) := rfl

theorem Wfin_arg0 (hH : Hyps (V0 m ρ)) (c : Dev nD) : Wh13 m ρ hH c (Proc.devRef .tc main_arg0) = m ((c : Thread nD τ).loc main_arg0) :=
  calc Wh13 m ρ hH c (Proc.devRef .tc main_arg0)
    _ = W1 m ρ hH c (Proc.devRef .tc main_arg0) := by rw [Wh13_eq]; exact Cert.KernelIdeal.Tail.Wtail_arg0 _
    _ = W0 m ρ c (Proc.devRef .tc main_arg0) := (W1_arr m ρ hH c 0).trans (((dat0 (V0 m ρ) hH c).arrAt_in 0 rfl _).trans (A_eq0 (V0 m ρ) hH c 0))
    _ = m ((c : Thread nD τ).loc main_arg0) := rfl
theorem Wfin_arg2 (hH : Hyps (V0 m ρ)) (c : Dev nD) : Wh13 m ρ hH c (Proc.devRef .tc main_arg2) = m ((c : Thread nD τ).loc main_arg2) :=
  calc Wh13 m ρ hH c (Proc.devRef .tc main_arg2)
    _ = W1 m ρ hH c (Proc.devRef .tc main_arg2) := by rw [Wh13_eq]; exact Cert.KernelIdeal.Tail.Wtail_arg2 _
    _ = W0 m ρ c (Proc.devRef .tc main_arg2) := (W1_arr m ρ hH c 1).trans (((dat0 (V0 m ρ) hH c).arrAt_in 1 rfl _).trans (A_eq0 (V0 m ρ) hH c 1))
    _ = m ((c : Thread nD τ).loc main_arg2) := rfl
theorem Wfin_arg1 (hH : Hyps (V0 m ρ)) (c : Dev nD) : Wh13 m ρ hH c (Proc.devRef .tc main_arg1) = m ((c : Thread nD τ).loc main_arg1) :=
  calc Wh13 m ρ hH c (Proc.devRef .tc main_arg1)
    _ = W1 m ρ hH c (Proc.devRef .tc main_arg1) := by rw [Wh13_eq]; exact Cert.KernelIdeal.Tail.Wtail_arg1 _
    _ = W0 m ρ c (Proc.devRef .tc main_arg1) := W1_of_ne m ρ hH c main_arg1 (by decide)
    _ = m ((c : Thread nD τ).loc main_arg1) := rfl
theorem Wfin_arg3 (hH : Hyps (V0 m ρ)) (c : Dev nD) : Wh13 m ρ hH c (Proc.devRef .tc main_arg3) = m ((c : Thread nD τ).loc main_arg3) :=
  calc Wh13 m ρ hH c (Proc.devRef .tc main_arg3)
    _ = W1 m ρ hH c (Proc.devRef .tc main_arg3) := by rw [Wh13_eq]; exact Cert.KernelIdeal.Tail.Wtail_arg3 _
    _ = W0 m ρ c (Proc.devRef .tc main_arg3) := W1_of_ne m ρ hH c main_arg3 (by decide)
    _ = m ((c : Thread nD τ).loc main_arg3) := rfl

/-- THE FRAME, at any float instance, for a memory whose matching table holds only words below 100. -/
theorem frame (hH : Hyps (V0 m ρ)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wfin_arg0 m ρ hH c),
     (h c _ (mem_uc main_arg1 (by decide))).trans (Wfin_arg1 m ρ hH c),
     (h c _ (mem_uc main_arg2 (by decide))).trans (Wfin_arg2 m ρ hH c),
     (h c _ (mem_uc main_arg3 (by decide))).trans (Wfin_arg3 m ρ hH c)⟩) (run_all m ρ hH)

end Cert.KernelIdeal.Fr

end
-- ==== Proof.K.Run.lean ====
/-
  The kernel body run once, on any whole staging memrefs.

  The body reads the twenty words π(t, b, 0..19) of the matching table, and for each one assumes that the plane it
  names lies inside the block of 100 prediction planes before it copies that plane into row m of the scratch stack;
  it then reads the whole stack and the whole target block and stores one vector of twenty numbers into each of the
  three output buffers. Given that every word the table holds is below 100 as an unsigned number, each assumption
  holds, the body runs to its end, the two input buffers and the table are left as they were, the scratch holds some
  contents, and each output buffer holds what its one store wrote.
-/
import proofs.«431483_j19456201851405_2_alg».proof.Proof.Gen.Kernel.Launch
import proofs.«431483_j19456201851405_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The matching table as the body is handed it: the whole buffer of the fourth argument. -/
abbrev tbM : Memref sig .tc .smem S6x2x20 .i32 := Memref.whole main_arg3
abbrev htbM : tbM.IsWhole := Memref.isWhole_whole _
/-- The scratch stack of twenty planes. -/
abbrev scM : Memref sig .tc .vmem S20x128x128 .f32 := Memref.whole cc0_scratch0
abbrev hscM : scM.IsWhole := Memref.isWhole_whole _

/-- The table's buffer on core c, and it held whole at contents f. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- A word below 100 names a plane inside the block of 100 planes: each of the twenty side conditions the body
    assumes after a read of the table (plane number + 1 ≤ 100 on the plane axis, the other axes whole). -/
macro "chk_tac" : tactic => `(tactic| (intro a; fin_cases a <;> simp [Scalar.indexCast, Shape.size] <;> omega))
theorem chk1 (v : BitVec 32) (h : v.toNat < 100) : k0_chk1 v := by
  unfold k0_chk1 k0_off2; chk_tac
theorem chk2 (v : BitVec 32) (h : v.toNat < 100) : k0_chk2 v := by
  unfold k0_chk2 k0_off4; chk_tac
theorem chk3 (v : BitVec 32) (h : v.toNat < 100) : k0_chk3 v := by
  unfold k0_chk3 k0_off6; chk_tac
theorem chk4 (v : BitVec 32) (h : v.toNat < 100) : k0_chk4 v := by
  unfold k0_chk4 k0_off8; chk_tac
theorem chk5 (v : BitVec 32) (h : v.toNat < 100) : k0_chk5 v := by
  unfold k0_chk5 k0_off10; chk_tac
theorem chk6 (v : BitVec 32) (h : v.toNat < 100) : k0_chk6 v := by
  unfold k0_chk6 k0_off12; chk_tac
theorem chk7 (v : BitVec 32) (h : v.toNat < 100) : k0_chk7 v := by
  unfold k0_chk7 k0_off14; chk_tac
theorem chk8 (v : BitVec 32) (h : v.toNat < 100) : k0_chk8 v := by
  unfold k0_chk8 k0_off16; chk_tac
theorem chk9 (v : BitVec 32) (h : v.toNat < 100) : k0_chk9 v := by
  unfold k0_chk9 k0_off18; chk_tac
theorem chk10 (v : BitVec 32) (h : v.toNat < 100) : k0_chk10 v := by
  unfold k0_chk10 k0_off20; chk_tac
theorem chk11 (v : BitVec 32) (h : v.toNat < 100) : k0_chk11 v := by
  unfold k0_chk11 k0_off22; chk_tac
theorem chk12 (v : BitVec 32) (h : v.toNat < 100) : k0_chk12 v := by
  unfold k0_chk12 k0_off24; chk_tac
theorem chk13 (v : BitVec 32) (h : v.toNat < 100) : k0_chk13 v := by
  unfold k0_chk13 k0_off26; chk_tac
theorem chk14 (v : BitVec 32) (h : v.toNat < 100) : k0_chk14 v := by
  unfold k0_chk14 k0_off28; chk_tac
theorem chk15 (v : BitVec 32) (h : v.toNat < 100) : k0_chk15 v := by
  unfold k0_chk15 k0_off30; chk_tac
theorem chk16 (v : BitVec 32) (h : v.toNat < 100) : k0_chk16 v := by
  unfold k0_chk16 k0_off32; chk_tac
theorem chk17 (v : BitVec 32) (h : v.toNat < 100) : k0_chk17 v := by
  unfold k0_chk17 k0_off34; chk_tac
theorem chk18 (v : BitVec 32) (h : v.toNat < 100) : k0_chk18 v := by
  unfold k0_chk18 k0_off36; chk_tac
theorem chk19 (v : BitVec 32) (h : v.toNat < 100) : k0_chk19 v := by
  unfold k0_chk19 k0_off38; chk_tac
theorem chk20 (v : BitVec 32) (h : v.toNat < 100) : k0_chk20 v := by
  unfold k0_chk20 k0_off40; chk_tac

set_option maxHeartbeats 4000000 in
/-- What the body's stores leave in the three output buffers, as pieces, with the proof that on whole staging memrefs —
    the two inputs' at their contents, the outputs' and the scratch at anything, the table whole at contents all of whose
    words are below 100 — the body runs to the continuation holding the inputs and the table as they were, the scratch at
    some contents, each output's buffer with its pieces written. -/
noncomputable def kernelRun0 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) :
    { L : List (View.Piece (Elt F) S1x1x1x20 .f32) × List (View.Piece (Elt F) S1x1x1x20 .f32) × List (View.Piece (Elt F) S1x1x1x20 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) scM fullShare d) ∗ tbPt c xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)
                ∗ (∃ d, owns (c : Thread nD τ) scM fullShare d) ∗ tbPt c xt) -∗ K ⟨⟩))
          ⊢ wp frame (wpE (defs₀ (F := F)) Variants.none c none) E (cc0_kernel i tbM htbM arg3 harg3 arg4 harg4 arg5 harg5 arg6 harg6 arg7 harg7 scM hscM) K } := by
  refine ⟨⟨?_, ?_, ?_⟩, fun E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d5, %f5, -, H5⟩, ⟨%d6, %f6, -, H6⟩, ⟨%d7, %f7, -, H7⟩, ⟨%ds, %fs, -, HS⟩, HT, Hk⟩
    obtain rfl := harg3.eq_unread hf0
    obtain rfl := harg4.eq_unread hf1
    sl_exec (disch := first | sl_exact (chk1 _ (hrd _ _)) | sl_exact (chk2 _ (hrd _ _)) | sl_exact (chk3 _ (hrd _ _)) | sl_exact (chk4 _ (hrd _ _)) | sl_exact (chk5 _ (hrd _ _)) | sl_exact (chk6 _ (hrd _ _)) | sl_exact (chk7 _ (hrd _ _)) | sl_exact (chk8 _ (hrd _ _)) | sl_exact (chk9 _ (hrd _ _)) | sl_exact (chk10 _ (hrd _ _)) | sl_exact (chk11 _ (hrd _ _)) | sl_exact (chk12 _ (hrd _ _)) | sl_exact (chk13 _ (hrd _ _)) | sl_exact (chk14 _ (hrd _ _)) | sl_exact (chk15 _ (hrd _ _)) | sl_exact (chk16 _ (hrd _ _)) | sl_exact (chk17 _ (hrd _ _)) | sl_exact (chk18 _ (hrd _ _)) | sl_exact (chk19 _ (hrd _ _)) | sl_exact (chk20 _ (hrd _ _)))
    sl_step
    iapply Hk
    isplitl [H0]
    · iexists _; isplitr; · ipureintro; exact harg3.read_unread _
      iexact H0
    isplitl [H1]
    · iexists _; isplitr; · ipureintro; exact harg4.read_unread _
      iexact H1
    isplitl [H5]; · iexists _; iexact H5
    isplitl [H6]; · iexists _; iexact H6
    isplitl [H7]; · iexists _; iexact H7
    isplitl [HS]
    · iexists _; iexists _; isplitr
      swap; · iexact HS
      ipureintro; rfl
    iexact HT

end Cert.Kernel.Fr

end
-- ==== Proof.K.Body.lean ====
/-
  The pipeline's proof data for the one kernel region, and the body obligation.

  The region is entered with the TensorCore's buffers at contents V. The matching table is read off V; the pipeline is
  pinned at it (its index maps read no table, so its side condition is empty). Window 0 is the block of 100
  prediction planes of frame t, batch b; window 1 the block of 20 target planes; windows 2, 3, 4 the three output
  vectors of twenty numbers at (t, b). After the body at point t each input's buffer holds its block and each output's
  buffer holds what the run's one store wrote. The invariant is the scratch stack at some contents, the generator
  register, and the table held whole. The twenty side conditions the body assumes all follow from one fact about
  the table: every word it holds is below 100.
-/
import proofs.«431483_j19456201851405_2_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The table, and the pipeline at it -/

/-- The table's contents when the region is entered (the program runs on one device). -/
def tbl : pre0.Contents (Elt F) := fun j => V (0 : Dev nD) (pre0.ref j)
/-- On every device the table holds those contents. -/
theorem V_pre (c : Dev nD) (j : Fin 1) : V c (pre0.ref j) = tbl V j := by
  obtain rfl : c = 0 := Subsingleton.elim _ _; rfl
/-- No window's index map reads the table: its side condition is empty. -/
abbrev adm : (pcfg0 (F := F)).Adm := ⟨tbl V, trivial⟩
abbrev cfgM : Pipeline.Cfg sig Λ₀ := cfg0 (adm V)

/-- Every word the table holds is below 100: what the frame needs of the matching, and all it needs. -/
def Hyps : Prop := ∀ (c : Dev nD) (r : LoadRect S6x2x20) (y : r.shape.Idx), BitVec.toNat (tbM.view.readAt (Elt F) r (tbl V 0) y) < 100

/-- The kernel body at point t, on what the pipeline calls it with. -/
abbrev bodyAt0 (a : (pcfg0 (F := F)).Adm) (t : Fin (cfg0 a).N) : Prog (TpuEff nD τ sig (Elt F) Λ₀ .tc) PUnit :=
  cc0_kernel (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## The windows' blocks -/

/-- Window w's block at point t, read off its array as the region finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

/-- An input window's current staging buffer holds its block at every point, fetched there or not. -/
theorem before0_of {c : Dev nD} (dat : Dat τ (Elt F) Unit ℕ (Pipeline.UD sig nD τ) ℕ (cfgM V) c) (hA : dat.A 0 = V c (Pipeline.arrRef spec0 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ (cfgM V) c) (hA : dat.A 1 = V c (Pipeline.arrRef spec0 1))
    (hafter : ∀ t, dat.after 1 t = iblk V c 1 t) (t : Fin (cfgM V).N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and what the run leaves in the outputs' -/

abbrev ms0 (t : Fin (cfgM V).N) : Memref sig .tc .vmem S1x1x100x128x128 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S1x1x20x128x128 .f32 := spec0_1.stage ((cfgM V).slots t 1)
abbrev hs1 (t : Fin (cfgM V).N) : (ms1 V t).IsWhole := hstage0_1 (((cfgM V).slots t 1).cast nbuf0_1)
abbrev ms2 (t : Fin (cfgM V).N) : Memref sig .tc .vmem S1x1x1x20 .f32 := spec0_2.stage ((cfgM V).slots t 2)
abbrev hs2 (t : Fin (cfgM V).N) : (ms2 V t).IsWhole := hstage0_2 (((cfgM V).slots t 2).cast nbuf0_2)
abbrev ms3 (t : Fin (cfgM V).N) : Memref sig .tc .vmem S1x1x1x20 .f32 := spec0_3.stage ((cfgM V).slots t 3)
abbrev hs3 (t : Fin (cfgM V).N) : (ms3 V t).IsWhole := hstage0_3 (((cfgM V).slots t 3).cast nbuf0_3)
abbrev ms4 (t : Fin (cfgM V).N) : Memref sig .tc .vmem S1x1x1x20 .f32 := spec0_4.stage ((cfgM V).slots t 4)
abbrev hs4 (t : Fin (cfgM V).N) : (ms4 V t).IsWhole := hstage0_4 (((cfgM V).slots t 4).cast nbuf0_4)

/-- One staging buffer of each output window, through which its contents are stated. -/
abbrev VO2 : View sig .tc .vmem S1x1x1x20 .f32 := (Memref.whole cc0_stg2_0 : Memref sig .tc .vmem S1x1x1x20 .f32).view
abbrev VO3 : View sig .tc .vmem S1x1x1x20 .f32 := (Memref.whole cc0_stg3_0 : Memref sig .tc .vmem S1x1x1x20 .f32).view
abbrev VO4 : View sig .tc .vmem S1x1x1x20 .f32 := (Memref.whole cc0_stg4_0 : Memref sig .tc .vmem S1x1x1x20 .f32).view

/-! Each output's one piece is a store of the whole block, so it covers it. -/

theorem cover2 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) (y : S1x1x1x20.Idx) :
    ∃ pc ∈ (kernelRun0 c i arg3 harg3 arg4 harg4 arg5 harg5 arg6 harg6 arg7 harg7 x0 x1 xt hrd).1.1, y ∈ pc.1.set :=
  View.cover_of_wholeMem (kernelRun0 c i arg3 harg3 arg4 harg4 arg5 harg5 arg6 harg6 arg7 harg7 x0 x1 xt hrd).1.1 (by sl_whole_mem) y

/-- What the run leaves in output window 2's staging buffer: its one piece read back. -/
def out2 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) : Vec F S1x1x1x20 .f32 :=
  VO2.read (Elt F) (VO2.writes (Elt F) VO2.junk (kernelRun0 c i arg3 harg3 arg4 harg4 arg5 harg5 arg6 harg6 arg7 harg7 x0 x1 xt hrd).1.1)

theorem cover3 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) (y : S1x1x1x20.Idx) :
    ∃ pc ∈ (kernelRun0 c i arg3 harg3 arg4 harg4 arg5 harg5 arg6 harg6 arg7 harg7 x0 x1 xt hrd).1.2.1, y ∈ pc.1.set :=
  View.cover_of_wholeMem (kernelRun0 c i arg3 harg3 arg4 harg4 arg5 harg5 arg6 harg6 arg7 harg7 x0 x1 xt hrd).1.2.1 (by sl_whole_mem) y

/-- What the run leaves in output window 3's staging buffer: its one piece read back. -/
def out3 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) : Vec F S1x1x1x20 .f32 :=
  VO3.read (Elt F) (VO3.writes (Elt F) VO3.junk (kernelRun0 c i arg3 harg3 arg4 harg4 arg5 harg5 arg6 harg6 arg7 harg7 x0 x1 xt hrd).1.2.1)

theorem cover4 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) (y : S1x1x1x20.Idx) :
    ∃ pc ∈ (kernelRun0 c i arg3 harg3 arg4 harg4 arg5 harg5 arg6 harg6 arg7 harg7 x0 x1 xt hrd).1.2.2, y ∈ pc.1.set :=
  View.cover_of_wholeMem (kernelRun0 c i arg3 harg3 arg4 harg4 arg5 harg5 arg6 harg6 arg7 harg7 x0 x1 xt hrd).1.2.2 (by sl_whole_mem) y

/-- What the run leaves in output window 4's staging buffer: its one piece read back. -/
def out4 (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) : Vec F S1x1x1x20 .f32 :=
  VO4.read (Elt F) (VO4.writes (Elt F) VO4.junk (kernelRun0 c i arg3 harg3 arg4 harg4 arg5 harg5 arg6 harg6 arg7 harg7 x0 x1 xt hrd).1.2.2)

/-- The three outputs after the body at point t: the run at the point's memrefs, input blocks and the table. -/
def out2At (hH : Hyps V) (c : Dev nD) (t : Fin (cfgM V).N) : Vec F S1x1x1x20 .f32 := out2 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)
def out3At (hH : Hyps V) (c : Dev nD) (t : Fin (cfgM V).N) : Vec F S1x1x1x20 .f32 := out3 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)
def out4At (hH : Hyps V) (c : Dev nD) (t : Fin (cfgM V).N) : Vec F S1x1x1x20 .f32 := out4 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)

/-! ## The proof data -/

/-- The arrays as the region finds them; after the body each input's buffer at its block and each output's at what
    the run wrote; the invariant the scoped rest, the generator register and the table held whole; nothing owed. -/
def dat0 (hH : Hyps V) (c : Dev nD) : Dat τ (Elt F) Unit ℕ (Pipeline.UD sig nD τ) ℕ (cfgM V) c where
  A w := V c (Pipeline.arrRef spec0 w)
  after w t := match w with
    | ⟨0, _⟩ => iblk V c 0 t
    | ⟨1, _⟩ => iblk V c 1 t
    | ⟨2, _⟩ => out2At V hH c t
    | ⟨3, _⟩ => out3At V hH c t
    | ⟨4, _⟩ => out4At V hH c t
  Φ _ := iprop(Pipeline.ΦA spec0 c ∗ Pipeline.prefHeld pre0 c (fun _ => fullShare) (tbl V))
  q _ := fullShare
  owed _ := 0

theorem A_eq0 (hH : Hyps V) (c : Dev nD) (w : Fin (cfgM V).W) : (dat0 V hH c).A w = V c (Pipeline.arrRef spec0 w) := by
  dsimp only [dat0]

theorem after0_0 (hH : Hyps V) (c : Dev nD) (t : Fin (cfgM V).N) : (dat0 V hH c).after 0 t = iblk V c 0 t := by dsimp only [dat0]; try rfl
theorem after0_1 (hH : Hyps V) (c : Dev nD) (t : Fin (cfgM V).N) : (dat0 V hH c).after 1 t = iblk V c 1 t := by dsimp only [dat0]; try rfl
theorem after0_2 (hH : Hyps V) (c : Dev nD) (t : Fin (cfgM V).N) : (dat0 V hH c).after 2 t = out2At V hH c t := by dsimp only [dat0]; try rfl
theorem after0_3 (hH : Hyps V) (c : Dev nD) (t : Fin (cfgM V).N) : (dat0 V hH c).after 3 t = out3At V hH c t := by dsimp only [dat0]; try rfl
theorem after0_4 (hH : Hyps V) (c : Dev nD) (t : Fin (cfgM V).N) : (dat0 V hH c).after 4 t = out4At V hH c t := by dsimp only [dat0]; try rfl

theorem before0_0 (hH : Hyps V) (c : Dev nD) (t : Fin (cfgM V).N) (d) : (dat0 V hH c).before 0 t d = iblk V c 0 t :=
  before0_of V (dat0 V hH c) (A_eq0 V hH c 0) (after0_0 V hH c) t d
theorem before0_1 (hH : Hyps V) (c : Dev nD) (t : Fin (cfgM V).N) (d) : (dat0 V hH c).before 1 t d = iblk V c 1 t :=
  before1_of V (dat0 V hH c) (A_eq0 V hH c 1) (after0_1 V hH c) t d

/-! ## The invariant's parts as the run takes them -/

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem pref_eq (c : Dev nD) : (Pipeline.prefHeld pre0 c (fun _ => fullShare) (tbl V) : sProp 𝕄) = tbPt c (tbl V 0) := by
  unfold Pipeline.prefHeld
  rw [show (Finset.univ : Finset (Fin 1)) = {(0 : Fin 1)} from by decide, bigSep_singleton]
  rfl

/-! ## The body obligation -/

def bodyPre (hH : Hyps V) (c : Dev nD) (t : Fin (cfgM V).N) : sProp 𝕄 :=
  iprop((dat0 V hH c).Φ t.castSucc ∗ (dat0 V hH c).owesAt () t.castSucc
    ∗ (∃ d, owns (c : Thread nD τ) (ms0 V t) fullShare ((dat0 V hH c).before 0 t d))
    ∗ (∃ d, owns (c : Thread nD τ) (ms1 V t) fullShare ((dat0 V hH c).before 1 t d))
    ∗ (∃ d, owns (c : Thread nD τ) (ms2 V t) fullShare ((dat0 V hH c).before 2 t d))
    ∗ (∃ d, owns (c : Thread nD τ) (ms3 V t) fullShare ((dat0 V hH c).before 3 t d))
    ∗ (∃ d, owns (c : Thread nD τ) (ms4 V t) fullShare ((dat0 V hH c).before 4 t d)))

def bodyPost (hH : Hyps V) (c : Dev nD) (t : Fin (cfgM V).N) : sProp 𝕄 :=
  iprop((dat0 V hH c).Φ t.succ ∗ (dat0 V hH c).owesAt () t.succ
    ∗ owns (c : Thread nD τ) (ms0 V t) fullShare ((dat0 V hH c).after 0 t)
    ∗ owns (c : Thread nD τ) (ms1 V t) fullShare ((dat0 V hH c).after 1 t)
    ∗ owns (c : Thread nD τ) (ms2 V t) fullShare ((dat0 V hH c).after 2 t)
    ∗ owns (c : Thread nD τ) (ms3 V t) fullShare ((dat0 V hH c).after 3 t)
    ∗ owns (c : Thread nD τ) (ms4 V t) fullShare ((dat0 V hH c).after 4 t))

/-- The body at any point: the inputs' memrefs hold their blocks, so the run applies; the invariant hands the body the
    scratch at some contents and the table and takes them back; the core owes nothing throughout. -/
theorem sound_body (hH : Hyps V) (c : Dev nD) (t : Fin (cfgM V).N) :
    bodyPre V hH c t ⊢ wp frame (wpE (defs₀ (F := F)) Variants.none c none) Set.univ (bodyAt0 (adm V) t) (fun _ => bodyPost V hH c t) := by
  unfold bodyPre bodyPost bodyAt0
  simp only [before0_0, before0_1]
  rw [show (dat0 V hH c).Φ t.succ = (dat0 V hH c).Φ t.castSucc from rfl,
    show (dat0 V hH c).owesAt () t.succ = (dat0 V hH c).owesAt () t.castSucc from rfl,
    after0_0, after0_1, after0_2, after0_3, after0_4]
  rw [show (dat0 V hH c).Φ t.castSucc = iprop(Pipeline.ΦA spec0 c ∗ Pipeline.prefHeld pre0 c (fun _ => fullShare) (tbl V)) from rfl, PhiA0_eq, pref_eq]
  unfold out2At out3At out4At
  unfold out2 out3 out4
  iintro ⟨⟨⟨HS, Hg⟩, HT⟩, Ho, ⟨%d0, H0⟩, ⟨%d1, H1⟩, ⟨%d2, H2⟩, ⟨%d3, H3⟩, ⟨%d4, H4⟩⟩
  iapply ((kernelRun0 c (grid0.coords t) (ms0 V t) (hs0 V t) (ms1 V t) (hs1 V t) (ms2 V t) (hs2 V t) (ms3 V t) (hs3 V t) (ms4 V t) (hs4 V t) (iblk V c 0 t) (iblk V c 1 t) (tbl V 0) (hH c)).2 Set.univ _)
  isplitl [H0]; · iexact H0
  isplitl [H1]; · iexact H1
  isplitl [H2]; · iexists _; iexact H2
  isplitl [H3]; · iexists _; iexact H3
  isplitl [H4]; · iexists _; iexact H4
  isplitl [HS]; · iexact HS
  isplitl [HT]; · iexact HT
  iintro ⟨H0, H1, ⟨%e2, H2⟩, ⟨%e3, H3⟩, ⟨%e4, H4⟩, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover2 _ _ _ _ _ _ _ _ _ _ _ _ _ _ _ _)
  isplitl [H3]
  · unfold owns; iexists _; isplitr
    swap; · iexact H3
    ipureintro; exact View.read_writes_of_cover _ _ _ _ _ (cover3 _ _ _ _ _ _ _ _ _ _ _ _ _ _ _ _)
  unfold owns; iexists _; isplitr
  swap; · iexact H4
  ipureintro; exact View.read_writes_of_cover _ _ _ _ _ (cover4 _ _ _ _ _ _ _ _ _ _ _ _ _ _ _ _)

/-- The library's body obligation, at every point. -/
theorem body_obligation0 (hH : Hyps V) (c : Dev nD) : BodyObligation (dat0 (F := F) V hH c) (defs₀ (F := F)) Variants.none () Set.univ := fun t => by
  rw [bigSep_W0, bigSep_W0]
  exact sound_body V hH c t

end Cert.Kernel.Fr

end
-- ==== Proof.K.Launch.lean ====
/-
  The whole run of @main: the kernel region, then the thirteen stretches of host operations, from the launch to the
  return.

  Between two segments the core holds every unscoped buffer at a named valuation. The region is entered from the
  launch memory; its arrays are split out of the unscoped buffers, the matching table is taken whole into the
  region's invariant and handed back at its exit, every other buffer bypasses the region; at the exit the arrays hold
  what the pipeline leaves (the inputs as entered, each output's write-backs folded) and everything else what it held.
  Each host stretch then maps the valuation before it to the operations' results after it. At the return the last
  valuation is read against the final memory: every unscoped buffer holds what that valuation says.
-/
import proofs.«431483_j19456201851405_2_alg».proof.Proof.K.Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core c's buffers at launch (the region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: its arrays at what the pipeline leaves, every other buffer as entered. -/
def W1 (hH : Hyps (V0 m ρ)) (c : Dev nD) : Valuation τ sig (Elt F) :=
  Pipeline.withArrays spec0 c (W0 m ρ c) fun w => (dat0 (V0 m ρ) hH c).arrAt w (cfgM (V0 m ρ)).N
theorem W1_arr (hH : Hyps (V0 m ρ)) (c : Dev nD) (w : Fin (cfgM (V0 m ρ)).W) :
    W1 m ρ hH c (Proc.devRef .tc (Pipeline.arrRef spec0 w)) = (dat0 (V0 m ρ) hH c).arrAt w (cfgM (V0 m ρ)).N := by
  unfold W1; exact Pipeline.withArrays_arr spec0 (launch0 (F := F)).win.arr_inj c _ _ w
theorem W1_of_ne (hH : Hyps (V0 m ρ)) (c : Dev nD) (b : Ref sig .tc) (hb : ∀ w, Pipeline.arrRef spec0 w ≠ b) :
    W1 m ρ hH c (Proc.devRef .tc b) = W0 m ρ c (Proc.devRef .tc b) := by
  unfold W1; exact Pipeline.withArrays_of_ne spec0 c _ _ b hb
abbrev V1 (hH : Hyps (V0 m ρ)) : (c : Dev nD) → (b : Ref sig .tc) → Buf (Elt F) ((c : Thread nD τ).loc b) := fun c b => W1 m ρ hH c b
theorem hF0 (hH : Hyps (V0 m ρ)) (c : Dev nD) (w : Fin (cfgM (V0 m ρ)).W) : (dat0 (V0 m ρ) hH c).arrAt w (cfgM (V0 m ρ)).N = V1 m ρ hH c (Pipeline.arrRef spec0 w) :=
  (W1_arr m ρ hH c w).symm
theorem hrest0 (hH : Hyps (V0 m ρ)) (c : Dev nD) : ∀ b, b ∉ Finset.univ.image (Pipeline.arrRef spec0) → V1 m ρ hH c b = V0 m ρ c b :=
  fun b hb => W1_of_ne m ρ hH c b fun w e => hb (Finset.mem_image.mpr ⟨w, Finset.mem_univ _, e⟩)

/-- After each host stretch: the stretch's operations applied to the valuation before it. -/
def Wh1 (hH : Hyps (V0 m ρ)) (c : Dev nD) : Valuation τ sig (Elt F) := StableHlo.after (hostOps1 : List (HloOp τ sig (Elt F))) (W1 m ρ hH c)
def Wh2 (hH : Hyps (V0 m ρ)) (c : Dev nD) : Valuation τ sig (Elt F) := StableHlo.after (hostOps1_1 : List (HloOp τ sig (Elt F))) (Wh1 m ρ hH c)
def Wh3 (hH : Hyps (V0 m ρ)) (c : Dev nD) : Valuation τ sig (Elt F) := StableHlo.after (hostOps1_2 : List (HloOp τ sig (Elt F))) (Wh2 m ρ hH c)
def Wh4 (hH : Hyps (V0 m ρ)) (c : Dev nD) : Valuation τ sig (Elt F) := StableHlo.after (hostOps1_3 : List (HloOp τ sig (Elt F))) (Wh3 m ρ hH c)
def Wh5 (hH : Hyps (V0 m ρ)) (c : Dev nD) : Valuation τ sig (Elt F) := StableHlo.after (hostOps1_4 : List (HloOp τ sig (Elt F))) (Wh4 m ρ hH c)
def Wh6 (hH : Hyps (V0 m ρ)) (c : Dev nD) : Valuation τ sig (Elt F) := StableHlo.after (hostOps1_5 : List (HloOp τ sig (Elt F))) (Wh5 m ρ hH c)
def Wh7 (hH : Hyps (V0 m ρ)) (c : Dev nD) : Valuation τ sig (Elt F) := StableHlo.after (hostOps1_6 : List (HloOp τ sig (Elt F))) (Wh6 m ρ hH c)
def Wh8 (hH : Hyps (V0 m ρ)) (c : Dev nD) : Valuation τ sig (Elt F) := StableHlo.after (hostOps1_7 : List (HloOp τ sig (Elt F))) (Wh7 m ρ hH c)
def Wh9 (hH : Hyps (V0 m ρ)) (c : Dev nD) : Valuation τ sig (Elt F) := StableHlo.after (hostOps1_8 : List (HloOp τ sig (Elt F))) (Wh8 m ρ hH c)
def Wh10 (hH : Hyps (V0 m ρ)) (c : Dev nD) : Valuation τ sig (Elt F) := StableHlo.after (hostOps1_9 : List (HloOp τ sig (Elt F))) (Wh9 m ρ hH c)
def Wh11 (hH : Hyps (V0 m ρ)) (c : Dev nD) : Valuation τ sig (Elt F) := StableHlo.after (hostOps1_10 : List (HloOp τ sig (Elt F))) (Wh10 m ρ hH c)
def Wh12 (hH : Hyps (V0 m ρ)) (c : Dev nD) : Valuation τ sig (Elt F) := StableHlo.after (hostOps1_11 : List (HloOp τ sig (Elt F))) (Wh11 m ρ hH c)
def Wh13 (hH : Hyps (V0 m ρ)) (c : Dev nD) : Valuation τ sig (Elt F) := StableHlo.after (hostOps1_12 : List (HloOp τ sig (Elt F))) (Wh12 m ρ hH c)

/-- No host operation allocates. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-! ## The proof data family and the thread state -/

abbrev admP : (p : Fin 1) → (pcfgs (F := F) p).Adm := fun _ => adm (V0 m ρ)
def pdats (hH : Hyps (V0 m ρ)) : (p : Fin 1) → (c : Dev nD) → Dat τ (Elt F) Unit ℕ (Pipeline.UD sig nD τ) ℕ (Pipeline.pin (pcfgs (F := F)) (admP m ρ) p) c
  | ⟨0, _⟩ => fun c => dat0 (V0 m ρ) hH c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator register at some state. -/
abbrev Tₙ (hH : Hyps (V0 m ρ)) (c : Dev nD) : sProp 𝕄 := iprop(StableHlo.held (c : Thread nD τ) (Pipeline.ucRefs τ sig) (Wh13 m ρ hH c) ∗ ∃ r, prngReg c r)

/-! ## The region as a segment -/

set_option backward.isDefEq.respectTransparency.types false in
/-- The region over the thread state: entered from every unscoped buffer at W0, left at W1. Its arrays split out of
    the unscoped buffers and put back at the exit contents; the table split out of the bypassing buffers, taken whole
    into the invariant and handed back; the generator register into the invariant and out; nothing owed; no semaphore
    of the kernel's own. -/
def reg0 (hH : Hyps (V0 m ρ)) : Pipeline.RegionSeg (pcfgs (F := F)) (admP m ρ) (pdats m ρ hH) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m ρ) hH c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ hH c) ∗ R c)
  X c := iprop(∃ r, prngReg c r)
  Y c := iprop((∃ r, prngReg c r) ∗ Pipeline.prefHeld (Ix := Unit) (Name := ℕ) (U := Pipeline.UD sig nD τ) (Lvl := ℕ) pre0 c (fun _ => fullShare) (tbl (V0 m ρ)))
  Z c := Pipeline.unscopedRestP (Ix := Unit) (Name := ℕ) (U := Pipeline.UD sig nD τ) (Lvl := ℕ) pre0 spec0 c (V0 m ρ c)
  hentry c := by
    rw [Pipeline.ownSems0_none]
    have hsplit := Pipeline.arrays_of_unscopedBufs (p := 0) (pcfgs (F := F)) (admP m ρ) (pdats m ρ hH) (launch0 (F := F)).win (launch0 (F := F)).arr_whole c
      ((pdats m ρ hH 0 c).share_full fun _ => rfl) (V0 m ρ c) fun _ => rfl
    rw [Pipeline.unscopedBufs_held] at hsplit
    have hT : (Pipeline.unscopedRest (Ix := Unit) (Name := ℕ) (U := Pipeline.UD sig nD τ) (Lvl := ℕ) spec0 c (V0 m ρ c) : sProp 𝕄)
        = iprop(Pipeline.prefHeld pre0 c (fun _ => fullShare) (tbl (V0 m ρ)) ∗ Pipeline.unscopedRestP pre0 spec0 c (V0 m ρ c)) := by
      rw [Pipeline.unscopedRest_split (launch0 (F := F)).pre c (V0 m ρ c)]
      rw [show (fun k => V0 m ρ c (pre0.ref k)) = tbl (V0 m ρ) from funext fun k => V_pre (V0 m ρ) c k]
    iintro ⟨⟨Hub, Hp, HO⟩, -, -⟩
    ihave H := hsplit $$ Hub
    icases H with ⟨Ha, Hrest⟩
    ihave H' := (Entails.of_eq hT) $$ Hrest
    icases H' with ⟨HT, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HR
  hin c := by
    rw [show (pdats m ρ hH 0 c).Φ 0 = iprop(Pipeline.ΦA spec0 c ∗ Pipeline.prefHeld pre0 c (fun _ => fullShare) (tbl (V0 m ρ))) from rfl]; unfold Pipeline.ΦA
    iintro ⟨Hp, HT, Hr⟩
    isplitl [Hr Hp]
    · isplitl [Hr]; · iexact Hr
      iexact Hp
    iexact HT
  hout c := by
    rw [Pipeline.ownSems0_none, show (pdats m ρ hH 0 c).Φ (Fin.last _) = iprop(Pipeline.ΦA spec0 c ∗ Pipeline.prefHeld pre0 c (fun _ => fullShare) (tbl (V0 m ρ))) from rfl]; unfold Pipeline.ΦA
    iintro ⟨⟨Hr, Hp⟩, HT⟩
    isplitl [Hp HT]
    · isplitl [Hp]; · iexact Hp
      iexact HT
    isplitr; · iempintro
    iexact Hr
  hexit c := by
    have hjoin := Pipeline.unscopedBufs_of_arrays (p := 0) (pcfgs (F := F)) (admP m ρ) (Ix := Unit) (Name := ℕ) (U := Pipeline.UD sig nD τ) (Lvl := ℕ)
      (launch0 (F := F)).win (launch0 (F := F)).arr_whole c (pdats m ρ hH) ((pdats m ρ hH 0 c).share_full fun _ => rfl)
      (V0 m ρ c) (V1 m ρ hH c) ((pdats m ρ hH 0 c).arrAt · (cfgM (V0 m ρ)).N) (hF0 m ρ hH c) (hrest0 m ρ hH c)
    rw [Pipeline.unscopedBufs_held] at hjoin
    have hT : (Pipeline.unscopedRest (Ix := Unit) (Name := ℕ) (U := Pipeline.UD sig nD τ) (Lvl := ℕ) spec0 c (V0 m ρ c) : sProp 𝕄)
        = iprop(Pipeline.prefHeld pre0 c (fun _ => fullShare) (tbl (V0 m ρ)) ∗ Pipeline.unscopedRestP pre0 spec0 c (V0 m ρ c)) := by
      rw [Pipeline.unscopedRest_split (launch0 (F := F)).pre c (V0 m ρ c)]
      rw [show (fun k => V0 m ρ c (pre0.ref k)) = tbl (V0 m ρ) from funext fun k => V_pre (V0 m ρ) c k]
    iintro ⟨Ha, HO, ⟨HY, HT⟩, HR⟩
    ihave Hrest := (Entails.of_eq hT.symm) $$ [HT HR]
    · isplitl [HT]; · iexact HT
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hH : Hyps (V0 m ρ)) : List (Pipeline.Seg (pcfgs (F := F)) (admP m ρ) (pdats m ρ hH) () defs₀ 𝒱₀ L lv) :=
  [ .region (reg0 m ρ hH),
    .host (hseg hostOps1 hostOps1_sub hostOps1_fresh (W1 m ρ hH)),
    .host (hseg hostOps1_1 hostOps1_1_sub hostOps1_1_fresh (Wh1 m ρ hH)),
    .host (hseg hostOps1_2 hostOps1_2_sub hostOps1_2_fresh (Wh2 m ρ hH)),
    .host (hseg hostOps1_3 hostOps1_3_sub hostOps1_3_fresh (Wh3 m ρ hH)),
    .host (hseg hostOps1_4 hostOps1_4_sub hostOps1_4_fresh (Wh4 m ρ hH)),
    .host (hseg hostOps1_5 hostOps1_5_sub hostOps1_5_fresh (Wh5 m ρ hH)),
    .host (hseg hostOps1_6 hostOps1_6_sub hostOps1_6_fresh (Wh6 m ρ hH)),
    .host (hseg hostOps1_7 hostOps1_7_sub hostOps1_7_fresh (Wh7 m ρ hH)),
    .host (hseg hostOps1_8 hostOps1_8_sub hostOps1_8_fresh (Wh8 m ρ hH)),
    .host (hseg hostOps1_9 hostOps1_9_sub hostOps1_9_fresh (Wh9 m ρ hH)),
    .host (hseg hostOps1_10 hostOps1_10_sub hostOps1_10_fresh (Wh10 m ρ hH)),
    .host (hseg hostOps1_11 hostOps1_11_sub hostOps1_11_fresh (Wh11 m ρ hH)),
    .host (hseg hostOps1_12 hostOps1_12_sub hostOps1_12_fresh (Wh12 m ρ hH)) ]

theorem main_run (hH : Hyps (V0 m ρ)) (c : Dev nD) : main (F := F) c = Pipeline.Seg.run (segs m ρ hH) := (main_chain c).trans (by chain_rfl)

set_option backward.isDefEq.respectTransparency.types false in
/-- From any memory with zero counters whose matching table holds only words below 100: every weakly fair execution of
    @main terminates, nothing faulting, and in every final state each unscoped buffer of the TensorCore holds what the
    last valuation says. -/
theorem run_all (hH : Hyps (V0 m ρ)) : θ_run defs (onTc (τ := τ) (main (F := F))) ⟨m, fun _ => 0, ρ⟩ (fun r => ∀ c : Dev nD,
      ∀ b ∈ Pipeline.ucRefs τ sig, r.2.mem (((c : Thread nD τ)).1, b) = Wh13 m ρ hH c b) :=
  Pipeline.θ_run_regions_kit (pcfgs (F := F)) (admP m ρ) (pdats m ρ hH) () (cellOf_inj (admP m ρ)) embL defs₀ 𝒱₀ L lv m ρ main (segs m ρ hH)
    (fun c Q => by rw [main_run m ρ hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (admP m ρ)) (cellOf_inj (admP m ρ))) (Pipeline.launchToks (Pipeline.pin (pcfgs (F := F)) (admP m ρ)) (cellOf_inj (admP m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hH)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wh13 m ρ hH c) ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wh13 m ρ hH c b)
    (hfin := fun c s' => by
      iintro ⟨⟨Hh, -⟩, HSI⟩
      unfold StableHlo.held
      imodintro
      iapply (pointsTo_read_all (Pipeline.ucRefs τ sig) (fun b => (((c : Thread nD τ)).1, b)) (Wh13 m ρ hH c) s')
      isplitl [Hh] <;> iassumption)
    (hQ := fun s h c => h c)

end Cert.Kernel.Fr

end
-- ==== Proof.K.TailArgs.lean ====
/-
  The host operations after the region, as one valuation, and what they leave untouched.

  After the region the program applies 150 host operations in 13 stretches. `Wtail W` is what the buffers hold once
  all of them have run from contents `W`. No stretch allocates a buffer, and none writes an argument or one of the
  region's three output arrays: each operation writes its own result buffer only, and those are listed stretch by
  stretch.
-/
import proofs.«431483_j19456201851405_2_alg».proof.Proof.Gen.Kernel.Launch
import Idealize.ShloMosaic.Lib.StableHlo.Run

noncomputable section

namespace Cert.Kernel.Tail

open Idealize.ShloMosaic Idealize.ShloMosaic.TcCoe Idealize.SL.Sem
open Cert.Kernel Cert.Kernel.Gen

variable {F : FTy → Type} [FloatOps F]

/-- The buffer contents once the thirteen stretches of host operations have run in order from contents `W`. -/
def Wtail (W : Valuation τ sig (Elt F)) : Valuation τ sig (Elt F) :=
  StableHlo.after hostOps1_12 (StableHlo.after hostOps1_11 (StableHlo.after hostOps1_10 (StableHlo.after hostOps1_9
    (StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
        (StableHlo.after hostOps1 W))))))))))))

/-! ## No stretch allocates -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-! ## What each stretch writes

Each host operation writes its own result buffer only. Listing a stretch's result buffers, a reference outside the
list keeps its contents through the stretch. -/

/-- The result buffers of stretch 0, in order. -/
abbrev wr0 : List (Ref sig .tc) :=
  [main_v1, main_v2, main_v3, main_cst, main_v4, main_cst_0, main_v5, main_v6, main_cst_1, main_v7, main_v8,
   main_cst_2, main_v9, main_cst_3, main_v10, main_v11]
/-- The result buffers of stretch 1, in order. -/
abbrev wr1 : List (Ref sig .tc) :=
  [main_call0_v0, main_call0_cst, main_call0_v1, main_call0_v2, main_v12]
/-- The result buffer of stretch 2. -/
abbrev wr2 : List (Ref sig .tc) :=
  [main_cst_4]
/-- The result buffers of stretch 3, in order. -/
abbrev wr3 : List (Ref sig .tc) :=
  [main_call1_v0, main_call1_v1, main_v13]
/-- The result buffers of stretch 4, in order. -/
abbrev wr4 : List (Ref sig .tc) :=
  [main_v14, main_v15, main_v16]
/-- The result buffers of stretch 5, in order. -/
abbrev wr5 : List (Ref sig .tc) :=
  [main_call2_c, main_call2_v0, main_call2_v1, main_call2_c_0, main_call2_v2, main_call2_v3, main_call2_v4,
   main_call2_c_1, main_call2_c_2, main_call2_v5, main_call2_v6, main_call2_v7, main_call2_v8, main_call2_v9,
   main_call2_v10, main_call2_c_3, main_call2_v11, main_call2_v12, main_call2_v13, main_call2_cst, main_call2_v14,
   main_v17]
/-- The result buffers of stretch 6, in order. -/
abbrev wr6 : List (Ref sig .tc) :=
  [main_v18, main_v19, main_v20, main_cst_5, main_v21, main_v22]
/-- The result buffers of stretch 7, in order. -/
abbrev wr7 : List (Ref sig .tc) :=
  [main_call3_cst, main_call3_v0, main_call3_cst_0, main_call3_v1, main_call3_v2, main_call3_v3, main_call3_v4,
   main_call3_v5, main_call3_v6, main_call3_cst_1, main_call3_v7, main_call3_v8, main_call3_v9, main_call3_v10,
   main_v23]
/-- The result buffers of stretch 8, in order. -/
abbrev wr8 : List (Ref sig .tc) :=
  [main_call4_v0, main_call4_v1, main_call4_c, main_call4_v2, main_call4_v3, main_call4_c_0, main_call4_v4,
   main_call4_v5, main_call4_v6, main_call4_c_1, main_call4_v7, main_call4_v8, main_call4_c_2, main_call4_v9,
   main_call4_v10, main_call4_v11, main_call4_v12, main_call4_v13, main_call4_v14, main_v24]
/-- The result buffers of stretch 9, in order. -/
abbrev wr9 : List (Ref sig .tc) :=
  [main_cst_6, main_v25, main_cst_7, main_v26, main_v27, main_cst_8, main_v28, main_v29]
/-- The result buffers of stretch 10, in order. -/
abbrev wr10 : List (Ref sig .tc) :=
  [main_call5_cst, main_call5_v0, main_call5_cst_0, main_call5_v1, main_call5_v2, main_call5_v3, main_call5_v4,
   main_call5_v5, main_call5_v6, main_call5_cst_1, main_call5_v7, main_call5_v8, main_call5_v9, main_call5_v10,
   main_v30]
/-- The result buffers of stretch 11, in order. -/
abbrev wr11 : List (Ref sig .tc) :=
  [main_call6_v0, main_call6_v1, main_call6_c, main_call6_v2, main_call6_v3, main_call6_c_0, main_call6_v4,
   main_call6_v5, main_call6_v6, main_call6_c_1, main_call6_v7, main_call6_v8, main_call6_c_2, main_call6_v9,
   main_call6_v10, main_call6_v11, main_call6_v12, main_call6_v13, main_call6_v14, main_v31]
/-- The result buffers of stretch 12, in order. -/
abbrev wr12 : List (Ref sig .tc) :=
  [main_cst_9, main_v32, main_cst_10, main_v33, main_v34, main_cst_11, main_v35, main_cst_12, main_v36, main_v37,
   main_cst_13, main_v38, main_v39, main_cst_14, main_v40, main_v41]

theorem wsub0 : (hostOps1 : List (HloOp τ sig (Elt F))).Forall fun op =>
    op.writes ⊆ (wr0.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub1 : (hostOps1_1 : List (HloOp τ sig (Elt F))).Forall fun op =>
    op.writes ⊆ (wr1.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub2 : (hostOps1_2 : List (HloOp τ sig (Elt F))).Forall fun op =>
    op.writes ⊆ (wr2.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub3 : (hostOps1_3 : List (HloOp τ sig (Elt F))).Forall fun op =>
    op.writes ⊆ (wr3.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub4 : (hostOps1_4 : List (HloOp τ sig (Elt F))).Forall fun op =>
    op.writes ⊆ (wr4.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub5 : (hostOps1_5 : List (HloOp τ sig (Elt F))).Forall fun op =>
    op.writes ⊆ (wr5.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub6 : (hostOps1_6 : List (HloOp τ sig (Elt F))).Forall fun op =>
    op.writes ⊆ (wr6.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub7 : (hostOps1_7 : List (HloOp τ sig (Elt F))).Forall fun op =>
    op.writes ⊆ (wr7.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub8 : (hostOps1_8 : List (HloOp τ sig (Elt F))).Forall fun op =>
    op.writes ⊆ (wr8.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub9 : (hostOps1_9 : List (HloOp τ sig (Elt F))).Forall fun op =>
    op.writes ⊆ (wr9.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub10 : (hostOps1_10 : List (HloOp τ sig (Elt F))).Forall fun op =>
    op.writes ⊆ (wr10.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub11 : (hostOps1_11 : List (HloOp τ sig (Elt F))).Forall fun op =>
    op.writes ⊆ (wr11.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem wsub12 : (hostOps1_12 : List (HloOp τ sig (Elt F))).Forall fun op =>
    op.writes ⊆ (wr12.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

theorem keep0 (V : Valuation τ sig (Elt F)) {r : Ref sig .tc} (hr : r ∉ wr0) :
    StableHlo.after hostOps1 V (Proc.devRef .tc r) = V (Proc.devRef .tc r) :=
  StableHlo.after_of_writes_sub hostOps1 V wsub0 hr
theorem keep1 (V : Valuation τ sig (Elt F)) {r : Ref sig .tc} (hr : r ∉ wr1) :
    StableHlo.after hostOps1_1 V (Proc.devRef .tc r) = V (Proc.devRef .tc r) :=
  StableHlo.after_of_writes_sub hostOps1_1 V wsub1 hr
theorem keep2 (V : Valuation τ sig (Elt F)) {r : Ref sig .tc} (hr : r ∉ wr2) :
    StableHlo.after hostOps1_2 V (Proc.devRef .tc r) = V (Proc.devRef .tc r) :=
  StableHlo.after_of_writes_sub hostOps1_2 V wsub2 hr
theorem keep3 (V : Valuation τ sig (Elt F)) {r : Ref sig .tc} (hr : r ∉ wr3) :
    StableHlo.after hostOps1_3 V (Proc.devRef .tc r) = V (Proc.devRef .tc r) :=
  StableHlo.after_of_writes_sub hostOps1_3 V wsub3 hr
theorem keep4 (V : Valuation τ sig (Elt F)) {r : Ref sig .tc} (hr : r ∉ wr4) :
    StableHlo.after hostOps1_4 V (Proc.devRef .tc r) = V (Proc.devRef .tc r) :=
  StableHlo.after_of_writes_sub hostOps1_4 V wsub4 hr
theorem keep5 (V : Valuation τ sig (Elt F)) {r : Ref sig .tc} (hr : r ∉ wr5) :
    StableHlo.after hostOps1_5 V (Proc.devRef .tc r) = V (Proc.devRef .tc r) :=
  StableHlo.after_of_writes_sub hostOps1_5 V wsub5 hr
theorem keep6 (V : Valuation τ sig (Elt F)) {r : Ref sig .tc} (hr : r ∉ wr6) :
    StableHlo.after hostOps1_6 V (Proc.devRef .tc r) = V (Proc.devRef .tc r) :=
  StableHlo.after_of_writes_sub hostOps1_6 V wsub6 hr
theorem keep7 (V : Valuation τ sig (Elt F)) {r : Ref sig .tc} (hr : r ∉ wr7) :
    StableHlo.after hostOps1_7 V (Proc.devRef .tc r) = V (Proc.devRef .tc r) :=
  StableHlo.after_of_writes_sub hostOps1_7 V wsub7 hr
theorem keep8 (V : Valuation τ sig (Elt F)) {r : Ref sig .tc} (hr : r ∉ wr8) :
    StableHlo.after hostOps1_8 V (Proc.devRef .tc r) = V (Proc.devRef .tc r) :=
  StableHlo.after_of_writes_sub hostOps1_8 V wsub8 hr
theorem keep9 (V : Valuation τ sig (Elt F)) {r : Ref sig .tc} (hr : r ∉ wr9) :
    StableHlo.after hostOps1_9 V (Proc.devRef .tc r) = V (Proc.devRef .tc r) :=
  StableHlo.after_of_writes_sub hostOps1_9 V wsub9 hr
theorem keep10 (V : Valuation τ sig (Elt F)) {r : Ref sig .tc} (hr : r ∉ wr10) :
    StableHlo.after hostOps1_10 V (Proc.devRef .tc r) = V (Proc.devRef .tc r) :=
  StableHlo.after_of_writes_sub hostOps1_10 V wsub10 hr
theorem keep11 (V : Valuation τ sig (Elt F)) {r : Ref sig .tc} (hr : r ∉ wr11) :
    StableHlo.after hostOps1_11 V (Proc.devRef .tc r) = V (Proc.devRef .tc r) :=
  StableHlo.after_of_writes_sub hostOps1_11 V wsub11 hr
theorem keep12 (V : Valuation τ sig (Elt F)) {r : Ref sig .tc} (hr : r ∉ wr12) :
    StableHlo.after hostOps1_12 V (Proc.devRef .tc r) = V (Proc.devRef .tc r) :=
  StableHlo.after_of_writes_sub hostOps1_12 V wsub12 hr

/-- A reference no stretch writes ends as it began. -/
theorem Wtail_keep (W : Valuation τ sig (Elt F)) {r : Ref sig .tc}
    (h0 : r ∉ wr0) (h1 : r ∉ wr1) (h2 : r ∉ wr2) (h3 : r ∉ wr3) (h4 : r ∉ wr4) (h5 : r ∉ wr5) (h6 : r ∉ wr6)
    (h7 : r ∉ wr7) (h8 : r ∉ wr8) (h9 : r ∉ wr9) (h10 : r ∉ wr10) (h11 : r ∉ wr11) (h12 : r ∉ wr12) :
    Wtail W (Proc.devRef .tc r) = W (Proc.devRef .tc r) := by
  unfold Wtail
  rw [keep12 _ h12, keep11 _ h11, keep10 _ h10, keep9 _ h9, keep8 _ h8, keep7 _ h7, keep6 _ h6, keep5 _ h5, keep4 _ h4,
    keep3 _ h3, keep2 _ h2, keep1 _ h1, keep0 _ h0]

/-! ## The arguments and the region's outputs are written by no host operation -/

theorem Wtail_arg0 (W : Valuation τ sig (Elt F)) : Wtail W (Proc.devRef .tc main_arg0) = W (Proc.devRef .tc main_arg0) := by
  exact Wtail_keep W (by decide) (by decide) (by decide) (by decide) (by decide) (by decide) (by decide) (by decide) (by decide) (by decide) (by decide) (by decide) (by decide)
theorem Wtail_arg1 (W : Valuation τ sig (Elt F)) : Wtail W (Proc.devRef .tc main_arg1) = W (Proc.devRef .tc main_arg1) := by
  exact Wtail_keep W (by decide) (by decide) (by decide) (by decide) (by decide) (by decide) (by decide) (by decide) (by decide) (by decide) (by decide) (by decide) (by decide)
theorem Wtail_arg2 (W : Valuation τ sig (Elt F)) : Wtail W (Proc.devRef .tc main_arg2) = W (Proc.devRef .tc main_arg2) := by
  exact Wtail_keep W (by decide) (by decide) (by decide) (by decide) (by decide) (by decide) (by decide) (by decide) (by decide) (by decide) (by decide) (by decide) (by decide)
theorem Wtail_arg3 (W : Valuation τ sig (Elt F)) : Wtail W (Proc.devRef .tc main_arg3) = W (Proc.devRef .tc main_arg3) := by
  exact Wtail_keep W (by decide) (by decide) (by decide) (by decide) (by decide) (by decide) (by decide) (by decide) (by decide) (by decide) (by decide) (by decide) (by decide)
theorem Wtail_v0_0 (W : Valuation τ sig (Elt F)) : Wtail W (Proc.devRef .tc main_v0_0) = W (Proc.devRef .tc main_v0_0) := by
  exact Wtail_keep W (by decide) (by decide) (by decide) (by decide) (by decide) (by decide) (by decide) (by decide) (by decide) (by decide) (by decide) (by decide) (by decide)
theorem Wtail_v0_1 (W : Valuation τ sig (Elt F)) : Wtail W (Proc.devRef .tc main_v0_1) = W (Proc.devRef .tc main_v0_1) := by
  exact Wtail_keep W (by decide) (by decide) (by decide) (by decide) (by decide) (by decide) (by decide) (by decide) (by decide) (by decide) (by decide) (by decide) (by decide)
theorem Wtail_v0_2 (W : Valuation τ sig (Elt F)) : Wtail W (Proc.devRef .tc main_v0_2) = W (Proc.devRef .tc main_v0_2) := by
  exact Wtail_keep W (by decide) (by decide) (by decide) (by decide) (by decide) (by decide) (by decide) (by decide) (by decide) (by decide) (by decide) (by decide) (by decide)

end Cert.Kernel.Tail

end
-- ==== Proof.K.Frame.lean ====
/-
  The frame of the program: under the precondition it runs to the end, faults nowhere, and leaves its four argument
  arrays as launched.

  The precondition bounds every word of the matching table below 100, which is all the run needs. At the end each
  argument's buffer holds what the last valuation says; no host operation writes an argument, the region reads the two
  mask arrays through input windows and leaves them as entered, and the other two bypass the region: so the last
  valuation at an argument walks back to the launch memory.
-/
import proofs.«431483_j19456201851405_2_alg».proof.Proof.K.Launch
import proofs.«431483_j19456201851405_2_alg».proof.Proof.K.TailArgs
import proofs.«431483_j19456201851405_2_alg».proof.Proof.PreRange

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The precondition's range test on the matching gives the run's hypothesis: a word read through the table's whole view
    is an entry of the table. -/
theorem hyps_of_pre [Cert.Pre_finite_inputs.Facts]
    (hpre : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Hyps (V0 m ρ) :=
  fun c r y => Cert.PreRange.perm_lt (F := F) _ _ _ _ (hpre 0) (r.idx y)

/-- The last valuation is the host tail applied to the region's exit valuation. -/
theorem Wh13_eq (hH : Hyps (V0 m ρ)) (c : Dev nD) : Wh13 m ρ hH c = Cert.Kernel.Tail.Wtail (W1 m ρ hH c) := rfl

theorem Wfin_arg0 (hH : Hyps (V0 m ρ)) (c : Dev nD) : Wh13 m ρ hH c (Proc.devRef .tc main_arg0) = m ((c : Thread nD τ).loc main_arg0) :=
  calc Wh13 m ρ hH c (Proc.devRef .tc main_arg0)
    _ = W1 m ρ hH c (Proc.devRef .tc main_arg0) := by rw [Wh13_eq]; exact Cert.Kernel.Tail.Wtail_arg0 _
    _ = W0 m ρ c (Proc.devRef .tc main_arg0) := (W1_arr m ρ hH c 0).trans (((dat0 (V0 m ρ) hH c).arrAt_in 0 rfl _).trans (A_eq0 (V0 m ρ) hH c 0))
    _ = m ((c : Thread nD τ).loc main_arg0) := rfl
theorem Wfin_arg2 (hH : Hyps (V0 m ρ)) (c : Dev nD) : Wh13 m ρ hH c (Proc.devRef .tc main_arg2) = m ((c : Thread nD τ).loc main_arg2) :=
  calc Wh13 m ρ hH c (Proc.devRef .tc main_arg2)
    _ = W1 m ρ hH c (Proc.devRef .tc main_arg2) := by rw [Wh13_eq]; exact Cert.Kernel.Tail.Wtail_arg2 _
    _ = W0 m ρ c (Proc.devRef .tc main_arg2) := (W1_arr m ρ hH c 1).trans (((dat0 (V0 m ρ) hH c).arrAt_in 1 rfl _).trans (A_eq0 (V0 m ρ) hH c 1))
    _ = m ((c : Thread nD τ).loc main_arg2) := rfl
theorem Wfin_arg1 (hH : Hyps (V0 m ρ)) (c : Dev nD) : Wh13 m ρ hH c (Proc.devRef .tc main_arg1) = m ((c : Thread nD τ).loc main_arg1) :=
  calc Wh13 m ρ hH c (Proc.devRef .tc main_arg1)
    _ = W1 m ρ hH c (Proc.devRef .tc main_arg1) := by rw [Wh13_eq]; exact Cert.Kernel.Tail.Wtail_arg1 _
    _ = W0 m ρ c (Proc.devRef .tc main_arg1) := W1_of_ne m ρ hH c main_arg1 (by decide)
    _ = m ((c : Thread nD τ).loc main_arg1) := rfl
theorem Wfin_arg3 (hH : Hyps (V0 m ρ)) (c : Dev nD) : Wh13 m ρ hH c (Proc.devRef .tc main_arg3) = m ((c : Thread nD τ).loc main_arg3) :=
  calc Wh13 m ρ hH c (Proc.devRef .tc main_arg3)
    _ = W1 m ρ hH c (Proc.devRef .tc main_arg3) := by rw [Wh13_eq]; exact Cert.Kernel.Tail.Wtail_arg3 _
    _ = W0 m ρ c (Proc.devRef .tc main_arg3) := W1_of_ne m ρ hH c main_arg3 (by decide)
    _ = m ((c : Thread nD τ).loc main_arg3) := rfl

/-- THE FRAME, at any float instance, for a memory whose matching table holds only words below 100. -/
theorem frame (hH : Hyps (V0 m ρ)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wfin_arg0 m ρ hH c),
     (h c _ (mem_uc main_arg1 (by decide))).trans (Wfin_arg1 m ρ hH c),
     (h c _ (mem_uc main_arg2 (by decide))).trans (Wfin_arg2 m ρ hH c),
     (h c _ (mem_uc main_arg3 (by decide))).trans (Wfin_arg3 m ρ hH c)⟩) (run_all m ρ hH)

end Cert.Kernel.Fr

end
-- ==== Proof.KernelClaims.lean ====
/-
  The two kernel programs' frame claims and the idealization claim.

  Each program's frame is its run under the range fact the precondition gives; the idealization rewrote nothing, so
  its claim is empty.
-/
import proofs.«431483_j19456201851405_2_alg».proof.Defs
import proofs.«431483_j19456201851405_2_alg».proof.Proof.KI.Frame
import proofs.«431483_j19456201851405_2_alg».proof.Proof.K.Frame

noncomputable section

namespace Cert.Proof.KernelClaims

open Idealize.ShloMosaic Idealize.SL.Sem

theorem frame_p : Cert.frame_Kernel := fun m ρ hpre => Cert.Kernel.Fr.frame m ρ (Cert.Kernel.Fr.hyps_of_pre m ρ hpre)
theorem frame_pi : Cert.frame_KernelIdeal := fun m ρ hpre => Cert.KernelIdeal.Fr.frame m ρ (Cert.KernelIdeal.Fr.hyps_of_pre m ρ hpre)
theorem preserves : Cert.preserves_Kernel_KernelIdeal := trivial

end Cert.Proof.KernelClaims

end
-- ==== Proof.Spec.lean ====
/-
  The mathematics both programs compute, as functions of the four argument arrays over the extended reals.

  Arguments: P, the prediction planes, indexed (b, t, n, h, w) over 2 x 6 x 100 x 128 x 128; G, the target planes,
  indexed (b, t, m, h, w) over 2 x 6 x 20 x 128 x 128; π, the matching, indexed (t, b, m) over 6 x 2 x 20, each entry
  the number n of the prediction plane matched to target m at frame t of batch b.

  For one frame t, batch b and target m the matched plane is P(b, t, π(t, b, m), ·, ·). Over its 128 x 128 pixels
  three sums are taken: of the binary cross-entropy with logits against the target plane, of the product of the
  sigmoid with the target, and of the sigmoid and the target separately. The mask loss is the mean of the first
  over all (t, b, m, h, w); the dice loss is the mean over (t, b, m) of 1 - 2 * (product sum) / (sigmoid sum +
  target sum + ε).
-/
import Idealize.ShloMosaic.PureOps.Ideal
import Idealize.ShloMosaic.Lib.ValueIdx

noncomputable section

namespace Cert.Spec

open Idealize.ShloMosaic Idealize.ShloMosaic.ValueIdx

/-- The shapes of the three arrays the mask losses read. -/
abbrev SP : Shape := ⟨5, ![2, 6, 100, 128, 128]⟩
abbrev SG : Shape := ⟨5, ![2, 6, 20, 128, 128]⟩
abbrev SM : Shape := ⟨3, ![6, 2, 20]⟩

/-- Binary cross-entropy with logits of a logit x against a target y, in its overflow-free form:
    max(x, 0) - x * y + log(1 + exp(-|x|)), with |x| = max(x, -x). -/
def bce (x y : EReal) : EReal := max x 0 - x * y + Ideal.log1p (Ideal.exp (-(max x (-x))))

/-- The sigmoid 1 / (1 + exp(-x)). -/
def sig (x : EReal) : EReal := Ideal.logistic x

/-- The small constant added to the dice denominator: the binary32 number nearest 1e-6, the same word in both programs. -/
def eps : EReal := Ideal.ofBits .f32 0x358637BD#32

/-- The plane number the matching names for (t, b, m), as an index below 100 (reduced modulo 100, which changes
    nothing when the entry is in range). -/
def planeOf (π : SM.Idx → BitVec 32) (t : Fin 6) (b : Fin 2) (m : Fin 20) : Fin 100 :=
  ⟨(π (ix3 t b m)).toNat % 100, Nat.mod_lt _ (by decide)⟩

/-- The matched logit at pixel (h, w). -/
def src (P : SP.Idx → EReal) (π : SM.Idx → BitVec 32) (t : Fin 6) (b : Fin 2) (m : Fin 20) (h w : Fin 128) : EReal :=
  P (ix5 b t (planeOf π t b m) h w)

/-- The target at pixel (h, w). -/
def tgt (G : SG.Idx → EReal) (t : Fin 6) (b : Fin 2) (m : Fin 20) (h w : Fin 128) : EReal :=
  G (ix5 b t m h w)

/-- Sum of the cross-entropy over the plane. -/
def bceSum (P : SP.Idx → EReal) (G : SG.Idx → EReal) (π : SM.Idx → BitVec 32) (t : Fin 6) (b : Fin 2) (m : Fin 20) : EReal :=
  ∑ h : Fin 128, ∑ w : Fin 128, bce (src P π t b m h w) (tgt G t b m h w)

/-- Sum over the plane of sigmoid times target. -/
def prodSum (P : SP.Idx → EReal) (G : SG.Idx → EReal) (π : SM.Idx → BitVec 32) (t : Fin 6) (b : Fin 2) (m : Fin 20) : EReal :=
  ∑ h : Fin 128, ∑ w : Fin 128, sig (src P π t b m h w) * tgt G t b m h w

/-- Sum over the plane of the sigmoid. -/
def sigSum (P : SP.Idx → EReal) (π : SM.Idx → BitVec 32) (t : Fin 6) (b : Fin 2) (m : Fin 20) : EReal :=
  ∑ h : Fin 128, ∑ w : Fin 128, sig (src P π t b m h w)

/-- Sum over the plane of the target. -/
def tgtSum (G : SG.Idx → EReal) (t : Fin 6) (b : Fin 2) (m : Fin 20) : EReal :=
  ∑ h : Fin 128, ∑ w : Fin 128, tgt G t b m h w

/-- The dice numerator 2 * prodSum (the 2 as the binary32 word both programs carry). -/
def numer (P : SP.Idx → EReal) (G : SG.Idx → EReal) (π : SM.Idx → BitVec 32) (t : Fin 6) (b : Fin 2) (m : Fin 20) : EReal :=
  Ideal.ofBits .f32 0x40000000#32 * prodSum P G π t b m

/-- The dice denominator sigSum + tgtSum + ε. -/
def denom (P : SP.Idx → EReal) (G : SG.Idx → EReal) (π : SM.Idx → BitVec 32) (t : Fin 6) (b : Fin 2) (m : Fin 20) : EReal :=
  sigSum P π t b m + tgtSum G t b m + eps

/-- The total of the cross-entropy over every frame, batch, target and pixel. -/
def bceTotal (P : SP.Idx → EReal) (G : SG.Idx → EReal) (π : SM.Idx → BitVec 32) : EReal :=
  ∑ t : Fin 6, ∑ b : Fin 2, ∑ m : Fin 20, bceSum P G π t b m

/-- The mask loss: the mean cross-entropy, the count 6 * 2 * 20 * 128 * 128 = 3932160 as the binary32 word both programs carry. -/
def lossMask (P : SP.Idx → EReal) (G : SG.Idx → EReal) (π : SM.Idx → BitVec 32) : EReal :=
  Ideal.div (bceTotal P G π) (Ideal.ofBits .f32 0x4A700000#32)

/-- One target's dice term 1 - numer / denom. -/
def diceTerm (P : SP.Idx → EReal) (G : SG.Idx → EReal) (π : SM.Idx → BitVec 32) (t : Fin 6) (b : Fin 2) (m : Fin 20) : EReal :=
  Ideal.ofBits .f32 0x3F800000#32 - Ideal.div (numer P G π t b m) (denom P G π t b m)

/-- The dice loss: the mean of the 240 dice terms. -/
def lossDice (P : SP.Idx → EReal) (G : SG.Idx → EReal) (π : SM.Idx → BitVec 32) : EReal :=
  Ideal.div (∑ t : Fin 6, ∑ b : Fin 2, ∑ m : Fin 20, diceTerm P G π t b m) (Ideal.ofBits .f32 0x43700000#32)

end Cert.Spec

end
-- ==== Proof.KI.PayValue.lean ====
/-
  The three values the kernel's body writes for one grid point, read at an entry m of the [1,1,1,20] block, at the
  ideal values: with x the gathered stack of matched logit planes, indexed (m, h, w) over 20 x 128 x 128, and y the
  target block, indexed (0, 0, m, h, w),

    the first  is  ∑ h w, bce (x m h w) (y m h w)      (the cross-entropy with logits, summed over the plane),
    the second is  2 * ∑ h w, sig (x m h w) * y m h w  (the dice numerator),
    the third  is  ∑ h w, sig (x m h w) + ∑ h w, y m h w + ε   (the dice denominator).

  Each sum over the plane is taken as two nested sums, over w (axis 2) and then over h (axis 1); a sum over one axis
  at the ideal values is the finite sum over that axis's coordinates. The shape casts only rename indices: an entry of
  the [1,1,1,20] block is the entry m of the [20] vector, and the entry (m, h, w) of the [20,128,128] view of the
  target block is its entry (0, 0, m, h, w). The kernel writes 0 - |x| where the specification writes -|x|.
-/
import proofs.«431483_j19456201851405_2_alg».proof.Proof.Gen.KernelIdeal.Skeleton
import proofs.«431483_j19456201851405_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Idealize.ShloMosaic Idealize.ShloMosaic.ValueIdx Cert.KernelIdeal Cert.KernelIdeal.Gen

/-! ## Index renamings of the shape casts -/

/-- The [20] vector viewed as [1,20] and then as [1,1,1,20] reads, at (0,0,0,m), the vector's entry m. -/
theorem out_cast_apply {α : Type} (v : S20.Idx → α) (h1 : S20.ShapeCasts S1x20) (h2 : S1x20.ShapeCasts S1x1x1x20)
    (m : Fin 20) :
    shapeCast S1x1x1x20 (shapeCast S1x20 v h1) h2 (ix4 (0 : Fin 1) (0 : Fin 1) (0 : Fin 1) m) = v (ix1 m) := by
  refine (shapeCast_apply _ h2 _ (ix2 (0 : Fin 1) m) ?_).trans ?_
  · rw [Shape.rowMajor_val_two, Shape.rowMajor_val_four]
    rfl
  · exact shapeCast_a_1a_apply v h1 0 m

/-- The target block [1,1,20,128,128] viewed as [20,128,128] reads, at (m,h,w), the block's entry (0,0,m,h,w). -/
theorem tgt_cast_apply {α : Type} (v : S1x1x20x128x128.Idx → α) (hc : S1x1x20x128x128.ShapeCasts S20x128x128)
    (m : Fin 20) (h w : Fin 128) :
    shapeCast S20x128x128 v hc (ix3 m h w) = v (ix5 (0 : Fin 1) (0 : Fin 1) m h w) := by
  refine shapeCast_apply v hc _ _ ?_
  rw [Shape.rowMajor_val_five, Shape.rowMajor_val_three]
  show ((((0 * 1 + 0) * 20 + m.val) * 128 + h.val) * 128 + w.val) = (m.val * 128 + h.val) * 128 + w.val
  simp only [Nat.zero_mul, Nat.zero_add]

/-! ## The two nested sums -/

/-- The index of the [20,128] array over entry m of the [20] vector with h put on the summed axis is (m, h). -/
theorem lift1 (hr : S20x128.Reduces [1] S20) (m : Fin 20) (h : Fin 128) : hr.lift (ix1 m) h = ix2 m h := by
  funext c
  match c with
  | ⟨0, _⟩ => exact Fin.ext rfl
  | ⟨1, _⟩ => exact Fin.ext rfl

/-- The index of the [20,128,128] array over entry (m, h) of the [20,128] array with w put on the summed axis is (m, h, w). -/
theorem lift2 (hr : S20x128x128.Reduces [2] S20x128) (m : Fin 20) (h w : Fin 128) : hr.lift (ix2 m h) w = ix3 m h w := by
  funext c
  match c with
  | ⟨0, _⟩ => exact Fin.ext rfl
  | ⟨1, _⟩ => exact Fin.ext rfl
  | ⟨2, _⟩ => exact Fin.ext rfl

/-- A sum over the last axis, read at (m, h), is the sum over w of the entries (m, h, w). -/
theorem red_w (src : FVec Ideal S20x128x128 .f32) (hr : S20x128x128.Reduces [2] S20x128) (hφ : FKind.Formats .f32)
    (hacc : (0x00000000#32 : BitVec 32) = FKind.add.neutral .f32 hφ) (m : Fin 20) (h : Fin 128) :
    multiReduction (F := Ideal) .add [2] S20x128 src 0x00000000#32 hr hφ hacc (ix2 m h) = ∑ w : Fin 128, src (ix3 m h w) := by
  refine (Ideal.multiReduction_add_single src 0x00000000#32 hr hφ hacc (ix2 m h)).trans ?_
  exact Finset.sum_congr rfl fun w _ => congrArg src (lift2 hr m h w)

/-- A sum over the last axis of a [20,128] array, read at m, is the sum over h of the entries (m, h). -/
theorem red_h (src : FVec Ideal S20x128 .f32) (hr : S20x128.Reduces [1] S20) (hφ : FKind.Formats .f32)
    (hacc : (0x00000000#32 : BitVec 32) = FKind.add.neutral .f32 hφ) (m : Fin 20) :
    multiReduction (F := Ideal) .add [1] S20 src 0x00000000#32 hr hφ hacc (ix1 m) = ∑ h : Fin 128, src (ix2 m h) := by
  refine (Ideal.multiReduction_add_single src 0x00000000#32 hr hφ hacc (ix1 m)).trans ?_
  exact Finset.sum_congr rfl fun h _ => congrArg src (lift1 hr m h)

/-- The two nested sums, over w and then over h, read at m: the sum over the plane m. -/
theorem red_hw (src : FVec Ideal S20x128x128 .f32) (hr2 : S20x128x128.Reduces [2] S20x128) (hr1 : S20x128.Reduces [1] S20)
    (hφ : FKind.Formats .f32) (hacc : (0x00000000#32 : BitVec 32) = FKind.add.neutral .f32 hφ) (m : Fin 20) :
    multiReduction (F := Ideal) .add [1] S20 (multiReduction (F := Ideal) .add [2] S20x128 src 0x00000000#32 hr2 hφ hacc)
        0x00000000#32 hr1 hφ hacc (ix1 m)
      = ∑ h : Fin 128, ∑ w : Fin 128, src (ix3 m h w) := by
  refine (red_h _ hr1 hφ hacc m).trans ?_
  exact Finset.sum_congr rfl fun h _ => red_w src hr2 hφ hacc m h

/-! ## The three values -/

/-- The kernel's pointwise cross-entropy term is the specification's: its zero word is 0 and 0 - |x| = -|x|. -/
theorem bce_eq (x y : EReal) :
    max x (Ideal.ofBits .f32 0x00000000#32) - x * y
        + Ideal.log1p (Ideal.exp (Ideal.ofBits .f32 0x00000000#32 - max x (-x)))
      = Cert.Spec.bce x y := by
  rw [Ideal.ofBits_zero_f32, zero_sub]
  rfl

/-- The first value at entry m: the cross-entropy summed over the plane m. -/
theorem pay_bce (v180 : Vec Ideal S20x128x128 .f32) (v181 : Vec Ideal S1x1x20x128x128 .f32) (m : Fin 20) :
    k0_pay1 (F := Ideal) (k0_pay27 v180 v181) (ix4 (0 : Fin 1) (0 : Fin 1) (0 : Fin 1) m)
      = ∑ h : Fin 128, ∑ w : Fin 128, Cert.Spec.bce (v180 (ix3 m h w)) (v181 (ix5 (0 : Fin 1) (0 : Fin 1) m h w)) := by
  unfold k0_pay1
  refine (out_cast_apply _ _ _ m).trans ?_
  unfold k0_pay27
  refine (red_hw _ _ _ _ _ m).trans ?_
  refine Finset.sum_congr rfl fun h _ => Finset.sum_congr rfl fun w _ => ?_
  refine Eq.trans ?_ (bce_eq (v180 (ix3 m h w)) (v181 (ix5 (0 : Fin 1) (0 : Fin 1) m h w)))
  rw [← tgt_cast_apply v181 shapeCasts_S1x1x20x128x128_S20x128x128 m h w]
  rfl

/-- The second value at entry m: twice the sum over the plane m of sigmoid times target. -/
theorem pay_numer (v180 : Vec Ideal S20x128x128 .f32) (v181 : Vec Ideal S1x1x20x128x128 .f32) (m : Fin 20) :
    k0_pay2 (F := Ideal) (k0_pay29 v180 v181) (ix4 (0 : Fin 1) (0 : Fin 1) (0 : Fin 1) m)
      = Ideal.ofBits .f32 0x40000000#32
          * ∑ h : Fin 128, ∑ w : Fin 128, Cert.Spec.sig (v180 (ix3 m h w)) * v181 (ix5 (0 : Fin 1) (0 : Fin 1) m h w) := by
  unfold k0_pay2
  refine (out_cast_apply _ _ _ m).trans ?_
  unfold k0_pay29
  refine (mulf_apply _ _ (ix1 m)).trans ?_
  refine congrArg (fun z : EReal => Ideal.ofBits .f32 0x40000000#32 * z) ?_
  refine (red_hw _ _ _ _ _ m).trans ?_
  refine Finset.sum_congr rfl fun h _ => Finset.sum_congr rfl fun w _ => ?_
  rw [← tgt_cast_apply v181 shapeCasts_S1x1x20x128x128_S20x128x128 m h w]
  rfl

/-- The third value at entry m: the sigmoid's sum over the plane m, plus the target's, plus ε. -/
theorem pay_denom (v180 : Vec Ideal S20x128x128 .f32) (v181 : Vec Ideal S1x1x20x128x128 .f32) (m : Fin 20) :
    k0_pay3 (F := Ideal) (k0_pay26 v181) (k0_pay30 v180) (ix4 (0 : Fin 1) (0 : Fin 1) (0 : Fin 1) m)
      = (∑ h : Fin 128, ∑ w : Fin 128, Cert.Spec.sig (v180 (ix3 m h w)))
          + (∑ h : Fin 128, ∑ w : Fin 128, v181 (ix5 (0 : Fin 1) (0 : Fin 1) m h w)) + Cert.Spec.eps := by
  unfold k0_pay3
  refine (out_cast_apply _ _ _ m).trans ?_
  refine (addf_apply _ _ (ix1 m)).trans ?_
  refine congrArg₂ (fun a b : EReal => a + b) ?_ rfl
  refine (addf_apply _ _ (ix1 m)).trans ?_
  refine congrArg₂ (fun a b : EReal => a + b) ?_ ?_
  · unfold k0_pay30
    refine (red_hw _ _ _ _ _ m).trans ?_
    refine Finset.sum_congr rfl fun h _ => Finset.sum_congr rfl fun w _ => ?_
    rfl
  · refine (red_hw _ _ _ _ _ m).trans ?_
    refine Finset.sum_congr rfl fun h _ => Finset.sum_congr rfl fun w _ => ?_
    unfold k0_pay26
    exact tgt_cast_apply v181 _ m h w

end Cert.KernelIdeal.PayValue

end
-- ==== Proof.KI.PointValue.lean ====
/-
  The three values the kernel's body leaves in its output buffers at one grid point, read at an entry mm, at the ideal
  values, as functions of the two input blocks and the matching table.

  At grid coordinates i = (t, b) the body reads, for each target mm, the table's word π(t, b, mm), copies the plane of
  the prediction block that the word names into row mm of a stack of twenty planes, and then computes from the whole
  stack x and the whole target block y the three vectors of twenty numbers it stores. So, with n = π(t, b, mm) the
  plane's number (below 100),

    the first  output at mm is  ∑ h w, bce (P(0,0,n,h,w)) (G(0,0,mm,h,w)),
    the second             is  2 * ∑ h w, sig (P(0,0,n,h,w)) * G(0,0,mm,h,w),
    the third              is  ∑ h w, sig (P(0,0,n,h,w)) + ∑ h w, G(0,0,mm,h,w) + ε.

  The stack read back whole after the twenty row stores is one function of its index: its entry (mm, h, w) is the
  entry (h, w) of the plane stored in row mm.
-/
import proofs.«431483_j19456201851405_2_alg».proof.Proof.KI.Body
import proofs.«431483_j19456201851405_2_alg».proof.Proof.KI.PayValue
import proofs.«431483_j19456201851405_2_alg».proof.Proof.Spec

set_option maxRecDepth 16384

noncomputable section

namespace Cert.KernelIdeal.PointValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Idealize.ShloMosaic.ValueIdx

/-! ## One plane, from the prediction block to its row of the stack -/

/-- A [1,1,1,128,128] plane viewed as [128,128] and then as [1,128,128] reads, at (u, h, w), the plane's entry
    (0, 0, 0, h, w). -/
theorem plane_cast_apply {α : Type} (v : S1x1x1x128x128.Idx → α) (h1 : S1x1x1x128x128.ShapeCasts S128x128)
    (h2 : S128x128.ShapeCasts S1x128x128) (u : Fin 1) (h w : Fin 128) :
    shapeCast S1x128x128 (shapeCast S128x128 v h1) h2 (ix3 u h w)
      = v (ix5 (0 : Fin 1) (0 : Fin 1) (0 : Fin 1) h w) := by
  refine (shapeCast_ab_1ab_apply _ h2 u h w).trans ?_
  refine shapeCast_apply v h1 _ _ ?_
  rw [Shape.rowMajor_val_five, Shape.rowMajor_val_two]
  show ((((0 * 1 + 0) * 1 + 0) * 128 + h.val) * 128 + w.val) = h.val * 128 + w.val
  simp only [Nat.zero_mul, Nat.zero_add]

/-- A load of one plane of the prediction block, at plane number n, reads at (0, 0, 0, h, w) the block's entry
    (0, 0, n, h, w). -/
theorem load_plane_apply {F : FTy → Type} (arg3 : Memref sig .tc .vmem S1x1x100x128x128 .f32) (harg3 : arg3.IsWhole)
    (x0 : Vec F S1x1x100x128x128 .f32) (off : Fin 5 → Nat) (n : Fin 100) (hoff : off = ![0, 0, n.val, 0, 0])
    (inb : ∀ a, off a + S1x1x1x128x128.size a ≤ S1x1x100x128x128.size a) (h w : Fin 128) :
    View.readAt (Elt F) arg3.view (Rect.unit (s := S1x1x100x128x128) off S1x1x1x128x128.size inb).toLoadRect (harg3.unread x0)
        (ix5 (0 : Fin 1) (0 : Fin 1) (0 : Fin 1) h w)
      = x0 (ix5 (0 : Fin 1) (0 : Fin 1) n h w) := by
  subst hoff
  rw [View.readAt_apply, harg3.read_unread]
  refine congrArg x0 (funext fun a => Fin.ext ?_)
  match a with
  | ⟨0, _⟩ => rfl
  | ⟨1, _⟩ => rfl
  | ⟨2, _⟩ => show n.val + 1 * 0 = n.val; omega
  | ⟨3, _⟩ => show 0 + 1 * h.val = h.val; omega
  | ⟨4, _⟩ => show 0 + 1 * w.val = w.val; omega

/-- A read of one word of the matching table at offsets (t, b, m) is the table's entry (t, b, m). -/
theorem word_apply {F : FTy → Type} (c : Dev nD) (xt : TbBuf (F := F) c) (off : Fin 3 → Nat) (t : Fin 6) (b : Fin 2) (m : Fin 20)
    (hoff : off = ![t.val, b.val, m.val]) (inb : ∀ a, off a + S1x1x1.size a ≤ S6x2x20.size a)
    (y : (Rect.unit (s := S6x2x20) off S1x1x1.size inb).toLoadRect.shape.Idx) :
    View.readAt (Elt F) tbM.view (Rect.unit (s := S6x2x20) off S1x1x1.size inb).toLoadRect xt y = xt (ix3 t b m) := by
  subst hoff
  rw [View.readAt_apply]
  show xt _ = xt _
  refine congrArg xt (funext fun a => Fin.ext ?_)
  have hy : ∀ a, (y a).val = 0 := fun a => by
    have := (y a).isLt
    match a with
    | ⟨0, _⟩ => exact Nat.lt_one_iff.mp this
    | ⟨1, _⟩ => exact Nat.lt_one_iff.mp this
    | ⟨2, _⟩ => exact Nat.lt_one_iff.mp this
  match a with
  | ⟨0, _⟩ => show t.val + 1 * (y 0).val = t.val; rw [hy]; omega
  | ⟨1, _⟩ => show b.val + 1 * (y 1).val = b.val; rw [hy]; omega
  | ⟨2, _⟩ => show m.val + 1 * (y 2).val = m.val; rw [hy]; omega

/-! ## The stack of twenty matched planes -/

/-- The plane number the table names for target m at grid coordinates i, reduced modulo 100. -/
def planeAt {F : FTy → Type} (c : Dev nD) (i : grid0.Coords) (xt : TbBuf (F := F) c) (m : Fin 20) : Fin 100 :=
  ⟨(xt (ix3 (i 0) (i 1) m)).toNat % 100, Nat.mod_lt _ (by decide)⟩

/-- The stack as one function of its index: entry (m, h, w) is the entry (h, w) of the plane matched to target m. -/
def stackOf {F : FTy → Type} (c : Dev nD) (i : grid0.Coords) (x0 : Vec F S1x1x100x128x128 .f32) (xt : TbBuf (F := F) c) :
    Vec F S20x128x128 .f32 :=
  fun j => x0 (ix5 (0 : Fin 1) (0 : Fin 1) (planeAt c i xt (j 0)) (j 1) (j 2))

/-- One row store's payload is the stack's function under its rectangle: the store into row k of the plane loaded at
    the number the table's word for k names. -/
theorem piece_apply {F : FTy → Type} (c : Dev nD) (i : grid0.Coords) (arg3 : Memref sig .tc .vmem S1x1x100x128x128 .f32)
    (harg3 : arg3.IsWhole) (x0 : Vec F S1x1x100x128x128 .f32) (xt : TbBuf (F := F) c)
    (kn : Nat) (inbS : ∀ a, (![kn, 0, 0] : Fin 3 → Nat) a + S1x128x128.size a ≤ S20x128x128.size a)
    (x : (Rect.unit (s := S20x128x128) ![kn, 0, 0] S1x128x128.size inbS).shape.Idx)
    (offT : Fin 3 → Nat) (inbT : ∀ a, offT a + S1x1x1.size a ≤ S6x2x20.size a)
    (yT : (Rect.unit (s := S6x2x20) offT S1x1x1.size inbT).toLoadRect.shape.Idx)
    (wd : BitVec 32)
    (offP : Fin 5 → Nat) (inbP : ∀ a, offP a + S1x1x1x128x128.size a ≤ S1x1x100x128x128.size a)
    (h1 : S1x1x1x128x128.ShapeCasts S128x128) (h2 : S128x128.ShapeCasts S1x128x128)
    (hoffP : offP = ![0, 0, wd.toNat, 0, 0])
    (hwd : wd = View.readAt (Elt F) tbM.view (Rect.unit (s := S6x2x20) offT S1x1x1.size inbT).toLoadRect xt yT)
    (hlt : wd.toNat < 100)
    (hk : kn < 20)
    (hoffT : offT = ![(i 0).val, (i 1).val, kn]) :
    shapeCast S1x128x128 (shapeCast S128x128
        (View.readAt (Elt F) arg3.view (Rect.unit (s := S1x1x100x128x128) offP S1x1x1x128x128.size inbP).toLoadRect (harg3.unread x0)) h1) h2 x
      = stackOf c i x0 xt ((Rect.unit (s := S20x128x128) ![kn, 0, 0] S1x128x128.size inbS).emb x) := by
  have hw : wd = xt (ix3 (i 0) (i 1) (⟨kn, hk⟩ : Fin 20)) :=
    hwd.trans (word_apply c xt offT (i 0) (i 1) ⟨kn, hk⟩ hoffT inbT yT)
  have hx : x = ix3 (x 0) (x 1) (x 2) := eq_ix3 x
  have hx0 : (x 0).val = 0 := Nat.lt_one_iff.mp (x 0).isLt
  have he : (Rect.unit (s := S20x128x128) ![kn, 0, 0] S1x128x128.size inbS).emb x = ix3 (⟨kn, hk⟩ : Fin 20) (x 1) (x 2) := by
    funext a
    refine Fin.ext ?_
    match a with
    | ⟨0, _⟩ => show kn + 1 * (x 0).val = kn; rw [hx0]; omega
    | ⟨1, _⟩ => show 0 + 1 * (x 1).val = (x 1).val; omega
    | ⟨2, _⟩ => show 0 + 1 * (x 2).val = (x 2).val; omega
  rw [he]
  have hp : planeAt c i xt (⟨kn, hk⟩ : Fin 20) = ⟨wd.toNat, hlt⟩ :=
    Fin.ext (by show (xt (ix3 (i 0) (i 1) (⟨kn, hk⟩ : Fin 20))).toNat % 100 = wd.toNat; rw [← hw]; exact Nat.mod_eq_of_lt hlt)
  show _ = x0 (ix5 (0 : Fin 1) (0 : Fin 1) (planeAt c i xt (⟨kn, hk⟩ : Fin 20)) (x 1) (x 2))
  rw [hp, hx]
  refine (plane_cast_apply _ h1 h2 (x 0) (x 1) (x 2)).trans ?_
  exact load_plane_apply arg3 harg3 x0 offP ⟨wd.toNat, hlt⟩ hoffP inbP (x 1) (x 2)

/-- The whole stack read back after the twenty row stores is that one function. -/
theorem stack_eq {F : FTy → Type} [FloatOps F] (c : Dev nD) (i : grid0.Coords)
    (arg3 : Memref sig .tc .vmem S1x1x100x128x128 .f32) (harg3 : arg3.IsWhole)
    (x0 : Vec F S1x1x100x128x128 .f32) (xt : TbBuf (F := F) c)
    (hrd : ∀ (r : LoadRect S6x2x20) (y : r.shape.Idx), BitVec.toNat (tbM.view.readAt (Elt F) r xt y) < 100) :
    kernelRun0.sl.v180 c i arg3 harg3 x0 xt hrd = stackOf c i x0 xt := by
  unfold kernelRun0.sl.v180
  rw [View.readCov_eq_canon']
  funext j
  have hj : (Rect.unit (s := S20x128x128) ![0, 0, 0] S20x128x128.size inb_S20x128x128_S20x128x128_0_0_0).toLoadRect.idx j = j := by
    funext a
    refine Fin.ext ?_
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  show View.canon _ _ = _
  rw [hj]
  refine View.canon_apply_of_pieces (stackOf c i x0 xt) _ ?_ j
    (View.cover_of_tiledL (kernelRun0.sl.HS_20 c i arg3 harg3 x0 xt hrd) S1x128x128.size (by sl_kernel_rfl) j)
  unfold kernelRun0.sl.HS_20
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl
  all_goals
    apply piece_apply c i arg3 harg3 x0 xt _ _ x
    · exact rfl
    · exact rfl
    · exact hrd _ _
    · decide
    · first | exact k0_off1_eq i | exact k0_off3_eq i | exact k0_off5_eq i | exact k0_off7_eq i | exact k0_off9_eq i | exact k0_off11_eq i | exact k0_off13_eq i | exact k0_off15_eq i | exact k0_off17_eq i | exact k0_off19_eq i | exact k0_off21_eq i | exact k0_off23_eq i | exact k0_off25_eq i | exact k0_off27_eq i | exact k0_off29_eq i | exact k0_off31_eq i | exact k0_off33_eq i | exact k0_off35_eq i | exact k0_off37_eq i | exact k0_off39_eq i
    · decide

/-! ## The three outputs as the payloads of the stack and the target block -/

theorem hz4 : (![0, 0, 0, 0] : Fin 4 → Nat) = fun _ => 0 := by
  funext a; fin_cases a <;> rfl
theorem hz5 : (![0, 0, 0, 0, 0] : Fin 5 → Nat) = fun _ => 0 := by
  funext a; fin_cases a <;> rfl

/-- The first output buffer holds the first payload of the stack and the target block. -/
theorem out2_eq {F : FTy → Type} [FloatOps F] (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) :
    out2 (F := F) c i arg3 harg3 arg4 harg4 arg5 harg5 arg6 harg6 arg7 harg7 x0 x1 xt hrd = k0_pay1 (k0_pay27 (stackOf c i x0 xt) x1) := by
  unfold out2
  rw [View.read_writes_eq_canon _ _ _ (cover2 c i arg3 harg3 arg4 harg4 arg5 harg5 arg6 harg6 arg7 harg7 x0 x1 xt hrd)]
  unfold kernelRun0
  dsimp only
  rw [View.canon_unit_zero hz4]
  unfold kernelRun0.sl.r_23
  rw [stack_eq]
  simp only [View.readAt_eq_ld, harg4.read_unread, View.ld_unit_zero (S := S1x1x20x128x128) hz5]

/-- The second output buffer holds the second payload of the stack and the target block. -/
theorem out3_eq {F : FTy → Type} [FloatOps F] (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) :
    out3 (F := F) c i arg3 harg3 arg4 harg4 arg5 harg5 arg6 harg6 arg7 harg7 x0 x1 xt hrd = k0_pay2 (k0_pay29 (stackOf c i x0 xt) x1) := by
  unfold out3
  rw [View.read_writes_eq_canon _ _ _ (cover3 c i arg3 harg3 arg4 harg4 arg5 harg5 arg6 harg6 arg7 harg7 x0 x1 xt hrd)]
  unfold kernelRun0
  dsimp only
  rw [View.canon_unit_zero hz4]
  unfold kernelRun0.sl.r_24
  rw [stack_eq]
  simp only [View.readAt_eq_ld, harg4.read_unread, View.ld_unit_zero (S := S1x1x20x128x128) hz5]

/-- The third output buffer holds the third payload of the target block and the stack. -/
theorem out4_eq {F : FTy → Type} [FloatOps F] (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec F S1x1x100x128x128 .f32) (x1 : Vec F S1x1x20x128x128 .f32) (xt : TbBuf (F := F) c)
    (hrd : ∀ (r : LoadRect S6x2x20) (y : r.shape.Idx), BitVec.toNat (tbM.view.readAt (Elt F) r xt y) < 100) :
    out4 (F := F) c i arg3 harg3 arg4 harg4 arg5 harg5 arg6 harg6 arg7 harg7 x0 x1 xt hrd = k0_pay3 (k0_pay26 x1) (k0_pay30 (stackOf c i x0 xt)) := by
  unfold out4
  rw [View.read_writes_eq_canon _ _ _ (cover4 c i arg3 harg3 arg4 harg4 arg5 harg5 arg6 harg6 arg7 harg7 x0 x1 xt hrd)]
  unfold kernelRun0
  dsimp only
  rw [View.canon_unit_zero hz4]
  unfold kernelRun0.sl.r_22 kernelRun0.sl.r_25
  rw [stack_eq]
  simp only [View.readAt_eq_ld, harg4.read_unread, View.ld_unit_zero (S := S1x1x20x128x128) hz5]

/-! ## The three outputs at an entry -/

/-- The first output at entry mm: the cross-entropy of the matched plane against target mm, summed over the plane. -/
theorem out2_apply (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec Ideal S1x1x100x128x128 .f32) (x1 : Vec Ideal S1x1x20x128x128 .f32) (xt : TbBuf (F := Ideal) c)
    (hrd : ∀ (r : LoadRect S6x2x20) (y : r.shape.Idx), BitVec.toNat (tbM.view.readAt (Elt Ideal) r xt y) < 100) (mm : Fin 20) :
    out2 (F := Ideal) c i arg3 harg3 arg4 harg4 arg5 harg5 arg6 harg6 arg7 harg7 x0 x1 xt hrd (ix4 (0 : Fin 1) (0 : Fin 1) (0 : Fin 1) mm)
      = ∑ h : Fin 128, ∑ w : Fin 128, Cert.Spec.bce
          (x0 (ix5 (0 : Fin 1) (0 : Fin 1) (⟨(xt (ix3 (i 0) (i 1) mm)).toNat % 100, Nat.mod_lt _ (by decide)⟩ : Fin 100) h w))
          (x1 (ix5 (0 : Fin 1) (0 : Fin 1) mm h w)) := by
  rw [out2_eq]
  refine (PayValue.pay_bce (stackOf c i x0 xt) x1 mm).trans ?_
  rfl

/-- The second output at entry mm: twice the sum over the plane of the matched plane's sigmoid times target mm. -/
theorem out3_apply (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec Ideal S1x1x100x128x128 .f32) (x1 : Vec Ideal S1x1x20x128x128 .f32) (xt : TbBuf (F := Ideal) c)
    (hrd : ∀ (r : LoadRect S6x2x20) (y : r.shape.Idx), BitVec.toNat (tbM.view.readAt (Elt Ideal) r xt y) < 100) (mm : Fin 20) :
    out3 (F := Ideal) c i arg3 harg3 arg4 harg4 arg5 harg5 arg6 harg6 arg7 harg7 x0 x1 xt hrd (ix4 (0 : Fin 1) (0 : Fin 1) (0 : Fin 1) mm)
      = Ideal.ofBits .f32 0x40000000#32 * ∑ h : Fin 128, ∑ w : Fin 128,
          Cert.Spec.sig (x0 (ix5 (0 : Fin 1) (0 : Fin 1) (⟨(xt (ix3 (i 0) (i 1) mm)).toNat % 100, Nat.mod_lt _ (by decide)⟩ : Fin 100) h w))
            * x1 (ix5 (0 : Fin 1) (0 : Fin 1) mm h w) := by
  rw [out3_eq]
  refine (PayValue.pay_numer (stackOf c i x0 xt) x1 mm).trans ?_
  rfl

/-- The third output at entry mm: the matched plane's sigmoid summed over the plane, plus target mm's sum, plus ε. -/
theorem out4_apply (c : Dev nD) (i : grid0.Coords)
    (arg3 : Memref sig .tc .vmem S1x1x100x128x128 .f32) (harg3 : arg3.IsWhole) (arg4 : Memref sig .tc .vmem S1x1x20x128x128 .f32) (harg4 : arg4.IsWhole)
    (arg5 : Memref sig .tc .vmem S1x1x1x20 .f32) (harg5 : arg5.IsWhole) (arg6 : Memref sig .tc .vmem S1x1x1x20 .f32) (harg6 : arg6.IsWhole) (arg7 : Memref sig .tc .vmem S1x1x1x20 .f32) (harg7 : arg7.IsWhole)
    (x0 : Vec Ideal S1x1x100x128x128 .f32) (x1 : Vec Ideal S1x1x20x128x128 .f32) (xt : TbBuf (F := Ideal) c)
    (hrd : ∀ (r : LoadRect S6x2x20) (y : r.shape.Idx), BitVec.toNat (tbM.view.readAt (Elt Ideal) r xt y) < 100) (mm : Fin 20) :
    out4 (F := Ideal) c i arg3 harg3 arg4 harg4 arg5 harg5 arg6 harg6 arg7 harg7 x0 x1 xt hrd (ix4 (0 : Fin 1) (0 : Fin 1) (0 : Fin 1) mm)
      = (∑ h : Fin 128, ∑ w : Fin 128, Cert.Spec.sig (x0 (ix5 (0 : Fin 1) (0 : Fin 1) (⟨(xt (ix3 (i 0) (i 1) mm)).toNat % 100, Nat.mod_lt _ (by decide)⟩ : Fin 100) h w)))
          + (∑ h : Fin 128, ∑ w : Fin 128, x1 (ix5 (0 : Fin 1) (0 : Fin 1) mm h w)) + Cert.Spec.eps := by
  rw [out4_eq]
  refine (PayValue.pay_denom (stackOf c i x0 xt) x1 mm).trans ?_
  rfl

end Cert.KernelIdeal.PointValue

end
-- ==== Proof.KI.ArrValue.lean ====
/-
  The three output arrays after the kernel region, read at an entry, as the specification's functions of the
  argument arrays.

  The grid has twelve points, point t * 2 + b for frame t below 6 and batch b below 2. At point (t, b) the first input
  window holds the hundred prediction planes P(b, t, ·, ·, ·), the second the twenty target planes G(b, t, ·, ·, ·), and
  each of the three output windows writes its vector of twenty numbers back to row (t, b, 0, ·) of its 6 x 2 x 1 x 20
  array. The twelve rows tile each array, so the array after the region read at (t, b, 0, m) is what point (t, b) wrote
  at entry m: the pixel sums over the matched plane P(b, t, π(t, b, m), ·, ·) against the target plane G(b, t, m, ·, ·).
-/
import proofs.«431483_j19456201851405_2_alg».proof.Proof.KI.Body
import proofs.«431483_j19456201851405_2_alg».proof.Proof.KI.PointValue
import proofs.«431483_j19456201851405_2_alg».proof.Proof.Spec
import Idealize.ShloMosaic.Lib.Pipeline.Value
import Idealize.ShloMosaic.Lib.ValueIdx

set_option maxRecDepth 16384

noncomputable section

namespace Cert.KernelIdeal.ArrValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Idealize.ShloMosaic.ValueIdx

variable (V : (c : Dev nD) → (b : Ref sig .tc) → Buf (Elt Ideal) ((c : Thread nD τ).loc b)) (hH : Hyps V)

/-! ## The index maps over the grid, and the schedule -/

/-- The index maps as functions of the grid coordinates (frame, batch): the inputs' blocks are indexed (batch, frame), the
    outputs' rows (frame, batch). -/
theorem map0 : ∀ i : grid0.Coords, cc0_transform_0 i = ![(i 1).val, (i 0).val, 0, 0, 0] := by decide +kernel
theorem map1 : ∀ i : grid0.Coords, cc0_transform_1 i = ![(i 1).val, (i 0).val, 0, 0, 0] := by decide +kernel
theorem map2 : ∀ i : grid0.Coords, cc0_transform_2 i = ![(i 0).val, (i 1).val, 0, 0] := by decide +kernel
theorem map3 : ∀ i : grid0.Coords, cc0_transform_3 i = ![(i 0).val, (i 1).val, 0, 0] := by decide +kernel
theorem map4 : ∀ i : grid0.Coords, cc0_transform_4 i = ![(i 0).val, (i 1).val, 0, 0] := by decide +kernel

/-- Every (frame, batch) is some grid point's coordinates (the point frame * 2 + batch). -/
theorem onto : ∀ (t : Fin 6) (b : Fin 2), ∃ p : Fin grid0.N, (grid0.coords p 0).val = t.val ∧ (grid0.coords p 1).val = b.val := by decide +kernel

/-- Every grid point writes each output's row back: the row (frame, batch) changes at every step. -/
theorem flushes2 : ∀ p : Fin grid0.N, Pipeline.Window.flushOf grid0 true cc0_transform_2 p = true := by decide +kernel
theorem flushes3 : ∀ p : Fin grid0.N, Pipeline.Window.flushOf grid0 true cc0_transform_3 p = true := by decide +kernel
theorem flushes4 : ∀ p : Fin grid0.N, Pipeline.Window.flushOf grid0 true cc0_transform_4 p = true := by decide +kernel

/-- The frame and the batch of a grid point. -/
abbrev fr (p : Fin grid0.N) : Fin 6 := grid0.coords p 0
abbrev ba (p : Fin grid0.N) : Fin 2 := grid0.coords p 1

/-! ## The common part: the target array, the rows' places, the input blocks -/

/-- An array of the outputs' shape from a function of (frame, batch, target). -/
abbrev T (f : Fin 6 → Fin 2 → Fin 20 → EReal) : S6x2x1x20.Idx → EReal := fun i => f (i 0) (i 1) (i 3)

/-- An entry of a block of twenty numbers is its entry at (0, 0, 0, target). -/
theorem idx20 (j : S1x1x1x20.Idx) : j = ix4 (0 : Fin 1) (0 : Fin 1) (0 : Fin 1) (j 3) := by
  funext a
  match a with
  | ⟨0, _⟩ => exact Fin.ext (by have h1 : (j 0).val < 1 := (j 0).isLt; show (j 0).val = 0; omega)
  | ⟨1, _⟩ => exact Fin.ext (by have h1 : (j 1).val < 1 := (j 1).isLt; show (j 1).val = 0; omega)
  | ⟨2, _⟩ => exact Fin.ext (by have h1 : (j 2).val < 1 := (j 2).isLt; show (j 2).val = 0; omega)
  | ⟨3, _⟩ => rfl

/-- An index of an output array that sits, on each axis, at block index times block size plus the coordinate inside the
    block, for the block index (frame, batch, 0, 0) of point p, is (frame, batch, 0, target). -/
theorem row_at (f : Fin 4 → Nat) (p : Fin grid0.N) (hf : f = ![(grid0.coords p 0).val, (grid0.coords p 1).val, 0, 0])
    (j : S1x1x1x20.Idx) (k : S6x2x1x20.Idx) (hk : ∀ a : Fin 4, (k a).val = f a * S1x1x1x20.size a + 1 * (j a).val) :
    k = ix4 (fr p) (ba p) (0 : Fin 1) (j 3) := by
  subst hf
  have h0 : (j 0).val < 1 := (j 0).isLt
  have h1 : (j 1).val < 1 := (j 1).isLt
  have h2 : (j 2).val < 1 := (j 2).isLt
  funext a
  apply Fin.ext
  match a with
  | ⟨0, _⟩ => have := hk 0; show (k 0).val = (grid0.coords p 0).val; simp at this; omega
  | ⟨1, _⟩ => have := hk 1; show (k 1).val = (grid0.coords p 1).val; simp at this; omega
  | ⟨2, _⟩ => have := hk 2; show (k 2).val = 0; simp at this; omega
  | ⟨3, _⟩ => have := hk 3; show (k 3).val = (j 3).val; simp at this; omega

/-- An index of an output array whose frame and batch are point p's is (frame, batch, 0, target). -/
theorem row_of (i : S6x2x1x20.Idx) (p : Fin grid0.N) (hp0 : (grid0.coords p 0).val = (i 0).val) (hp1 : (grid0.coords p 1).val = (i 1).val) :
    i = ix4 (fr p) (ba p) (0 : Fin 1) (i 3) := by
  funext a
  apply Fin.ext
  match a with
  | ⟨0, _⟩ => exact hp0.symm
  | ⟨1, _⟩ => exact hp1.symm
  | ⟨2, _⟩ => have h2 : (i 2).val < 1 := (i 2).isLt; show (i 2).val = 0; omega
  | ⟨3, _⟩ => rfl

/-- The prediction block at a point, read at (plane, pixel): the array at (batch, frame, plane, pixel). -/
theorem rd0 (c : Dev nD) (p : Fin (cfgM V).N) (n : Fin 100) (h w : Fin 128) :
    (iblk V c 0 p : Vec Ideal S1x1x100x128x128 .f32) (ix5 (0 : Fin 1) (0 : Fin 1) n h w)
      = (V c main_arg0 : S2x6x100x128x128.Idx → EReal) (ix5 (ba p) (fr p) n h w) := by
  show V c main_arg0 ((((cfgM V).win 0).blk p).view.emb (ix5 (0 : Fin 1) (0 : Fin 1) n h w)) = V c main_arg0 (ix5 (ba p) (fr p) n h w)
  congr 1
  funext a
  apply Fin.ext
  have e := map0 (grid0.coords p)
  match a with
  | ⟨0, _⟩ => show cc0_transform_0 (grid0.coords p) 0 * 1 + 1 * 0 = (grid0.coords p 1).val; rw [e]; simp
  | ⟨1, _⟩ => show cc0_transform_0 (grid0.coords p) 1 * 1 + 1 * 0 = (grid0.coords p 0).val; rw [e]; simp
  | ⟨2, _⟩ => show cc0_transform_0 (grid0.coords p) 2 * 100 + 1 * n.val = n.val; rw [e]; simp
  | ⟨3, _⟩ => show cc0_transform_0 (grid0.coords p) 3 * 128 + 1 * h.val = h.val; rw [e]; simp
  | ⟨4, _⟩ => show cc0_transform_0 (grid0.coords p) 4 * 128 + 1 * w.val = w.val; rw [e]; simp

/-- The target block at a point, read at (target, pixel): the array at (batch, frame, target, pixel). -/
theorem rd1 (c : Dev nD) (p : Fin (cfgM V).N) (m : Fin 20) (h w : Fin 128) :
    (iblk V c 1 p : Vec Ideal S1x1x20x128x128 .f32) (ix5 (0 : Fin 1) (0 : Fin 1) m h w)
      = (V c main_arg2 : S2x6x20x128x128.Idx → EReal) (ix5 (ba p) (fr p) m h w) := by
  show V c main_arg2 ((((cfgM V).win 1).blk p).view.emb (ix5 (0 : Fin 1) (0 : Fin 1) m h w)) = V c main_arg2 (ix5 (ba p) (fr p) m h w)
  congr 1
  funext a
  apply Fin.ext
  have e := map1 (grid0.coords p)
  match a with
  | ⟨0, _⟩ => show cc0_transform_1 (grid0.coords p) 0 * 1 + 1 * 0 = (grid0.coords p 1).val; rw [e]; simp
  | ⟨1, _⟩ => show cc0_transform_1 (grid0.coords p) 1 * 1 + 1 * 0 = (grid0.coords p 0).val; rw [e]; simp
  | ⟨2, _⟩ => show cc0_transform_1 (grid0.coords p) 2 * 20 + 1 * m.val = m.val; rw [e]; simp
  | ⟨3, _⟩ => show cc0_transform_1 (grid0.coords p) 3 * 128 + 1 * h.val = h.val; rw [e]; simp
  | ⟨4, _⟩ => show cc0_transform_1 (grid0.coords p) 4 * 128 + 1 * w.val = w.val; rw [e]; simp

/-- The plane the body's word names at a point is the plane the matching names at the point's (frame, batch): the table
    the body reads is the fourth argument, the same on the one device. -/
theorem plane_eq (c : Dev nD) (p : Fin (cfgM V).N) (mm : Fin 20) :
    (⟨((tbl V 0 : S6x2x20.Idx → BitVec 32) (ix3 (grid0.coords p 0) (grid0.coords p 1) mm)).toNat % 100, Nat.mod_lt _ (by decide)⟩ : Fin 100)
      = Cert.Spec.planeOf (V c main_arg3) (fr p) (ba p) mm := by
  rw [← V_pre V c 0]
  rfl

/-! ## The first output: the cross-entropy sums -/

/-- The cross-entropy sum over blocks that are the arrays' blocks at (frame, batch). -/
theorem sum2 (x0 : Vec Ideal S1x1x100x128x128 .f32) (x1 : Vec Ideal S1x1x20x128x128 .f32)
    (P : Cert.Spec.SP.Idx → EReal) (G : Cert.Spec.SG.Idx → EReal) (π : Cert.Spec.SM.Idx → BitVec 32)
    (t : Fin 6) (b : Fin 2) (mm : Fin 20) (N : Fin 100) (hN : N = Cert.Spec.planeOf π t b mm)
    (h0 : ∀ n h w, x0 (ix5 (0 : Fin 1) (0 : Fin 1) n h w) = P (ix5 b t n h w))
    (h1 : ∀ m h w, x1 (ix5 (0 : Fin 1) (0 : Fin 1) m h w) = G (ix5 b t m h w)) :
    ∑ h : Fin 128, ∑ w : Fin 128, Cert.Spec.bce (x0 (ix5 (0 : Fin 1) (0 : Fin 1) N h w)) (x1 (ix5 (0 : Fin 1) (0 : Fin 1) mm h w))
      = Cert.Spec.bceSum P G π t b mm := by
  subst hN
  unfold Cert.Spec.bceSum Cert.Spec.src Cert.Spec.tgt
  exact Finset.sum_congr rfl fun h _ => Finset.sum_congr rfl fun w _ => by rw [h0, h1]

/-- What point p leaves in the first output's buffer, at an entry. -/
theorem pt2 (c : Dev nD) (p : Fin (cfgM V).N) (j : S1x1x1x20.Idx) :
    (out2At V hH c p : S1x1x1x20.Idx → EReal) j
      = Cert.Spec.bceSum (V c main_arg0) (V c main_arg2) (V c main_arg3) (fr p) (ba p) (j 3) := by
  rw [idx20 j]
  unfold out2At
  exact (Cert.KernelIdeal.PointValue.out2_apply c (grid0.coords p) (ms0 V p) (hs0 V p) (ms1 V p) (hs1 V p) (ms2 V p) (hs2 V p) (ms3 V p) (hs3 V p) (ms4 V p) (hs4 V p) (iblk V c 0 p) (iblk V c 1 p) (tbl V 0) (hH c) (j 3)).trans
    (sum2 (iblk V c 0 p) (iblk V c 1 p) (V c main_arg0) (V c main_arg2) (V c main_arg3) (fr p) (ba p) (j 3) _ (plane_eq V c p (j 3)) (rd0 V c p) (rd1 V c p))

/-- Where point p's row of the first output sits in its array. -/
theorem emb2 (p : Fin (cfgM V).N) (j : S1x1x1x20.Idx) :
    ((((cfgM V).win 2).blk p).view.emb j : S6x2x1x20.Idx) = ix4 (fr p) (ba p) (0 : Fin 1) (j 3) :=
  row_at (cc0_transform_2 (grid0.coords p)) p (map2 (grid0.coords p)) j _ (fun _ => rfl)

/-- What point p writes back to the first output is its row of the array of cross-entropy sums. -/
theorem flushed2_eq (c : Dev nD) (p : Fin (cfgM V).N) :
    (dat0 V hH c).flushed 2 p = (((cfgM V).win 2).blk p).view.read (Elt Ideal) (T (Cert.Spec.bceSum (V c main_arg0) (V c main_arg2) (V c main_arg3))) := by
  show ((cfgM V).win 2).cut ((cfgM V).grid.coords p) ((dat0 V hH c).after 2 p) = _
  rw [after0_2]
  funext j
  show (out2At V hH c p : S1x1x1x20.Idx → EReal) j = T (Cert.Spec.bceSum (V c main_arg0) (V c main_arg2) (V c main_arg3)) ((((cfgM V).win 2).blk p).view.emb j)
  rw [emb2 V p j]
  exact pt2 V hH c p j

/-- The twelve rows tile the first output's array: entry (t, b, 0, m) lies in the row of the point with frame t and batch b. -/
theorem cover2 (i : S6x2x1x20.Idx) : ∃ p : Fin (cfgM V).N, ((cfgM V).win 2).flush p = true ∧ i ∈ (((cfgM V).win 2).blk p).view.set := by
  obtain ⟨p, hp0, hp1⟩ := onto (i 0) (i 1)
  refine ⟨p, flushes2 p, ?_⟩
  have hi : i = (((cfgM V).win 2).blk p).view.emb (ix4 (0 : Fin 1) (0 : Fin 1) (0 : Fin 1) (i 3)) :=
    (row_of i p hp0 hp1).trans (emb2 V p (ix4 (0 : Fin 1) (0 : Fin 1) (0 : Fin 1) (i 3))).symm
  rw [hi]
  exact (((cfgM V).win 2).blk p).view.emb_mem_set _

/-- The first output's array after the region is the array of cross-entropy sums. -/
theorem final2 (c : Dev nD) : (dat0 V hH c).arrAt 2 (cfgM V).N = T (Cert.Spec.bceSum (V c main_arg0) (V c main_arg2) (V c main_arg3)) :=
  (dat0 V hH c).arrAt_eq_of_cover 2 (T (Cert.Spec.bceSum (V c main_arg0) (V c main_arg2) (V c main_arg3))) (fun p _ => flushed2_eq V hH c p) (cover2 V)

theorem arr2 (c : Dev nD) (t : Fin 6) (b : Fin 2) (mm : Fin 20) :
    (dat0 V hH c).arrAt 2 (cfgM V).N (ix4 t b (0 : Fin 1) mm) = Cert.Spec.bceSum (V c main_arg0) (V c main_arg2) (V c main_arg3) t b mm := by
  rw [final2 V hH c]

/-! ## The second output: the dice numerators -/

/-- The dice numerator over blocks that are the arrays' blocks at (frame, batch). -/
theorem sum3 (x0 : Vec Ideal S1x1x100x128x128 .f32) (x1 : Vec Ideal S1x1x20x128x128 .f32)
    (P : Cert.Spec.SP.Idx → EReal) (G : Cert.Spec.SG.Idx → EReal) (π : Cert.Spec.SM.Idx → BitVec 32)
    (t : Fin 6) (b : Fin 2) (mm : Fin 20) (N : Fin 100) (hN : N = Cert.Spec.planeOf π t b mm)
    (h0 : ∀ n h w, x0 (ix5 (0 : Fin 1) (0 : Fin 1) n h w) = P (ix5 b t n h w))
    (h1 : ∀ m h w, x1 (ix5 (0 : Fin 1) (0 : Fin 1) m h w) = G (ix5 b t m h w)) :
    Ideal.ofBits .f32 0x40000000#32 * ∑ h : Fin 128, ∑ w : Fin 128, Cert.Spec.sig (x0 (ix5 (0 : Fin 1) (0 : Fin 1) N h w)) * x1 (ix5 (0 : Fin 1) (0 : Fin 1) mm h w)
      = Cert.Spec.numer P G π t b mm := by
  subst hN
  unfold Cert.Spec.numer Cert.Spec.prodSum Cert.Spec.src Cert.Spec.tgt
  exact congrArg (Ideal.ofBits .f32 0x40000000#32 * ·) (Finset.sum_congr rfl fun h _ => Finset.sum_congr rfl fun w _ => by rw [h0, h1])

/-- What point p leaves in the second output's buffer, at an entry. -/
theorem pt3 (c : Dev nD) (p : Fin (cfgM V).N) (j : S1x1x1x20.Idx) :
    (out3At V hH c p : S1x1x1x20.Idx → EReal) j
      = Cert.Spec.numer (V c main_arg0) (V c main_arg2) (V c main_arg3) (fr p) (ba p) (j 3) := by
  rw [idx20 j]
  unfold out3At
  exact (Cert.KernelIdeal.PointValue.out3_apply c (grid0.coords p) (ms0 V p) (hs0 V p) (ms1 V p) (hs1 V p) (ms2 V p) (hs2 V p) (ms3 V p) (hs3 V p) (ms4 V p) (hs4 V p) (iblk V c 0 p) (iblk V c 1 p) (tbl V 0) (hH c) (j 3)).trans
    (sum3 (iblk V c 0 p) (iblk V c 1 p) (V c main_arg0) (V c main_arg2) (V c main_arg3) (fr p) (ba p) (j 3) _ (plane_eq V c p (j 3)) (rd0 V c p) (rd1 V c p))

/-- Where point p's row of the second output sits in its array. -/
theorem emb3 (p : Fin (cfgM V).N) (j : S1x1x1x20.Idx) :
    ((((cfgM V).win 3).blk p).view.emb j : S6x2x1x20.Idx) = ix4 (fr p) (ba p) (0 : Fin 1) (j 3) :=
  row_at (cc0_transform_3 (grid0.coords p)) p (map3 (grid0.coords p)) j _ (fun _ => rfl)

/-- What point p writes back to the second output is its row of the array of dice numerators. -/
theorem flushed3_eq (c : Dev nD) (p : Fin (cfgM V).N) :
    (dat0 V hH c).flushed 3 p = (((cfgM V).win 3).blk p).view.read (Elt Ideal) (T (Cert.Spec.numer (V c main_arg0) (V c main_arg2) (V c main_arg3))) := by
  show ((cfgM V).win 3).cut ((cfgM V).grid.coords p) ((dat0 V hH c).after 3 p) = _
  rw [after0_3]
  funext j
  show (out3At V hH c p : S1x1x1x20.Idx → EReal) j = T (Cert.Spec.numer (V c main_arg0) (V c main_arg2) (V c main_arg3)) ((((cfgM V).win 3).blk p).view.emb j)
  rw [emb3 V p j]
  exact pt3 V hH c p j

/-- The twelve rows tile the second output's array. -/
theorem cover3 (i : S6x2x1x20.Idx) : ∃ p : Fin (cfgM V).N, ((cfgM V).win 3).flush p = true ∧ i ∈ (((cfgM V).win 3).blk p).view.set := by
  obtain ⟨p, hp0, hp1⟩ := onto (i 0) (i 1)
  refine ⟨p, flushes3 p, ?_⟩
  have hi : i = (((cfgM V).win 3).blk p).view.emb (ix4 (0 : Fin 1) (0 : Fin 1) (0 : Fin 1) (i 3)) :=
    (row_of i p hp0 hp1).trans (emb3 V p (ix4 (0 : Fin 1) (0 : Fin 1) (0 : Fin 1) (i 3))).symm
  rw [hi]
  exact (((cfgM V).win 3).blk p).view.emb_mem_set _

/-- The second output's array after the region is the array of dice numerators. -/
theorem final3 (c : Dev nD) : (dat0 V hH c).arrAt 3 (cfgM V).N = T (Cert.Spec.numer (V c main_arg0) (V c main_arg2) (V c main_arg3)) :=
  (dat0 V hH c).arrAt_eq_of_cover 3 (T (Cert.Spec.numer (V c main_arg0) (V c main_arg2) (V c main_arg3))) (fun p _ => flushed3_eq V hH c p) (cover3 V)

theorem arr3 (c : Dev nD) (t : Fin 6) (b : Fin 2) (mm : Fin 20) :
    (dat0 V hH c).arrAt 3 (cfgM V).N (ix4 t b (0 : Fin 1) mm) = Cert.Spec.numer (V c main_arg0) (V c main_arg2) (V c main_arg3) t b mm := by
  rw [final3 V hH c]

/-! ## The third output: the dice denominators -/

/-- The dice denominator over blocks that are the arrays' blocks at (frame, batch). -/
theorem sum4 (x0 : Vec Ideal S1x1x100x128x128 .f32) (x1 : Vec Ideal S1x1x20x128x128 .f32)
    (P : Cert.Spec.SP.Idx → EReal) (G : Cert.Spec.SG.Idx → EReal) (π : Cert.Spec.SM.Idx → BitVec 32)
    (t : Fin 6) (b : Fin 2) (mm : Fin 20) (N : Fin 100) (hN : N = Cert.Spec.planeOf π t b mm)
    (h0 : ∀ n h w, x0 (ix5 (0 : Fin 1) (0 : Fin 1) n h w) = P (ix5 b t n h w))
    (h1 : ∀ m h w, x1 (ix5 (0 : Fin 1) (0 : Fin 1) m h w) = G (ix5 b t m h w)) :
    (∑ h : Fin 128, ∑ w : Fin 128, Cert.Spec.sig (x0 (ix5 (0 : Fin 1) (0 : Fin 1) N h w)))
        + (∑ h : Fin 128, ∑ w : Fin 128, x1 (ix5 (0 : Fin 1) (0 : Fin 1) mm h w)) + Cert.Spec.eps
      = Cert.Spec.denom P G π t b mm := by
  subst hN
  unfold Cert.Spec.denom Cert.Spec.sigSum Cert.Spec.tgtSum Cert.Spec.src Cert.Spec.tgt
  have e0 : (∑ h : Fin 128, ∑ w : Fin 128, Cert.Spec.sig (x0 (ix5 (0 : Fin 1) (0 : Fin 1) (Cert.Spec.planeOf π t b mm) h w)))
      = ∑ h : Fin 128, ∑ w : Fin 128, Cert.Spec.sig (P (ix5 b t (Cert.Spec.planeOf π t b mm) h w)) :=
    Finset.sum_congr rfl fun h _ => Finset.sum_congr rfl fun w _ => by rw [h0]
  have e1 : (∑ h : Fin 128, ∑ w : Fin 128, x1 (ix5 (0 : Fin 1) (0 : Fin 1) mm h w)) = ∑ h : Fin 128, ∑ w : Fin 128, G (ix5 b t mm h w) :=
    Finset.sum_congr rfl fun h _ => Finset.sum_congr rfl fun w _ => by rw [h1]
  rw [e0, e1]

/-- What point p leaves in the third output's buffer, at an entry. -/
theorem pt4 (c : Dev nD) (p : Fin (cfgM V).N) (j : S1x1x1x20.Idx) :
    (out4At V hH c p : S1x1x1x20.Idx → EReal) j
      = Cert.Spec.denom (V c main_arg0) (V c main_arg2) (V c main_arg3) (fr p) (ba p) (j 3) := by
  rw [idx20 j]
  unfold out4At
  exact (Cert.KernelIdeal.PointValue.out4_apply c (grid0.coords p) (ms0 V p) (hs0 V p) (ms1 V p) (hs1 V p) (ms2 V p) (hs2 V p) (ms3 V p) (hs3 V p) (ms4 V p) (hs4 V p) (iblk V c 0 p) (iblk V c 1 p) (tbl V 0) (hH c) (j 3)).trans
    (sum4 (iblk V c 0 p) (iblk V c 1 p) (V c main_arg0) (V c main_arg2) (V c main_arg3) (fr p) (ba p) (j 3) _ (plane_eq V c p (j 3)) (rd0 V c p) (rd1 V c p))

/-- Where point p's row of the third output sits in its array. -/
theorem emb4 (p : Fin (cfgM V).N) (j : S1x1x1x20.Idx) :
    ((((cfgM V).win 4).blk p).view.emb j : S6x2x1x20.Idx) = ix4 (fr p) (ba p) (0 : Fin 1) (j 3) :=
  row_at (cc0_transform_4 (grid0.coords p)) p (map4 (grid0.coords p)) j _ (fun _ => rfl)

/-- What point p writes back to the third output is its row of the array of dice denominators. -/
theorem flushed4_eq (c : Dev nD) (p : Fin (cfgM V).N) :
    (dat0 V hH c).flushed 4 p = (((cfgM V).win 4).blk p).view.read (Elt Ideal) (T (Cert.Spec.denom (V c main_arg0) (V c main_arg2) (V c main_arg3))) := by
  show ((cfgM V).win 4).cut ((cfgM V).grid.coords p) ((dat0 V hH c).after 4 p) = _
  rw [after0_4]
  funext j
  show (out4At V hH c p : S1x1x1x20.Idx → EReal) j = T (Cert.Spec.denom (V c main_arg0) (V c main_arg2) (V c main_arg3)) ((((cfgM V).win 4).blk p).view.emb j)
  rw [emb4 V p j]
  exact pt4 V hH c p j

/-- The twelve rows tile the third output's array. -/
theorem cover4 (i : S6x2x1x20.Idx) : ∃ p : Fin (cfgM V).N, ((cfgM V).win 4).flush p = true ∧ i ∈ (((cfgM V).win 4).blk p).view.set := by
  obtain ⟨p, hp0, hp1⟩ := onto (i 0) (i 1)
  refine ⟨p, flushes4 p, ?_⟩
  have hi : i = (((cfgM V).win 4).blk p).view.emb (ix4 (0 : Fin 1) (0 : Fin 1) (0 : Fin 1) (i 3)) :=
    (row_of i p hp0 hp1).trans (emb4 V p (ix4 (0 : Fin 1) (0 : Fin 1) (0 : Fin 1) (i 3))).symm
  rw [hi]
  exact (((cfgM V).win 4).blk p).view.emb_mem_set _

/-- The third output's array after the region is the array of dice denominators. -/
theorem final4 (c : Dev nD) : (dat0 V hH c).arrAt 4 (cfgM V).N = T (Cert.Spec.denom (V c main_arg0) (V c main_arg2) (V c main_arg3)) :=
  (dat0 V hH c).arrAt_eq_of_cover 4 (T (Cert.Spec.denom (V c main_arg0) (V c main_arg2) (V c main_arg3))) (fun p _ => flushed4_eq V hH c p) (cover4 V)

theorem arr4 (c : Dev nD) (t : Fin 6) (b : Fin 2) (mm : Fin 20) :
    (dat0 V hH c).arrAt 4 (cfgM V).N (ix4 t b (0 : Fin 1) mm) = Cert.Spec.denom (V c main_arg0) (V c main_arg2) (V c main_arg3) t b mm := by
  rw [final4 V hH c]

end Cert.KernelIdeal.ArrValue

end
-- ==== Proof.TailK.lean ====
/-
  The kernel program's host operations after its region, read back.

  After the region the program applies 150 host operations, in 13 stretches, to the buffer contents at the region's
  exit. This file names what they leave: the two mask losses as sums over (t, b, m) of the region's three output
  arrays, the two embedding losses as functions of the embeddings and the matching only, and the total as the
  weighted sum of the four. Each stretch is read by itself: the buffer it writes, in terms of the contents before it.
-/
import proofs.«431483_j19456201851405_2_alg».proof.Proof.KI.TailArgs
import proofs.«431483_j19456201851405_2_alg».proof.Proof.Spec
import Idealize.ShloMosaic.Lib.StableHlo.Run
import Idealize.ShloMosaic.Lib.IdealHost
import Idealize.ShloMosaic.Lib.Pipeline.Value
import Idealize.ShloMosaic.PureOps.Ideal.Laws

noncomputable section

namespace Cert.KernelIdeal.Tail

open Idealize.ShloMosaic Idealize.ShloMosaic.ValueIdx Idealize.ShloMosaic.TcCoe Idealize.SL.Sem
open Cert.KernelIdeal Cert.KernelIdeal.Gen

variable {F : FTy → Type} [FloatOps F]

/-! ## The embedding losses as functions of the embeddings and the matching -/

/-- Row norms: the square root of the sum over the last axis of the squares, kept with a trailing unit axis. -/
def rowNorm (x : (⟨S6x2x100x256, .f32⟩ : BufTy).Contents (Elt F)) : (⟨S6x2x100x1, .f32⟩ : BufTy).Contents (Elt F) :=
  Host.sqrt (broadcastInDim S6x2x100x1 ![0, 1, 2] bcast_S6x2x100_S6x2x100x1_0_1_2
    (Host.reduceAdd (mulf x x) (constant S_ .f32 0x00000000#32) reducesTo_S6x2x100x256_S6x2x100_d3 h_S_))

/-- The norms bounded below by the small constant 0x2B8CBCCC. -/
def clipNorm (v : (⟨S6x2x100x1, .f32⟩ : BufTy).Contents (Elt F)) : (⟨S6x2x100x1, .f32⟩ : BufTy).Contents (Elt F) :=
  maximumf (broadcastInDim S6x2x100x1 ![] bcast_S_S6x2x100x1 (id (constant S_ .f32 0x2B8CBCCC#32))) v

/-- Each row divided by its bounded norm. -/
def normalise (x : (⟨S6x2x100x256, .f32⟩ : BufTy).Contents (Elt F)) : (⟨S6x2x100x256, .f32⟩ : BufTy).Contents (Elt F) :=
  Host.divf x (broadcastInDim S6x2x100x256 ![0, 1, 2, 3] bcast_S6x2x100x1_S6x2x100x256_0_1_2_3 (clipNorm (rowNorm x)))

/-- An index below zero is moved up by the axis length 100. -/
def wrapIdx (i : (⟨S6x2x20x1, .i32⟩ : BufTy).Contents (Elt F)) : (⟨S6x2x20x1, .i32⟩ : BufTy).Contents (Elt F) :=
  select (cmpi .slt i (broadcastInDim S6x2x20x1 ![] bcast_S_S6x2x20x1 (constantI S_ 32 0#32)))
    (addi i (broadcastInDim S6x2x20x1 ![] bcast_S_S6x2x20x1 (constantI S_ 32 100#32))) i

/-- Whether the moved index lies in 0 .. 99. -/
def inRange (j : (⟨S6x2x20x1, .i32⟩ : BufTy).Contents (Elt F)) : (⟨S6x2x20, .i1⟩ : BufTy).Contents (Elt F) :=
  Host.reduce IntOp.andi
    (andi (cmpi .sge j (broadcastInDim S6x2x20x1 ![] bcast_S_S6x2x20x1 (constantI S_ 32 0#32)))
      (cmpi .sle j (broadcastInDim S6x2x20x1 ![0, 1, 2, 3] bcast_S1x1x1x1_S6x2x20x1_0_1_2_3
        (broadcastInDim S1x1x1x1 ![3] bcast_S1_S1x1x1x1_3 (constantI S1 32 99#32)))))
    (constantI S_ 1 1#1) reducesTo_S6x2x20x1_S6x2x20_d3 h_S_

/-- The rows the matching names, one per (t, b, m); a row whose index is out of range is filled with the word
    0x7FC00000. -/
def takeRows (x : (⟨S6x2x100x256, .f32⟩ : BufTy).Contents (Elt F)) (i : (⟨S6x2x20x1, .i32⟩ : BufTy).Contents (Elt F)) :
    (⟨S6x2x20x256, .f32⟩ : BufTy).Contents (Elt F) :=
  select (broadcastInDim S6x2x20x256 ![0, 1, 2] bcast_S6x2x20_S6x2x20x256_0_1_2 (inRange (F := F) (wrapIdx (F := F) i)))
    (Host.gather gather_S6x2x100x256_S6x2x20x1_S6x2x20x256_3_2_01_01_2_3_111256 x (wrapIdx (F := F) i))
    (broadcastInDim S6x2x20x256 ![] bcast_S_S6x2x20x256 (constant S_ .f32 0x7FC00000#32))

/-- Inner products between the rows of frame t and those of frame t + 1, for t = 0 .. 4. -/
def frameDots (g : (⟨S6x2x20x256, .f32⟩ : BufTy).Contents (Elt F)) : (⟨S5x2x20x20, .f32⟩ : BufTy).Contents (Elt F) :=
  Host.dotGeneral dot_S5x2x20x256_S5x2x20x256_S5x2x20x20_3_3_2_2_01_01 none
    (extractStridedSlice S5x2x20x256 ![0, 0, 0, 0] g slices_S6x2x20x256_S5x2x20x256_0_0_0_0)
    (extractStridedSlice S5x2x20x256 ![1, 0, 0, 0] g slices_S6x2x20x256_S5x2x20x256_1_0_0_0)

/-- The similarities of consecutive frames' matched, normalised embeddings. -/
def cosines (E : (⟨S2x6x100x256, .f32⟩ : BufTy).Contents (Elt F)) (π : (⟨S6x2x20, .i32⟩ : BufTy).Contents (Elt F)) :
    (⟨S5x2x20x20, .f32⟩ : BufTy).Contents (Elt F) :=
  frameDots (takeRows (normalise (transpose S6x2x100x256 [1, 0, 2, 3] E transposes_S2x6x100x256_S6x2x100x256_1_0_2_3))
    (broadcastInDim S6x2x20x1 ![0, 1, 2] bcast_S6x2x20_S6x2x20x1_0_1_2 π))

/-- Each entry less the maximum over the last axis. -/
def shifted (x : (⟨S5x2x20x20, .f32⟩ : BufTy).Contents (Elt F)) : (⟨S5x2x20x20, .f32⟩ : BufTy).Contents (Elt F) :=
  subf x (broadcastInDim S5x2x20x20 ![0, 1, 2, 3] bcast_S5x2x20x1_S5x2x20x20_0_1_2_3
    (broadcastInDim S5x2x20x1 ![0, 1, 2] bcast_S5x2x20_S5x2x20x1_0_1_2
      (maximumf (broadcastInDim S5x2x20 ![] bcast_S_S5x2x20 (constant S_ .f32 0xFF800000#32))
        (Host.reduce FloatOps.maximumf x (constant S_ .f32 0xFF800000#32) reducesTo_S5x2x20x20_S5x2x20_d3 h_S_))))

/-- The logarithm of the softmax over the last axis. -/
def logSoftmax (x : (⟨S5x2x20x20, .f32⟩ : BufTy).Contents (Elt F)) : (⟨S5x2x20x20, .f32⟩ : BufTy).Contents (Elt F) :=
  subf (shifted x) (broadcastInDim S5x2x20x20 ![0, 1, 2, 3] bcast_S5x2x20x1_S5x2x20x20_0_1_2_3
    (Host.log (broadcastInDim S5x2x20x1 ![0, 1, 2] bcast_S5x2x20_S5x2x20x1_0_1_2
      (Host.reduceAdd (Host.exp (shifted x)) (constant S_ .f32 0x00000000#32) reducesTo_S5x2x20x20_S5x2x20_d3 h_S_))))

/-- The numbers 0 .. 19, an entry below zero moved up by 20. -/
def wrapIota : (⟨S20, .i32⟩ : BufTy).Contents (Elt F) :=
  select (cmpi .slt (iotaInDim S20 32 0) (broadcastInDim S20 ![] bcast_S_S20 (constantI S_ 32 0#32)))
    (addi (iotaInDim S20 32 0) (broadcastInDim S20 ![] bcast_S_S20 (constantI S_ 32 20#32))) (iotaInDim S20 32 0)

/-- The index pairs (k, k) of the diagonal. -/
def diagIdx : (⟨S20x2, .i32⟩ : BufTy).Contents (Elt F) :=
  concatenate S20x2 1 [⟨S20x1, broadcastInDim S20x1 ![0] bcast_S20_S20x1_0 (wrapIota (F := F))⟩,
    ⟨S20x1, broadcastInDim S20x1 ![0] bcast_S20_S20x1_0 (wrapIota (F := F))⟩] concatenates_S20x1_S20x1_S20x2_d1

/-- The diagonal of the last two axes. -/
def diagonal (x : (⟨S5x2x20x20, .f32⟩ : BufTy).Contents (Elt F)) : (⟨S5x2x20, .f32⟩ : BufTy).Contents (Elt F) :=
  Host.gather gather_S5x2x20x20_S20x2_S5x2x20_01_23_n_n_23_1_5211 x (diagIdx (F := F))

/-- Minus the mean of the 200 entries. -/
def negMean (d : (⟨S5x2x20, .f32⟩ : BufTy).Contents (Elt F)) : (⟨S_, .f32⟩ : BufTy).Contents (Elt F) :=
  Host.negf (Host.divf (Host.reduceAdd d (constant S_ .f32 0x00000000#32) reducesTo_S5x2x20_S_d0_1_2 h_S_)
    (constant S_ .f32 0x43480000#32))

/-- The matching loss: the similarities times 5, log-softmax, diagonal, minus the mean. -/
def embMatch (E : (⟨S2x6x100x256, .f32⟩ : BufTy).Contents (Elt Ideal)) (π : (⟨S6x2x20, .i32⟩ : BufTy).Contents (Elt Ideal)) :
    (⟨S_, .f32⟩ : BufTy).Contents (Elt Ideal) :=
  negMean (diagonal (logSoftmax (mulf (broadcastInDim S5x2x20x20 ![] bcast_S_S5x2x20x20 (constant S_ .f32 0x40A00000#32))
    (cosines E π))))

/-- The contrastive loss: the similarities divided by the word 0x3DCCCCCD, log-softmax, diagonal, minus the mean. -/
def embCtr (E : (⟨S2x6x100x256, .f32⟩ : BufTy).Contents (Elt Ideal)) (π : (⟨S6x2x20, .i32⟩ : BufTy).Contents (Elt Ideal)) :
    (⟨S_, .f32⟩ : BufTy).Contents (Elt Ideal) :=
  negMean (diagonal (logSoftmax (Host.divf (cosines E π)
    (broadcastInDim S5x2x20x20 ![] bcast_S_S5x2x20x20 (constant S_ .f32 0x3DCCCCCD#32)))))

/-- The total: 5 times the mask loss plus 5 times the dice loss, plus 1 times the matching loss, plus one half of
    the contrastive loss, added in that order. -/
def totalOf (a b cc d : (⟨S_, .f32⟩ : BufTy).Contents (Elt Ideal)) : (⟨S_, .f32⟩ : BufTy).Contents (Elt Ideal) :=
  addf (addf (addf (mulf (constant (F := Ideal) S_ .f32 0x40A00000#32) a) (mulf (constant (F := Ideal) S_ .f32 0x40A00000#32) b))
    (mulf (constant (F := Ideal) S_ .f32 0x3F800000#32) cc)) (mulf (constant (F := Ideal) S_ .f32 0x3F000000#32) d)

/-! ## The mask losses as functions of the region's outputs -/

/-- The mean of the first output array: its entries summed over (t, b, m) from 0, divided by the word 0x4A700000. -/
def maskOf (o : (⟨S6x2x1x20, .f32⟩ : BufTy).Contents (Elt F)) : (⟨S_, .f32⟩ : BufTy).Contents (Elt F) :=
  Host.divf (Host.reduceAdd (shapeCast S6x2x20 o shapeCasts_S6x2x1x20_S6x2x20) (constant S_ .f32 0x00000000#32)
    reducesTo_S6x2x20_S_d0_1_2 h_S_) (constant S_ .f32 0x4A700000#32)

/-- The mean over (t, b, m) of 1 - numerator / denominator: summed from 0, divided by the word 0x43700000. -/
def diceOf (n d : (⟨S6x2x1x20, .f32⟩ : BufTy).Contents (Elt F)) : (⟨S_, .f32⟩ : BufTy).Contents (Elt F) :=
  Host.divf (Host.reduceAdd
    (subf (broadcastInDim S6x2x20 ![] bcast_S_S6x2x20 (constant S_ .f32 0x3F800000#32))
      (Host.divf (shapeCast S6x2x20 n shapeCasts_S6x2x1x20_S6x2x20) (shapeCast S6x2x20 d shapeCasts_S6x2x1x20_S6x2x20)))
    (constant S_ .f32 0x00000000#32) reducesTo_S6x2x20_S_d0_1_2 h_S_) (constant S_ .f32 0x43700000#32)

/-! ## One stretch at a time

For each stretch, the buffers later stretches read, in terms of the contents `V` before the stretch. -/

theorem s0_v5 (V : Valuation τ sig (Elt F)) :
    StableHlo.after hostOps1 V (Proc.devRef .tc main_v5) = maskOf (V (Proc.devRef .tc main_v0_0)) := by
  dsimp only [hostOps1]; after_results_simp; first | done | rfl

theorem s0_v10 (V : Valuation τ sig (Elt F)) :
    StableHlo.after hostOps1 V (Proc.devRef .tc main_v10)
      = diceOf (V (Proc.devRef .tc main_v0_1)) (V (Proc.devRef .tc main_v0_2)) := by
  dsimp only [hostOps1]; after_results_simp; first | done | rfl

theorem s0_v11 (V : Valuation τ sig (Elt F)) :
    StableHlo.after hostOps1 V (Proc.devRef .tc main_v11)
      = transpose S6x2x100x256 [1, 0, 2, 3] (V (Proc.devRef .tc main_arg1)) transposes_S2x6x100x256_S6x2x100x256_1_0_2_3 := by
  dsimp only [hostOps1]; after_results_simp; first | done | rfl

theorem s1_v12 (V : Valuation τ sig (Elt F)) :
    StableHlo.after hostOps1_1 V (Proc.devRef .tc main_v12) = rowNorm (V (Proc.devRef .tc main_v11)) := by
  dsimp only [hostOps1_1]; after_results_simp; first | done | rfl

theorem s2_cst_4 (V : Valuation τ sig (Elt F)) :
    StableHlo.after hostOps1_2 V (Proc.devRef .tc main_cst_4) = constant S_ .f32 0x2B8CBCCC#32 := by
  dsimp only [hostOps1_2]; after_results_simp; first | done | rfl

theorem s3_v13 (V : Valuation τ sig (Elt F)) :
    StableHlo.after hostOps1_3 V (Proc.devRef .tc main_v13)
      = maximumf (broadcastInDim S6x2x100x1 ![] bcast_S_S6x2x100x1 (id (V (Proc.devRef .tc main_cst_4))))
          (V (Proc.devRef .tc main_v12)) := by
  dsimp only [hostOps1_3]; after_results_simp; first | done | rfl

theorem s4_v15 (V : Valuation τ sig (Elt F)) :
    StableHlo.after hostOps1_4 V (Proc.devRef .tc main_v15)
      = Host.divf (V (Proc.devRef .tc main_v11))
          (broadcastInDim S6x2x100x256 ![0, 1, 2, 3] bcast_S6x2x100x1_S6x2x100x256_0_1_2_3 (V (Proc.devRef .tc main_v13))) := by
  dsimp only [hostOps1_4]; after_results_simp; first | done | rfl

theorem s4_v16 (V : Valuation τ sig (Elt F)) :
    StableHlo.after hostOps1_4 V (Proc.devRef .tc main_v16)
      = broadcastInDim S6x2x20x1 ![0, 1, 2] bcast_S6x2x20_S6x2x20x1_0_1_2 (V (Proc.devRef .tc main_arg3)) := by
  dsimp only [hostOps1_4]; after_results_simp; first | done | rfl

theorem s5_v17 (V : Valuation τ sig (Elt F)) :
    StableHlo.after hostOps1_5 V (Proc.devRef .tc main_v17)
      = takeRows (V (Proc.devRef .tc main_v15)) (V (Proc.devRef .tc main_v16)) := by
  dsimp only [hostOps1_5]; after_results_simp; first | done | rfl

theorem s6_v20 (V : Valuation τ sig (Elt F)) :
    StableHlo.after hostOps1_6 V (Proc.devRef .tc main_v20) = frameDots (V (Proc.devRef .tc main_v17)) := by
  dsimp only [hostOps1_6]; after_results_simp; first | done | rfl

theorem s6_v22 (V : Valuation τ sig (Elt F)) :
    StableHlo.after hostOps1_6 V (Proc.devRef .tc main_v22)
      = mulf (broadcastInDim S5x2x20x20 ![] bcast_S_S5x2x20x20 (constant S_ .f32 0x40A00000#32))
          (frameDots (V (Proc.devRef .tc main_v17))) := by
  dsimp only [hostOps1_6]; after_results_simp; first | done | rfl

theorem s7_v23 (V : Valuation τ sig (Elt F)) :
    StableHlo.after hostOps1_7 V (Proc.devRef .tc main_v23) = logSoftmax (V (Proc.devRef .tc main_v22)) := by
  dsimp only [hostOps1_7]; after_results_simp; first | done | rfl

-- the index pairs are a concatenation of computed operands, which only the rewriting form of the tactic opens
set_option maxHeartbeats 1000000 in
theorem s8_v24 (V : Valuation τ sig (Elt F)) :
    StableHlo.after hostOps1_8 V (Proc.devRef .tc main_v24) = diagonal (V (Proc.devRef .tc main_v23)) := by
  dsimp only [hostOps1_8]; after_results; first | done | rfl

theorem s9_v27 (V : Valuation τ sig (Elt F)) :
    StableHlo.after hostOps1_9 V (Proc.devRef .tc main_v27) = negMean (V (Proc.devRef .tc main_v24)) := by
  dsimp only [hostOps1_9]; after_results_simp; first | done | rfl

theorem s9_v29 (V : Valuation τ sig (Elt F)) :
    StableHlo.after hostOps1_9 V (Proc.devRef .tc main_v29)
      = Host.divf (V (Proc.devRef .tc main_v20))
          (broadcastInDim S5x2x20x20 ![] bcast_S_S5x2x20x20 (constant S_ .f32 0x3DCCCCCD#32)) := by
  dsimp only [hostOps1_9]; after_results_simp; first | done | rfl

theorem s10_v30 (V : Valuation τ sig (Elt F)) :
    StableHlo.after hostOps1_10 V (Proc.devRef .tc main_v30) = logSoftmax (V (Proc.devRef .tc main_v29)) := by
  dsimp only [hostOps1_10]; after_results_simp; first | done | rfl

set_option maxHeartbeats 1000000 in
theorem s11_v31 (V : Valuation τ sig (Elt F)) :
    StableHlo.after hostOps1_11 V (Proc.devRef .tc main_v31) = diagonal (V (Proc.devRef .tc main_v30)) := by
  dsimp only [hostOps1_11]; after_results; first | done | rfl

theorem s12_v34 (V : Valuation τ sig (Elt F)) :
    StableHlo.after hostOps1_12 V (Proc.devRef .tc main_v34) = negMean (V (Proc.devRef .tc main_v31)) := by
  dsimp only [hostOps1_12]; after_results_simp; first | done | rfl

theorem s12_v41 (V : Valuation τ sig (Elt F)) :
    StableHlo.after hostOps1_12 V (Proc.devRef .tc main_v41)
      = addf (addf (addf (mulf (constant S_ .f32 0x40A00000#32) (V (Proc.devRef .tc main_v5)))
            (mulf (constant S_ .f32 0x40A00000#32) (V (Proc.devRef .tc main_v10))))
          (mulf (constant S_ .f32 0x3F800000#32) (V (Proc.devRef .tc main_v27))))
        (mulf (constant S_ .f32 0x3F000000#32) (negMean (V (Proc.devRef .tc main_v31)))) := by
  dsimp only [hostOps1_12]; after_results_simp; first | done | rfl

/-! ## The first seven stretches together -/

/-- The contents once the stretches 0 to 6 have run: the similarities are then in place. -/
def upto6 (W : Valuation τ sig (Elt F)) : Valuation τ sig (Elt F) :=
  StableHlo.after hostOps1_6 (StableHlo.after hostOps1_5 (StableHlo.after hostOps1_4 (StableHlo.after hostOps1_3
    (StableHlo.after hostOps1_2 (StableHlo.after hostOps1_1 (StableHlo.after hostOps1 W))))))

theorem Wtail_upto6 (W : Valuation τ sig (Elt F)) :
    Wtail W = StableHlo.after hostOps1_12 (StableHlo.after hostOps1_11 (StableHlo.after hostOps1_10
      (StableHlo.after hostOps1_9 (StableHlo.after hostOps1_8 (StableHlo.after hostOps1_7 (upto6 W)))))) := rfl

theorem upto6_v17 (W : Valuation τ sig (Elt F)) :
    StableHlo.after hostOps1_5 (StableHlo.after hostOps1_4 (StableHlo.after hostOps1_3 (StableHlo.after hostOps1_2
      (StableHlo.after hostOps1_1 (StableHlo.after hostOps1 W))))) (Proc.devRef .tc main_v17)
      = takeRows (normalise (transpose S6x2x100x256 [1, 0, 2, 3] (W (Proc.devRef .tc main_arg1))
            transposes_S2x6x100x256_S6x2x100x256_1_0_2_3))
          (broadcastInDim S6x2x20x1 ![0, 1, 2] bcast_S6x2x20_S6x2x20x1_0_1_2 (W (Proc.devRef .tc main_arg3))) := by
  rw [s5_v17, s4_v15, s4_v16, keep3 (r := main_v11) _ (by decide), s3_v13, keep3 (r := main_arg3) _ (by decide),
    keep2 (r := main_v11) _ (by decide), s2_cst_4, keep2 (r := main_v12) _ (by decide),
    keep2 (r := main_arg3) _ (by decide), keep1 (r := main_v11) _ (by decide), s1_v12,
    keep1 (r := main_arg3) _ (by decide), s0_v11, keep0 (r := main_arg3) _ (by decide)]
  rfl

theorem upto6_v20 (W : Valuation τ sig (Elt F)) :
    upto6 W (Proc.devRef .tc main_v20) = cosines (W (Proc.devRef .tc main_arg1)) (W (Proc.devRef .tc main_arg3)) := by
  unfold upto6
  rw [s6_v20, upto6_v17]
  rfl

theorem upto6_v22 (W : Valuation τ sig (Elt F)) :
    upto6 W (Proc.devRef .tc main_v22)
      = mulf (broadcastInDim S5x2x20x20 ![] bcast_S_S5x2x20x20 (constant S_ .f32 0x40A00000#32))
          (cosines (W (Proc.devRef .tc main_arg1)) (W (Proc.devRef .tc main_arg3))) := by
  unfold upto6
  rw [s6_v22, upto6_v17]
  rfl

/-! ## The embedding losses and the total -/

theorem tail_match (W : Valuation τ sig (Elt Ideal)) :
    Wtail W (Proc.devRef .tc main_v27) = embMatch (W (Proc.devRef .tc main_arg1)) (W (Proc.devRef .tc main_arg3)) := by
  rw [Wtail_upto6, keep12 _ (by decide), keep11 _ (by decide), keep10 _ (by decide), s9_v27, s8_v24, s7_v23, upto6_v22]
  rfl

theorem tail_ctr (W : Valuation τ sig (Elt Ideal)) :
    Wtail W (Proc.devRef .tc main_v34) = embCtr (W (Proc.devRef .tc main_arg1)) (W (Proc.devRef .tc main_arg3)) := by
  rw [Wtail_upto6, s12_v34, s11_v31, s10_v30, s9_v29, keep8 (r := main_v20) _ (by decide),
    keep7 (r := main_v20) _ (by decide), upto6_v20]
  rfl

theorem tail_total (W : Valuation τ sig (Elt Ideal)) :
    Wtail W (Proc.devRef .tc main_v41)
      = totalOf (Wtail W (Proc.devRef .tc main_v5)) (Wtail W (Proc.devRef .tc main_v10))
          (Wtail W (Proc.devRef .tc main_v27)) (Wtail W (Proc.devRef .tc main_v34)) := by
  unfold Wtail
  rw [s12_v41, keep12 (r := main_v5) _ (by decide), keep12 (r := main_v10) _ (by decide),
    keep12 (r := main_v27) _ (by decide), s12_v34]
  rfl

/-! ## The mask losses against the specification -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The array [6, 2, 1, 20] recast to [6, 2, 20], read at (t, b, m), is its entry at (t, b, 0, m): the two have
    the same row-major position. -/
theorem recast_apply {α : Type} (o : S6x2x1x20.Idx → α) (t : Fin 6) (b : Fin 2) (m : Fin 20) :
    shapeCast S6x2x20 o shapeCasts_S6x2x1x20_S6x2x20 (ix3 t b m) = o (ix4 t b (0 : Fin 1) m) := by
  refine shapeCast_apply o _ _ _ ?_
  rw [Shape.rowMajor_val_four, Shape.rowMajor_val_three]
  show ((t.val * 2 + b.val) * 1 + 0) * 20 + m.val = (t.val * 2 + b.val) * 20 + m.val
  omega

theorem maskOf_apply (o : (⟨S6x2x1x20, .f32⟩ : BufTy).Contents (Elt Ideal)) (j : S_.Idx) :
    maskOf o j = Ideal.div (∑ t : Fin 6, ∑ b : Fin 2, ∑ m : Fin 20, o (ix4 t b (0 : Fin 1) m))
      (Ideal.ofBits .f32 0x4A700000#32) := by
  unfold maskOf
  rw [hostDivf_apply, hostReduceAdd_apply, Ideal.hostReduceAdd_total _ (fun b => b.elim0), constant_apply, constant_apply,
    Ideal.ofBits_zero_f32, zero_add, sum_idx3]
  refine congrArg (fun s => Ideal.div s _) ?_
  exact Finset.sum_congr rfl fun t _ => Finset.sum_congr rfl fun b _ => Finset.sum_congr rfl fun m _ =>
    recast_apply o t b m

theorem diceOf_apply (n d : (⟨S6x2x1x20, .f32⟩ : BufTy).Contents (Elt Ideal)) (j : S_.Idx) :
    diceOf n d j = Ideal.div (∑ t : Fin 6, ∑ b : Fin 2, ∑ m : Fin 20,
        (Ideal.ofBits .f32 0x3F800000#32 - Ideal.div (n (ix4 t b (0 : Fin 1) m)) (d (ix4 t b (0 : Fin 1) m))))
      (Ideal.ofBits .f32 0x43700000#32) := by
  unfold diceOf
  rw [hostDivf_apply, hostReduceAdd_apply, Ideal.hostReduceAdd_total _ (fun b => b.elim0), constant_apply, constant_apply,
    Ideal.ofBits_zero_f32, zero_add, sum_idx3]
  refine congrArg (fun s => Ideal.div s _) ?_
  refine Finset.sum_congr rfl fun t _ => Finset.sum_congr rfl fun b _ => Finset.sum_congr rfl fun m _ => ?_
  rw [subf_apply, hostDivf_apply, broadcastInDim_scalar_apply, constant_apply, recast_apply, recast_apply]

theorem tail_mask (P : Cert.Spec.SP.Idx → EReal) (G : Cert.Spec.SG.Idx → EReal) (π : Cert.Spec.SM.Idx → BitVec 32)
    (W : Valuation τ sig (Elt Ideal))
    (h0 : ∀ (t : Fin 6) (b : Fin 2) (mm : Fin 20),
      W (Proc.devRef .tc main_v0_0) (ix4 t b (0 : Fin 1) mm) = Cert.Spec.bceSum P G π t b mm) :
    Wtail W (Proc.devRef .tc main_v5) = fun _ => Cert.Spec.lossMask P G π := by
  unfold Wtail
  rw [keep12 _ (by decide), keep11 _ (by decide), keep10 _ (by decide), keep9 _ (by decide), keep8 _ (by decide),
    keep7 _ (by decide), keep6 _ (by decide), keep5 _ (by decide), keep4 _ (by decide), keep3 _ (by decide),
    keep2 _ (by decide), keep1 _ (by decide), s0_v5]
  funext j
  rw [maskOf_apply]
  unfold Cert.Spec.lossMask Cert.Spec.bceTotal
  refine congrArg (fun s => Ideal.div s _) ?_
  exact Finset.sum_congr rfl fun t _ => Finset.sum_congr rfl fun b _ => Finset.sum_congr rfl fun m _ => h0 t b m

theorem tail_dice (P : Cert.Spec.SP.Idx → EReal) (G : Cert.Spec.SG.Idx → EReal) (π : Cert.Spec.SM.Idx → BitVec 32)
    (W : Valuation τ sig (Elt Ideal))
    (h1 : ∀ (t : Fin 6) (b : Fin 2) (mm : Fin 20),
      W (Proc.devRef .tc main_v0_1) (ix4 t b (0 : Fin 1) mm) = Cert.Spec.numer P G π t b mm)
    (h2 : ∀ (t : Fin 6) (b : Fin 2) (mm : Fin 20),
      W (Proc.devRef .tc main_v0_2) (ix4 t b (0 : Fin 1) mm) = Cert.Spec.denom P G π t b mm) :
    Wtail W (Proc.devRef .tc main_v10) = fun _ => Cert.Spec.lossDice P G π := by
  unfold Wtail
  rw [keep12 _ (by decide), keep11 _ (by decide), keep10 _ (by decide), keep9 _ (by decide), keep8 _ (by decide),
    keep7 _ (by decide), keep6 _ (by decide), keep5 _ (by decide), keep4 _ (by decide), keep3 _ (by decide),
    keep2 _ (by decide), keep1 _ (by decide), s0_v10]
  funext j
  rw [diceOf_apply]
  unfold Cert.Spec.lossDice Cert.Spec.diceTerm
  refine congrArg (fun s => Ideal.div s _) ?_
  exact Finset.sum_congr rfl fun t _ => Finset.sum_congr rfl fun b _ => Finset.sum_congr rfl fun m _ => by
    rw [h1 t b m, h2 t b m]

end Cert.KernelIdeal.Tail

end
-- ==== Proof.KI.Results.lean ====
/-
  The idealized kernel program's five results as functions of its arguments.

  At the return every unscoped buffer holds what the last valuation says, and the last valuation is the host tail
  applied to the region's exit valuation. There the three output arrays hold, at (t, b, 0, m), the pixel sums of the
  specification; so the tail's first two results are the mask loss and the dice loss of the specification. The two
  embedding losses are the tail's own functions of the embeddings and the matching, which bypass the region; the total
  is the tail's combination of the four.
-/
import proofs.«431483_j19456201851405_2_alg».proof.Proof.KI.Frame
import proofs.«431483_j19456201851405_2_alg».proof.Proof.KI.ArrValue
import proofs.«431483_j19456201851405_2_alg».proof.Proof.TailK

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Cert.KernelIdeal.Tail Idealize.ShloMosaic.ValueIdx

variable (m : (ℓ : Loc nD τ sig) → Buf (Elt Ideal) ℓ) (ρ : Dev nD → PrngReg)

/-- The three output arrays at the region's exit, read at (t, b, 0, mm). -/
theorem exit_out2 (hH : Hyps (V0 m ρ)) (c : Dev nD) (t : Fin 6) (b : Fin 2) (mm : Fin 20) :
    W1 m ρ hH c (Proc.devRef .tc main_v0_0) (ix4 t b (0 : Fin 1) mm)
      = Cert.Spec.bceSum (m ((c.tc : Thread nD τ).loc main_arg0)) (m ((c.tc : Thread nD τ).loc main_arg2)) (m ((c.tc : Thread nD τ).loc main_arg3)) t b mm :=
  (congrFun (W1_arr m ρ hH c 2) _).trans (Cert.KernelIdeal.ArrValue.arr2 (V0 m ρ) hH c t b mm)
theorem exit_out3 (hH : Hyps (V0 m ρ)) (c : Dev nD) (t : Fin 6) (b : Fin 2) (mm : Fin 20) :
    W1 m ρ hH c (Proc.devRef .tc main_v0_1) (ix4 t b (0 : Fin 1) mm)
      = Cert.Spec.numer (m ((c.tc : Thread nD τ).loc main_arg0)) (m ((c.tc : Thread nD τ).loc main_arg2)) (m ((c.tc : Thread nD τ).loc main_arg3)) t b mm :=
  (congrFun (W1_arr m ρ hH c 3) _).trans (Cert.KernelIdeal.ArrValue.arr3 (V0 m ρ) hH c t b mm)
theorem exit_out4 (hH : Hyps (V0 m ρ)) (c : Dev nD) (t : Fin 6) (b : Fin 2) (mm : Fin 20) :
    W1 m ρ hH c (Proc.devRef .tc main_v0_2) (ix4 t b (0 : Fin 1) mm)
      = Cert.Spec.denom (m ((c.tc : Thread nD τ).loc main_arg0)) (m ((c.tc : Thread nD τ).loc main_arg2)) (m ((c.tc : Thread nD τ).loc main_arg3)) t b mm :=
  (congrFun (W1_arr m ρ hH c 4) _).trans (Cert.KernelIdeal.ArrValue.arr4 (V0 m ρ) hH c t b mm)

/-- The embeddings and the matching bypass the region. -/
theorem exit_arg1 (hH : Hyps (V0 m ρ)) (c : Dev nD) : W1 m ρ hH c (Proc.devRef .tc main_arg1) = m ((c.tc : Thread nD τ).loc main_arg1) :=
  W1_of_ne m ρ hH c main_arg1 (by decide)
theorem exit_arg3 (hH : Hyps (V0 m ρ)) (c : Dev nD) : W1 m ρ hH c (Proc.devRef .tc main_arg3) = m ((c.tc : Thread nD τ).loc main_arg3) :=
  W1_of_ne m ρ hH c main_arg3 (by decide)

theorem fin_mask (hH : Hyps (V0 m ρ)) (c : Dev nD) : Wh13 m ρ hH c (Proc.devRef .tc main_v5)
    = fun _ => Cert.Spec.lossMask (m ((c.tc : Thread nD τ).loc main_arg0)) (m ((c.tc : Thread nD τ).loc main_arg2)) (m ((c.tc : Thread nD τ).loc main_arg3)) := by
  rw [Wh13_eq]; exact tail_mask _ _ _ (W1 m ρ hH c) (exit_out2 m ρ hH c)
theorem fin_dice (hH : Hyps (V0 m ρ)) (c : Dev nD) : Wh13 m ρ hH c (Proc.devRef .tc main_v10)
    = fun _ => Cert.Spec.lossDice (m ((c.tc : Thread nD τ).loc main_arg0)) (m ((c.tc : Thread nD τ).loc main_arg2)) (m ((c.tc : Thread nD τ).loc main_arg3)) := by
  rw [Wh13_eq]; exact tail_dice _ _ _ (W1 m ρ hH c) (exit_out3 m ρ hH c) (exit_out4 m ρ hH c)
theorem fin_match (hH : Hyps (V0 m ρ)) (c : Dev nD) : Wh13 m ρ hH c (Proc.devRef .tc main_v27)
    = embMatch (m ((c.tc : Thread nD τ).loc main_arg1)) (m ((c.tc : Thread nD τ).loc main_arg3)) := by
  rw [Wh13_eq, tail_match, exit_arg1, exit_arg3]
theorem fin_ctr (hH : Hyps (V0 m ρ)) (c : Dev nD) : Wh13 m ρ hH c (Proc.devRef .tc main_v34)
    = embCtr (m ((c.tc : Thread nD τ).loc main_arg1)) (m ((c.tc : Thread nD τ).loc main_arg3)) := by
  rw [Wh13_eq, tail_ctr, exit_arg1, exit_arg3]
theorem fin_total (hH : Hyps (V0 m ρ)) (c : Dev nD) : Wh13 m ρ hH c (Proc.devRef .tc main_v41)
    = totalOf (fun _ => Cert.Spec.lossMask (m ((c.tc : Thread nD τ).loc main_arg0)) (m ((c.tc : Thread nD τ).loc main_arg2)) (m ((c.tc : Thread nD τ).loc main_arg3)))
        (fun _ => Cert.Spec.lossDice (m ((c.tc : Thread nD τ).loc main_arg0)) (m ((c.tc : Thread nD τ).loc main_arg2)) (m ((c.tc : Thread nD τ).loc main_arg3)))
        (embMatch (m ((c.tc : Thread nD τ).loc main_arg1)) (m ((c.tc : Thread nD τ).loc main_arg3)))
        (embCtr (m ((c.tc : Thread nD τ).loc main_arg1)) (m ((c.tc : Thread nD τ).loc main_arg3))) := by
  have h5 := fin_mask m ρ hH c; have h10 := fin_dice m ρ hH c; have h27 := fin_match m ρ hH c; have h34 := fin_ctr m ρ hH c
  rw [Wh13_eq] at h5 h10 h27 h34 ⊢
  rw [tail_total, h5, h10, h27, h34]
  rfl

/-- The run with its five results and four arguments named. -/
theorem results (hH : Hyps (V0 m ρ)) : θ_run (defs (F := Ideal)) (onTc (τ := τ) (main (F := Ideal))) ⟨m, fun _ => 0, ρ⟩ (fun r => ∀ c : Dev nD,
      r.2.mem ((c.tc : Thread nD τ).loc main_v5) = (fun _ => Cert.Spec.lossMask (m ((c.tc : Thread nD τ).loc main_arg0)) (m ((c.tc : Thread nD τ).loc main_arg2)) (m ((c.tc : Thread nD τ).loc main_arg3)))
      ∧ r.2.mem ((c.tc : Thread nD τ).loc main_v10) = (fun _ => Cert.Spec.lossDice (m ((c.tc : Thread nD τ).loc main_arg0)) (m ((c.tc : Thread nD τ).loc main_arg2)) (m ((c.tc : Thread nD τ).loc main_arg3)))
      ∧ r.2.mem ((c.tc : Thread nD τ).loc main_v34) = embCtr (m ((c.tc : Thread nD τ).loc main_arg1)) (m ((c.tc : Thread nD τ).loc main_arg3))
      ∧ r.2.mem ((c.tc : Thread nD τ).loc main_v27) = embMatch (m ((c.tc : Thread nD τ).loc main_arg1)) (m ((c.tc : Thread nD τ).loc main_arg3))
      ∧ r.2.mem ((c.tc : Thread nD τ).loc main_v41) = totalOf (fun _ => Cert.Spec.lossMask (m ((c.tc : Thread nD τ).loc main_arg0)) (m ((c.tc : Thread nD τ).loc main_arg2)) (m ((c.tc : Thread nD τ).loc main_arg3)))
          (fun _ => Cert.Spec.lossDice (m ((c.tc : Thread nD τ).loc main_arg0)) (m ((c.tc : Thread nD τ).loc main_arg2)) (m ((c.tc : Thread nD τ).loc main_arg3)))
          (embMatch (m ((c.tc : Thread nD τ).loc main_arg1)) (m ((c.tc : Thread nD τ).loc main_arg3)))
          (embCtr (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (fin_mask m ρ hH c),
     (h c _ (mem_uc main_v10 (by decide))).trans (fin_dice m ρ hH c),
     (h c _ (mem_uc main_v34 (by decide))).trans (fin_ctr m ρ hH c),
     (h c _ (mem_uc main_v27 (by decide))).trans (fin_match m ρ hH c),
     (h c _ (mem_uc main_v41 (by decide))).trans (fin_total m ρ hH c),
     (h c _ (mem_uc main_arg0 (by decide))).trans (Wfin_arg0 m ρ hH c),
     (h c _ (mem_uc main_arg1 (by decide))).trans (Wfin_arg1 m ρ hH c),
     (h c _ (mem_uc main_arg2 (by decide))).trans (Wfin_arg2 m ρ hH c),
     (h c _ (mem_uc main_arg3 (by decide))).trans (Wfin_arg3 m ρ hH c)⟩) (run_all m ρ hH)

end Cert.KernelIdeal.Fr

end
-- ==== Proof.Tail.lean ====
/-
  The reference's embedding losses and total, as the kernel program's own functions.

  From the normalisation of the embeddings on, the reference applies the operations the kernel program applies after
  its region: the same operations, in the same order, with the same constants. So its matching and contrastive losses
  are the kernel program's functions of the embeddings and the matching, and its total is the same weighted sum of
  its four losses. Each side unfolds to the same composed term: the two programs' shapes and side conditions are
  declared twice but are the same literals, and the side conditions are proofs.
-/
import proofs.«431483_j19456201851405_2_alg».proof.Proof.TailK
import proofs.«431483_j19456201851405_2_alg».proof.Proof.Gen.ReferenceIdeal.Run

-- the composed terms are deep
set_option maxRecDepth 8192

noncomputable section

namespace Cert.TailBridge

open Idealize.ShloMosaic Idealize.ShloMosaic.ValueIdx Idealize.ShloMosaic.TcCoe Idealize.SL.Sem

/-- The reference's matching loss is the same function of the embeddings and the matching: it applies the same
    operations, in the same order, with the same constants. -/
theorem ref_match (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v53 (F := Ideal) m' c
      = Cert.KernelIdeal.Tail.embMatch
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3)) := by
  rfl

/-- Likewise its contrastive loss. -/
theorem ref_ctr (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v60 (F := Ideal) m' c
      = Cert.KernelIdeal.Tail.embCtr
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3)) := by
  rfl

/-- The reference's total is the same weighted sum of its own four losses. -/
theorem ref_total (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v67 (F := Ideal) m' c
      = Cert.KernelIdeal.Tail.totalOf (Cert.ReferenceIdeal.Value.res_main_v14 (F := Ideal) m' c)
          (Cert.ReferenceIdeal.Value.res_main_v36 (F := Ideal) m' c)
          (Cert.ReferenceIdeal.Value.res_main_v53 (F := Ideal) m' c)
          (Cert.ReferenceIdeal.Value.res_main_v60 (F := Ideal) m' c) := by
  rfl

end Cert.TailBridge

end
-- ==== Proof.RefMask.lean ====
/-
  The reference's mask loss and dice loss, read back as the shared specification's functions of the argument
  arrays, under the hypothesis that every entry of the matching π is below 100 as an unsigned number.

  The reference transposes the prediction planes P and the target planes G to (t, b, ·, h, w), gathers the matched
  plane along the plane axis — after wrapping negative indices by +100, and replacing by NaN the picks whose wrapped
  index is outside [0, 99] — and then takes the cross-entropy's total over (t, b, m, h, w) divided by 3932160, and
  per (t, b, m) the dice term from sums over the 16384 flattened pixels, its total divided by 240.

  Under the hypothesis the wrap does nothing, the range test is true everywhere, so the select takes the gathered
  value, and the gathered value at (t, b, m, h, w) is P(b, t, π(t, b, m), h, w). The sum over the 16384 flattened
  pixels is the double sum over (h, w) by the row-major bijection, and the sums over a whole index set are the
  iterated sums over the coordinates (the extended reals' addition is commutative and associative, so no finiteness
  is needed).
-/
import proofs.«431483_j19456201851405_2_alg».proof.Proof.Gen.ReferenceIdeal.Read
import proofs.«431483_j19456201851405_2_alg».proof.Proof.Spec
import Idealize.ShloMosaic.Lib.ValueIdx
import Idealize.ShloMosaic.Lib.ReduceAll
import Idealize.ShloMosaic.Lib.IdealHost
import Idealize.ShloMosaic.PureOps.Ideal.Laws

noncomputable section

open scoped BigOperators

namespace Cert.ReferenceIdeal.RefMask

open Idealize.ShloMosaic Idealize.ShloMosaic.ValueIdx Idealize.ShloMosaic.TcCoe Idealize.SL.Sem Cert.ReferenceIdeal

/-! ## Words below 100

A 32-bit word below 100 as an unsigned number is the same number read signed: it is not negative, it is at least 0
and at most 99. -/

section Words
variable (w : BitVec 32)

/-- Read signed, a word below 100 is its unsigned value. -/
theorem toInt_of_lt (hw : w.toNat < 100) : w.toInt = (w.toNat : Int) := by
  rw [BitVec.toInt_eq_toNat_cond]; split
  · rfl
  · omega

/-- A word below 100 is not negative: the signed test "below 0" fails. -/
theorem slt_zero_of_lt (hw : w.toNat < 100) : IntOp.cmpi .slt w 0#32 = 0#1 := by
  refine eq_zero_of_ne_one fun h => ?_
  have := IntOp.cmpi_slt.1 h
  rw [toInt_of_lt w hw] at this
  have h0 : (0#32 : BitVec 32).toInt = 0 := by decide
  omega

/-- A word below 100 passes the signed test "at least 0". -/
theorem sge_zero_of_lt (hw : w.toNat < 100) : IntOp.cmpi .sge w 0#32 = 1#1 := by
  refine IntOp.cmpi_sge.2 ?_
  rw [toInt_of_lt w hw]
  have h0 : (0#32 : BitVec 32).toInt = 0 := by decide
  omega

/-- A word below 100 passes the signed test "at most 99". -/
theorem sle_99_of_lt (hw : w.toNat < 100) : IntOp.cmpi .sle w 99#32 = 1#1 := by
  refine IntOp.cmpi_sle.2 ?_
  rw [toInt_of_lt w hw]
  have h0 : (99#32 : BitVec 32).toInt = 99 := by decide
  omega

end Words

/-- A left fold by "and" from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a (List.mem_cons_self ..), h1]
    exact foldl_andi_one f l (fun n hn => h n (List.mem_cons_of_mem _ hn))

/-! ## Sums over an index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-- The row-major bijection between the pixels (h, w) of a 128 x 128 plane and the 16384 positions of the
    flattened plane: (h, w) sits at h * 128 + w. -/
def pixEquiv : Fin 128 × Fin 128 ≃ Fin 16384 where
  toFun p := ⟨p.1.val * 128 + p.2.val, by have := p.1.isLt; have := p.2.isLt; omega⟩
  invFun k := (⟨k.val / 128, by have := k.isLt; omega⟩, ⟨k.val % 128, Nat.mod_lt _ (by decide)⟩)
  left_inv p := by
    obtain ⟨⟨a, ha⟩, ⟨b, hb⟩⟩ := p
    refine Prod.ext (Fin.ext ?_) (Fin.ext ?_)
    · show (a * 128 + b) / 128 = a; omega
    · show (a * 128 + b) % 128 = b; omega
  right_inv k := Fin.ext (by show k.val / 128 * 128 + k.val % 128 = k.val; omega)

/-- A sum over the flattened plane is the double sum over its rows and columns. -/
theorem sum_pix {M : Type*} [AddCommMonoid M] (f : Fin 16384 → M) :
    ∑ k, f k = ∑ h : Fin 128, ∑ w : Fin 128, f (pixEquiv (h, w)) := by
  rw [← Equiv.sum_comp pixEquiv f, Fintype.sum_prod_type]

/-! ## The gather at an index

The reference gathers along the plane axis of the transposed prediction array: operand (t, b, n, h, w) over
6 x 2 x 100 x 128 x 128, start indices (t, b, m, ·) over 6 x 2 x 20 x 1, result (t, b, m, h, w); axes t and b are
batching axes, the plane axis is collapsed and is the one the start index names, h and w are offset axes with full
slices. Result element (t, b, m, h, w) is the operand at (t, b, s, h, w), s the start index of (t, b, m) read signed and
clamped into [0, 99]. -/

/-- The gather's dimension numbers. -/
abbrev gd := gather_S6x2x100x128x128_S6x2x20x1_S6x2x20x128x128_34_2_01_01_2_3_111128128

theorem ob0 : (0 : Fin 5) ∈ gd.operandBatchingDims := by decide
theorem ob1 : (1 : Fin 5) ∈ gd.operandBatchingDims := by decide

section Gather
variable {α : Type} (idx : IVec S6x2x20x1 32) (t : Fin 6) (b : Fin 2) (m : Fin 20) (h w : Fin 128)

/-- On the first batching axis the operand index is the result's t. -/
theorem opIdx0 : (gd.operandIdx (ix5 t b m h w) idx 0).val = t.val := by
  show gd.start (ix5 t b m h w) idx 0 + gd.batchCoord (ix5 t b m h w) 0 + gd.offCoord (ix5 t b m h w) 0 = _
  rw [gd.start_batching _ idx 0 ob0, gd.offCoord_eq_zero _ 0 (fun h => ((gd.mem_sKept 0).1 h).2 ob0)]
  unfold GatherDims.batchCoord
  rw [dif_pos ob0]
  simp only [Nat.zero_add, Nat.add_zero]
  unfold GatherDims.siCoord
  simp only [Fin.coe_cast]
  have key : ∀ (k : Fin 5), k = 0 → ((ix5 t b m h w : S6x2x20x128x128.Idx) k).val = t.val := by rintro _ rfl; rfl
  exact key _ (by decide)

/-- On the second batching axis it is the result's b. -/
theorem opIdx1 : (gd.operandIdx (ix5 t b m h w) idx 1).val = b.val := by
  show gd.start (ix5 t b m h w) idx 1 + gd.batchCoord (ix5 t b m h w) 1 + gd.offCoord (ix5 t b m h w) 1 = _
  rw [gd.start_batching _ idx 1 ob1, gd.offCoord_eq_zero _ 1 (fun h => ((gd.mem_sKept 1).1 h).2 ob1)]
  unfold GatherDims.batchCoord
  rw [dif_pos ob1]
  simp only [Nat.zero_add, Nat.add_zero]
  unfold GatherDims.siCoord
  simp only [Fin.coe_cast]
  have key : ∀ (k : Fin 5), k = 1 → ((ix5 t b m h w : S6x2x20x128x128.Idx) k).val = b.val := by rintro _ rfl; rfl
  exact key _ (by decide)

/-- On the first offset axis it is the result's h. -/
theorem opIdx3 : (gd.operandIdx (ix5 t b m h w) idx 3).val = h.val := by
  show gd.start (ix5 t b m h w) idx 3 + gd.batchCoord (ix5 t b m h w) 3 + gd.offCoord (ix5 t b m h w) 3 = _
  rw [gd.batchCoord_eq_zero _ 3 (by decide)]
  unfold GatherDims.start GatherDims.offCoord
  rw [dif_neg (by decide), dif_pos (by decide)]
  simp only [Nat.zero_add, Nat.add_zero]
  have key : ∀ (k : Fin 5), k = 3 → ((ix5 t b m h w : S6x2x20x128x128.Idx) k).val = h.val := by rintro _ rfl; rfl
  exact key _ (by decide)

/-- On the second offset axis it is the result's w. -/
theorem opIdx4 : (gd.operandIdx (ix5 t b m h w) idx 4).val = w.val := by
  show gd.start (ix5 t b m h w) idx 4 + gd.batchCoord (ix5 t b m h w) 4 + gd.offCoord (ix5 t b m h w) 4 = _
  rw [gd.batchCoord_eq_zero _ 4 (by decide)]
  unfold GatherDims.start GatherDims.offCoord
  rw [dif_neg (by decide), dif_pos (by decide)]
  simp only [Nat.zero_add, Nat.add_zero]
  have key : ∀ (k : Fin 5), k = 4 → ((ix5 t b m h w : S6x2x20x128x128.Idx) k).val = w.val := by rintro _ rfl; rfl
  exact key _ (by decide)

/-- On the collapsed plane axis it is the start index of (t, b, m), read signed and clamped into [0, 99]. -/
theorem opIdx2 : (gd.operandIdx (ix5 t b m h w) idx 2).val = min (idx (ix4 t b m (0 : Fin 1))).toInt.toNat 99 := by
  show gd.start (ix5 t b m h w) idx 2 + gd.batchCoord (ix5 t b m h w) 2 + gd.offCoord (ix5 t b m h w) 2 = _
  rw [gd.batchCoord_eq_zero _ 2 (by decide), gd.offCoord_eq_zero _ 2 (by decide)]
  unfold GatherDims.start
  rw [dif_pos (by decide)]
  simp only [Nat.add_zero]
  have hsi : gd.siIdx (ix5 t b m h w) ⟨List.idxOf (2 : Fin 5) gd.startIndexMap, List.idxOf_lt_length_iff.2 (by decide)⟩
      = ix4 t b m (0 : Fin 1) := by
    funext a; refine Fin.ext ?_
    match a with
    | ⟨0, _⟩ => rfl
    | ⟨1, _⟩ => rfl
    | ⟨2, _⟩ => rfl
    | ⟨3, _⟩ => rfl
  rw [hsi]
  rfl

/-- THE GATHER AT (t, b, m, h, w), when the start index of (t, b, m) is a word below 100: the operand at
    (t, b, that word, h, w) — the clamp does nothing (and neither does the reduction modulo 100 it is written with). -/
theorem gather_plane (x : S6x2x100x128x128.Idx → α) (wd : BitVec 32) (hidx : idx (ix4 t b m (0 : Fin 1)) = wd)
    (hwd : wd.toNat < 100) :
    Host.gather gd x idx (ix5 t b m h w) = x (ix5 t b ⟨wd.toNat % 100, Nat.mod_lt _ (by decide)⟩ h w) := by
  unfold Host.gather
  refine congrArg x (funext fun a => Fin.ext ?_)
  match a with
  | ⟨0, _⟩ => exact opIdx0 idx t b m h w
  | ⟨1, _⟩ => exact opIdx1 idx t b m h w
  | ⟨2, _⟩ =>
    refine (opIdx2 idx t b m h w).trans ?_
    rw [hidx, toInt_of_lt wd hwd, Int.toNat_natCast]
    show min wd.toNat 99 = wd.toNat % 100
    omega
  | ⟨3, _⟩ => exact opIdx3 idx t b m h w
  | ⟨4, _⟩ => exact opIdx4 idx t b m h w

end Gather

/-! ## The reference's stages at an index, under the range hypothesis -/

section Stages
variable (x0 : (⟨S2x6x100x128x128, .f32⟩ : BufTy).Contents (Elt Ideal)) (x2 : (⟨S2x6x20x128x128, .f32⟩ : BufTy).Contents (Elt Ideal))
  (x3 : (⟨S6x2x20, .i32⟩ : BufTy).Contents (Elt Ideal))

/-- The start index of (t, b, m) is π(t, b, m): the entry is not negative, so the wrap by +100 is not taken. -/
theorem start_at (hπ : ∀ j : S6x2x20.Idx, (x3 j).toNat < 100) (t : Fin 6) (b : Fin 2) (m : Fin 20) (z : Fin 1) :
    Read.val_main_call0_v5 (F := Ideal) x3 (ix4 t b m z) = x3 (ix3 t b m) := by
  have e : Read.idx_main_v1 (Read.idx_main_call0_v5 (ix4 t b m z)) = ix3 t b m := by
    funext a; refine Fin.ext ?_
    have ht := t.isLt; have hb := b.isLt; have hm := m.isLt; have hz := z.isLt
    match a with
    | ⟨0, _⟩ => show (((t.val * 2 + b.val) * 20 + m.val) * 1 + z.val) / 40 = t.val; omega
    | ⟨1, _⟩ => show (((t.val * 2 + b.val) * 20 + m.val) * 1 + z.val) / 20 % 2 = b.val; omega
    | ⟨2, _⟩ => show (((t.val * 2 + b.val) * 20 + m.val) * 1 + z.val) / 1 % 20 = m.val; omega
  rw [Read.val_main_call0_v5_apply, Read.val_main_call0_v4_apply, Read.val_main_call0_v1_apply, Read.val_main_v1_apply,
    Read.val_main_call0_v0_apply, Read.val_main_call0_c_apply, e, slt_zero_of_lt _ (hπ _), select_zero]

/-- The range test "0 ≤ start index ≤ 99" holds at every index. -/
theorem inrange_at (hπ : ∀ j : S6x2x20.Idx, (x3 j).toNat < 100) (k : S6x2x20x1.Idx) :
    Read.val_main_call0_v11 (F := Ideal) x3 k = 1#1 := by
  obtain ⟨t, b, m, z, rfl⟩ : ∃ (t : Fin 6) (b : Fin 2) (m : Fin 20) (z : Fin 1), k = ix4 t b m z :=
    ⟨k 0, k 1, k 2, k 3, eq_ix4 k⟩
  rw [Read.val_main_call0_v11_apply, Read.val_main_call0_v7_apply, Read.val_main_call0_v10_apply, start_at x3 hπ,
    Read.val_main_call0_v6_apply, Read.val_main_call0_c_2_apply, Read.val_main_call0_v9_apply,
    Read.val_main_call0_v8_apply, Read.val_main_call0_c_1_apply]
  exact IntOp.andi_eq_one.2 ⟨sge_zero_of_lt _ (hπ _), sle_99_of_lt _ (hπ _)⟩

/-- Its reduction by "and" over the unit axis is true at every (t, b, m). -/
theorem allin_at (hπ : ∀ j : S6x2x20.Idx, (x3 j).toNat < 100) (j : S6x2x20.Idx) :
    Read.val_main_call0_v12 (F := Ideal) x3 j = 1#1 := by
  unfold Read.val_main_call0_v12
  rw [Host.reduce_eq_foldl, Read.val_main_call0_c_3_apply]
  exact foldl_andi_one _ _ (fun n _ => inrange_at x3 hπ n)

/-- THE GATHERED ARRAY at (t, b, m, h, w) is P(b, t, π(t, b, m), h, w): the select takes the gathered value, the
    gather reads the transposed array at the plane the matching names, and the transpose swaps t and b back. -/
theorem gathered_at (hπ : ∀ j : S6x2x20.Idx, (x3 j).toNat < 100) (t : Fin 6) (b : Fin 2) (m : Fin 20) (h w : Fin 128) :
    Read.val_main_v2 (F := Ideal) x0 x3 (ix5 t b m h w) = Cert.Spec.src x0 x3 t b m h w := by
  rw [Read.val_main_v2_apply, Read.val_main_call0_v14_apply, allin_at x3 hπ, select_one]
  unfold Read.val_main_call0_v13
  rw [gather_plane _ t b m h w _ _ (start_at x3 hπ t b m 0) (hπ _), Read.val_main_v0_apply]
  show x0 _ = x0 (ix5 b t (Cert.Spec.planeOf x3 t b m) h w)
  refine congrArg x0 (funext fun a => Fin.ext ?_)
  match a with
  | ⟨0, _⟩ => rfl
  | ⟨1, _⟩ => rfl
  | ⟨2, _⟩ => rfl
  | ⟨3, _⟩ => rfl
  | ⟨4, _⟩ => rfl

/-- The transposed target array at (t, b, m, h, w) is G(b, t, m, h, w). -/
theorem target_at (t : Fin 6) (b : Fin 2) (m : Fin 20) (h w : Fin 128) :
    Read.val_main_v3 (F := Ideal) x2 (ix5 t b m h w) = Cert.Spec.tgt x2 t b m h w := by
  rw [Read.val_main_v3_apply]
  show x2 _ = x2 (ix5 b t m h w)
  refine congrArg x2 (funext fun a => Fin.ext ?_)
  match a with
  | ⟨0, _⟩ => rfl
  | ⟨1, _⟩ => rfl
  | ⟨2, _⟩ => rfl
  | ⟨3, _⟩ => rfl
  | ⟨4, _⟩ => rfl

/-- The cross-entropy array at (t, b, m, h, w). -/
theorem bce_at (hπ : ∀ j : S6x2x20.Idx, (x3 j).toNat < 100) (t : Fin 6) (b : Fin 2) (m : Fin 20) (h w : Fin 128) :
    Read.val_main_v12 (F := Ideal) x0 x2 x3 (ix5 t b m h w)
      = Cert.Spec.bce (Cert.Spec.src x0 x3 t b m h w) (Cert.Spec.tgt x2 t b m h w) := by
  rw [Read.val_main_v12_apply, Read.val_main_v7_apply, Read.val_main_v5_apply, Read.val_main_v6_apply,
    Read.val_main_v11_apply, Read.val_main_v10_apply, Read.val_main_v9_apply, Read.val_main_v8_apply,
    Read.val_main_v4_apply, Read.val_main_cst_apply, gathered_at x0 x3 hπ, target_at]
  simp only [Ideal.ofBits_def, Ideal.ofBits_zero_f32]
  rfl

/-- THE MASK LOSS: the total of the cross-entropy over (t, b, m, h, w), divided by the count. -/
theorem v14_spec (hπ : ∀ j : S6x2x20.Idx, (x3 j).toNat < 100) :
    Read.val_main_v14 (F := Ideal) x0 x2 x3 = fun _ => Cert.Spec.lossMask x0 x2 x3 := by
  funext i
  rw [Read.val_main_v14_apply, Read.val_main_v13_apply, Read.val_main_cst_0_apply, Read.val_main_cst_1_apply, sum_idx5]
  simp only [bce_at x0 x2 x3 hπ]
  simp only [Ideal.ofBits_def, Ideal.ofBits_zero_f32, zero_add, Ideal.hostDivf_def]
  rfl

/-! ## The dice loss: the flattened plane, and the three sums over it -/

/-- Position h * 128 + w of plane (t, b, m) in the flattened array is pixel (t, b, m, h, w): what the reshape reads. -/
theorem flat_idx (t : Fin 6) (b : Fin 2) (m : Fin 20) (h w : Fin 128) (q : S6x2x20x16384.Idx)
    (h0 : (q 0).val = t.val) (h1 : (q 1).val = b.val) (h2 : (q 2).val = m.val) (h3 : (q 3).val = h.val * 128 + w.val) :
    Read.idx_main_v21 q = ix5 t b m h w := by
  funext a; refine Fin.ext ?_
  have ht := t.isLt; have hb := b.isLt; have hm := m.isLt; have hh := h.isLt; have hw := w.isLt
  match a with
  | ⟨0, _⟩ => show ((((q 0).val * 2 + (q 1).val) * 20 + (q 2).val) * 16384 + (q 3).val) / 655360 = t.val; omega
  | ⟨1, _⟩ => show ((((q 0).val * 2 + (q 1).val) * 20 + (q 2).val) * 16384 + (q 3).val) / 327680 % 2 = b.val; omega
  | ⟨2, _⟩ => show ((((q 0).val * 2 + (q 1).val) * 20 + (q 2).val) * 16384 + (q 3).val) / 16384 % 20 = m.val; omega
  | ⟨3, _⟩ => show ((((q 0).val * 2 + (q 1).val) * 20 + (q 2).val) * 16384 + (q 3).val) / 128 % 128 = h.val; omega
  | ⟨4, _⟩ => show ((((q 0).val * 2 + (q 1).val) * 20 + (q 2).val) * 16384 + (q 3).val) % 128 = w.val; omega

/-- The flattened sigmoid array at a position that is pixel (t, b, m, h, w). -/
theorem sig_flat (hπ : ∀ j : S6x2x20.Idx, (x3 j).toNat < 100) (t : Fin 6) (b : Fin 2) (m : Fin 20) (h w : Fin 128)
    (q : S6x2x20x16384.Idx) (hq : Read.idx_main_v21 q = ix5 t b m h w) :
    Read.val_main_v21 (F := Ideal) x0 x3 q = Cert.Spec.sig (Cert.Spec.src x0 x3 t b m h w) := by
  rw [Read.val_main_v21_apply, hq, Read.val_main_v20_apply, Read.val_main_v19_apply, Read.val_main_cst_3_apply,
    Read.val_main_v18_apply, Read.val_main_v17_apply, Read.val_main_cst_2_apply, Read.val_main_v16_apply,
    Read.val_main_v15_apply, gathered_at x0 x3 hπ]
  simp only [Ideal.ofBits_def, Ideal.ofBits_one_f32]
  rfl

/-- The flattened target array at a position that is pixel (t, b, m, h, w). -/
theorem tgt_flat (t : Fin 6) (b : Fin 2) (m : Fin 20) (h w : Fin 128)
    (q : S6x2x20x16384.Idx) (hq : Read.idx_main_v22 q = ix5 t b m h w) :
    Read.val_main_v22 (F := Ideal) x2 q = Cert.Spec.tgt x2 t b m h w := by
  rw [Read.val_main_v22_apply, hq, target_at]

/-- The sum over the flattened plane of sigmoid times target is the specification's product sum. -/
theorem prodSum_at (hπ : ∀ j : S6x2x20.Idx, (x3 j).toNat < 100) (t : Fin 6) (b : Fin 2) (m : Fin 20) :
    Read.val_main_v24 (F := Ideal) x0 x2 x3 (ix3 t b m) = Cert.Spec.prodSum x0 x2 x3 t b m := by
  have e : ∀ (h w : Fin 128), Read.val_main_v23 (F := Ideal) x0 x2 x3 (Read.idx_main_v24 (ix3 t b m) (pixEquiv (h, w)))
      = Cert.Spec.sig (Cert.Spec.src x0 x3 t b m h w) * Cert.Spec.tgt x2 t b m h w := by
    intro h w
    rw [Read.val_main_v23_apply, sig_flat x0 x3 hπ t b m h w _ (flat_idx t b m h w _ rfl rfl rfl rfl),
      tgt_flat x2 t b m h w _ (flat_idx t b m h w _ rfl rfl rfl rfl)]
    rfl
  rw [Read.val_main_v24_apply, Read.val_main_cst_4_apply, sum_pix]
  simp only [e]
  simp only [Ideal.ofBits_def, Ideal.ofBits_zero_f32, zero_add]
  rfl

/-- The sum over the flattened plane of the sigmoid is the specification's sigmoid sum. -/
theorem sigSum_at (hπ : ∀ j : S6x2x20.Idx, (x3 j).toNat < 100) (t : Fin 6) (b : Fin 2) (m : Fin 20) :
    Read.val_main_v27 (F := Ideal) x0 x3 (ix3 t b m) = Cert.Spec.sigSum x0 x3 t b m := by
  have e : ∀ (h w : Fin 128), Read.val_main_v21 (F := Ideal) x0 x3 (Read.idx_main_v27 (ix3 t b m) (pixEquiv (h, w)))
      = Cert.Spec.sig (Cert.Spec.src x0 x3 t b m h w) :=
    fun h w => sig_flat x0 x3 hπ t b m h w _ (flat_idx t b m h w _ rfl rfl rfl rfl)
  rw [Read.val_main_v27_apply, Read.val_main_cst_6_apply, sum_pix]
  simp only [e]
  simp only [Ideal.ofBits_def, Ideal.ofBits_zero_f32, zero_add]
  rfl

/-- The sum over the flattened plane of the target is the specification's target sum. -/
theorem tgtSum_at (t : Fin 6) (b : Fin 2) (m : Fin 20) :
    Read.val_main_v28 (F := Ideal) x2 (ix3 t b m) = Cert.Spec.tgtSum x2 t b m := by
  have e : ∀ (h w : Fin 128), Read.val_main_v22 (F := Ideal) x2 (Read.idx_main_v28 (ix3 t b m) (pixEquiv (h, w)))
      = Cert.Spec.tgt x2 t b m h w :=
    fun h w => tgt_flat x2 t b m h w _ (flat_idx t b m h w _ rfl rfl rfl rfl)
  rw [Read.val_main_v28_apply, Read.val_main_cst_7_apply, sum_pix]
  simp only [e]
  simp only [Ideal.ofBits_def, Ideal.ofBits_zero_f32, zero_add]
  rfl

/-- The dice array at (t, b, m) is the specification's dice term. -/
theorem diceTerm_at (hπ : ∀ j : S6x2x20.Idx, (x3 j).toNat < 100) (t : Fin 6) (b : Fin 2) (m : Fin 20) :
    Read.val_main_v34 (F := Ideal) x0 x2 x3 (ix3 t b m) = Cert.Spec.diceTerm x0 x2 x3 t b m := by
  rw [Read.val_main_v34_apply, Read.val_main_v33_apply, Read.val_main_cst_9_apply, Read.val_main_v32_apply,
    Read.val_main_v26_apply, Read.val_main_v25_apply, Read.val_main_cst_5_apply, prodSum_at x0 x2 x3 hπ,
    Read.val_main_v31_apply, Read.val_main_v29_apply, sigSum_at x0 x3 hπ, tgtSum_at, Read.val_main_v30_apply,
    Read.val_main_cst_8_apply]
  simp only [Ideal.ofBits_def]
  rfl

/-- THE DICE LOSS: the total of the dice terms over (t, b, m), divided by their number. -/
theorem v36_spec (hπ : ∀ j : S6x2x20.Idx, (x3 j).toNat < 100) :
    Read.val_main_v36 (F := Ideal) x0 x2 x3 = fun _ => Cert.Spec.lossDice x0 x2 x3 := by
  funext i
  rw [Read.val_main_v36_apply, Read.val_main_v35_apply, Read.val_main_cst_10_apply, Read.val_main_cst_11_apply, sum_idx3]
  simp only [diceTerm_at x0 x2 x3 hπ]
  simp only [Ideal.ofBits_def, Ideal.ofBits_zero_f32, zero_add, Ideal.hostDivf_def]
  rfl

end Stages

/-! ## The two results of the reference's run -/

/-- The reference's first result is the specification's mask loss. -/
theorem mask_eq (m : (ℓ : Loc nD τ sig) → Buf (Elt Ideal) ℓ) (c : Dev nD)
    (hπ : ∀ j : S6x2x20.Idx, ((m ((c.tc : Thread nD τ).loc main_arg3)) j).toNat < 100) :
    Value.res_main_v14 (F := Ideal) m c = fun _ => Cert.Spec.lossMask (m ((c.tc : Thread nD τ).loc main_arg0)) (m ((c.tc : Thread nD τ).loc main_arg2)) (m ((c.tc : Thread nD τ).loc main_arg3)) := by
  rw [Read.val_main_v14_eq]
  exact v14_spec _ _ _ hπ

/-- The reference's second result is the specification's dice loss. -/
theorem dice_eq (m : (ℓ : Loc nD τ sig) → Buf (Elt Ideal) ℓ) (c : Dev nD)
    (hπ : ∀ j : S6x2x20.Idx, ((m ((c.tc : Thread nD τ).loc main_arg3)) j).toNat < 100) :
    Value.res_main_v36 (F := Ideal) m c = fun _ => Cert.Spec.lossDice (m ((c.tc : Thread nD τ).loc main_arg0)) (m ((c.tc : Thread nD τ).loc main_arg2)) (m ((c.tc : Thread nD τ).loc main_arg3)) := by
  rw [Read.val_main_v36_eq]
  exact v36_spec _ _ _ hπ

end Cert.ReferenceIdeal.RefMask

end
-- ==== Proof.ValueClaims.lean ====
/-
  The reference's frame and the equivalence claim.

  The reference is a host program: its generated run gives its frame and its five results as terms of its arguments.
  Under the precondition every entry of the matching is below 100, so the reference's gather takes the matched plane and
  its first two results are the specification's mask loss and dice loss; the idealized kernel program's first two
  results are the same two numbers; the embedding losses are one function of the embeddings and the matching on both
  sides, and the totals one combination of the four. The memories agree on the arguments, so the results are equal.
-/
import proofs.«431483_j19456201851405_2_alg».proof.Defs
import proofs.«431483_j19456201851405_2_alg».proof.Proof.KI.Results
import proofs.«431483_j19456201851405_2_alg».proof.Proof.Tail
import proofs.«431483_j19456201851405_2_alg».proof.Proof.RefMask
import proofs.«431483_j19456201851405_2_alg».proof.Proof.Gen.ReferenceIdeal.Run

noncomputable section

namespace Cert.Proof.ValueClaims

open Idealize.ShloMosaic Idealize.ShloMosaic.TcCoe Idealize.SL.Sem

/-- The reference's frame: its generated run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

theorem algebraic : Cert.algebraic_KernelIdeal_ReferenceIdeal := by
  intro m ρ m' ρ' hpre hagree
  have hH := Cert.KernelIdeal.Fr.hyps_of_pre m ρ hpre
  have hπ : ∀ (c : Dev Cert.ReferenceIdeal.nD) (j : Cert.ReferenceIdeal.S6x2x20.Idx),
      BitVec.toNat ((m' ((c.tc : Thread Cert.ReferenceIdeal.nD Cert.ReferenceIdeal.τ).loc Cert.ReferenceIdeal.main_arg3)) j) < 100 := fun c j => by
    rw [(hagree c).2.2.2]; exact Cert.PreRange.perm_lt (F := Ideal) _ _ _ _ (hpre c) j
  refine ⟨_, _, _, _, _, Cert.KernelIdeal.Fr.results m ρ hH, ?_⟩
  refine (θ_run Cert.ReferenceIdeal.defs _ _).mono (fun r h c => ?_) (Cert.ReferenceIdeal.Value.run (F := Ideal) m' ρ')
  obtain ⟨h14, h36, h60, h53, h67, hargs⟩ := h c
  have e14 := Cert.ReferenceIdeal.RefMask.mask_eq m' c (hπ c)
  have e36 := Cert.ReferenceIdeal.RefMask.dice_eq m' c (hπ c)
  have e60 := Cert.TailBridge.ref_ctr m' c
  have e53 := Cert.TailBridge.ref_match m' c
  have e67 := Cert.TailBridge.ref_total m' c
  rw [e14, e36, e53, e60] at e67
  rw [(hagree c).1, (hagree c).2.2.1] at e14 e36 e67
  rw [(hagree c).2.1] at e60 e53 e67
  rw [(hagree c).2.2.2] at e14 e36 e60 e53 e67
  exact ⟨h14.trans e14, h36.trans e36, h60.trans e60, h53.trans e53, h67.trans e67, hargs⟩

end Cert.Proof.ValueClaims

end
-- ==== Proof.lean ====
/-
  The certificate's claim: the two kernel programs and the reference each run to the end without a fault and leave
  their arguments unchanged, and at the ideal instance the kernel program and the reference return equal results.

  The kernel computes, for every frame t, batch b and target m, three sums over the 128 x 128 pixels of the prediction
  plane the matching names against the target plane: of the binary cross-entropy with logits, of sigmoid times target
  (doubled), and of sigmoid plus target plus a small constant. Its host code divides the total of the first by the number
  of pixels and averages 1 - numerator / denominator over the 240 targets. The reference gathers the matched planes with
  take_along_axis and reduces over all five axes at once, or over the flattened 16384 pixels; over the extended reals
  a finite sum may be regrouped freely, the kernel's sigmoid is the reference's 1 / (1 + exp(-x)), and 0 - |x| is -|x|,
  so the two mask losses and the two dice losses are the same numbers. The two embedding losses are computed by the
  same host operations on the same arguments in both programs, and the total is the same combination of the four.

  The precondition also bounds every entry of the matching to [0, 100): the kernel indexes the block of 100 planes with
  it, and outside that range the reference's gather yields not-a-number.
-/
import proofs.«431483_j19456201851405_2_alg».proof.Defs
import proofs.«431483_j19456201851405_2_alg».proof.Proof.Gen.Kernel
import proofs.«431483_j19456201851405_2_alg».proof.Proof.Gen.KernelIdeal
import proofs.«431483_j19456201851405_2_alg».proof.Proof.Gen.ReferenceIdeal
import proofs.«431483_j19456201851405_2_alg».proof.Proof.Gen.Pre_finite_inputs
import proofs.«431483_j19456201851405_2_alg».proof.Proof.KernelClaims
import proofs.«431483_j19456201851405_2_alg».proof.Proof.ValueClaims

noncomputable section

namespace Cert.Proof

theorem claim : Cert.Claim :=
  ⟨Cert.Kernel.Gen.facts, Cert.KernelIdeal.Gen.facts, Cert.ReferenceIdeal.Gen.facts, Cert.Pre_finite_inputs.Gen.facts,
    KernelClaims.frame_p, KernelClaims.frame_pi, ValueClaims.frame_ri, KernelClaims.preserves, ValueClaims.algebraic⟩

end Cert.Proof

end
